-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S32000x2048 : Shape := ⟨2, ![32000, 2048]⟩
abbrev S2x4096 : Shape := ⟨2, ![2, 4096]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_v8 : IVec S_ 1) (main_v16 : IVec S2x4096 1) : IVec S_ 1 :=
  let main_c_5 : IVec S_ 1 := constantI S_ 1 1#1
  let main_v17 : IVec S_ 1 := (fun x v => Host.reduce IntOp.andi x v reducesTo_S2x4096_S_d0_1 h_S_) main_v16 main_c_5
  let main_v18 : IVec S_ 1 := andi main_v8 main_v17
  main_v18

def fn {F : FTy → Type} [FloatOps F] (main_arg0 : FVec F S2x4096x2048 .f32) (main_arg1 : FVec F S32000x2048 .f32) (main_arg2 : IVec S2x4096 32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 4294967196#32
  let main_v9 : IVec S2x4096 32 := broadcastInDim S2x4096 ![] bcast_S_S2x4096 main_c_2
  let main_v10 : IVec S2x4096 1 := cmpi .eq main_arg2 main_v9
  let main_c_3 : IVec S_ 32 := constantI S_ 32 0#32
  let main_v11 : IVec S2x4096 32 := broadcastInDim S2x4096 ![] bcast_S_S2x4096 main_c_3
  let main_v12 : IVec S2x4096 1 := cmpi .sge main_arg2 main_v11
  let main_c_4 : IVec S_ 32 := constantI S_ 32 32000#32
  let main_v13 : IVec S2x4096 32 := broadcastInDim S2x4096 ![] bcast_S_S2x4096 main_c_4
  let main_v14 : IVec S2x4096 1 := cmpi .slt main_arg2 main_v13
  let main_v15 : IVec S2x4096 1 := andi main_v12 main_v14
  let main_v16 : IVec S2x4096 1 := ori main_v10 main_v15
  fn_part1 (F := F) main_v8 main_v16
-- ==== Kernel.lean ====
abbrev S2x4096x2048 : Shape := ⟨3, ![2, 4096, 2048]⟩
abbrev S32000x2048 : Shape := ⟨2, ![32000, 2048]⟩
abbrev S2x4096 : Shape := ⟨2, ![2, 4096]⟩
abbrev S8192x2048 : Shape := ⟨2, ![8192, 2048]⟩
abbrev S8192 : Shape := ⟨1, ![8192]⟩
abbrev S8192x1 : Shape := ⟨2, ![8192, 1]⟩
abbrev S1024x2048 : Shape := ⟨2, ![1024, 2048]⟩
abbrev S640x2048 : Shape := ⟨2, ![640, 2048]⟩
abbrev S1024x1 : Shape := ⟨2, ![1024, 1]⟩
abbrev S1024x640 : Shape := ⟨2, ![1024, 640]⟩
abbrev S1x640 : Shape := ⟨2, ![1, 640]⟩
abbrev S1024 : Shape := ⟨1, ![1024]⟩
abbrev S_ : Shape := ⟨0, ![]⟩

abbrev nBuf : Space → Nat
  | .hbm => 17
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S32000x2048, .f32⟩
  | .hbm, ⟨2, _⟩ => ⟨S2x4096, .i32⟩
  | .hbm, ⟨3, _⟩ => ⟨S8192x2048, .f32⟩
  | .hbm, ⟨4, _⟩ => ⟨S8192, .i32⟩
  | .hbm, ⟨5, _⟩ => ⟨S8192x1, .i32⟩
  | .hbm, ⟨6, _⟩ => ⟨S8192x2048, .bf16⟩
  | .hbm, ⟨7, _⟩ => ⟨S32000x2048, .bf16⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S640x2048, .bf16⟩
  | .local _ .vmem, ⟨3, _⟩ => ⟨S640x2048, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 50], ![false, false]⟩

def k0_cond2 (i : grid0.Coords) : BitVec 1 :=
  let arg1 : BitVec 32 := BitVec.ofNat 32 (i 1).val
  let c49_i32 : BitVec 32 := 49#32
  let v46 : BitVec 1 := Scalar.cmpi .eq arg1 c49_i32
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x4096x2048_S8192x2048 : S2x4096x2048.ShapeCasts S8192x2048
  shapeCasts_S2x4096_S8192 : S2x4096.ShapeCasts S8192
  shapeCasts_S8192_S8192x1 : S8192.ShapeCasts S8192x1
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S640x2048_S640x2048_0_0 : ∀ a, (![0, 0] : Fin 2 → Nat) a + S640x2048.size a ≤ S640x2048.size a
  h_S640x2048 : 0 < S640x2048.numel
  shapeCasts_S640x2048_S640x2048 : S640x2048.ShapeCasts S640x2048
  iota_S1x640_d1_w32 : S1x640.Iotas .tc 32 [1]
  broadcasts_S1024x1_S1024x640 : S1024x1.Broadcasts S1024x640
  broadcasts_S1x640_S1024x640 : S1x640.Broadcasts S1024x640
  reduces_S1024x640_S1024 : S1024x640.Reduces [1] S1024
  shapeCasts_S1024_S1024x1 : S1024.ShapeCasts S1024x1
  natLt_1_32 : 1 < 32
  reducesTo_S8192x1_S_d0_1 : S8192x1.ReducesTo [0, 1] S_
  h_S_ : 0 < S_.numel
  dot_S1024x2048_S640x2048_S1024x640_1_1_0_0_n_n_wf : DotDims.WF S1024x2048 S640x2048 S1024x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .bf16 = 32 ∨ (Rect.block (s := S32000x2048) S640x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x2048_S640x2048_S1024x640_1_1_0_0_n_n : DotDims S1024x2048 S640x2048 S1024x640 where
  lhsContracting := [1]
  rhsContracting := [1]
  lhsNonContracting := [0]
  rhsNonContracting := [0]
  lhsBatch := []
  rhsBatch := []
  wf := dot_S1024x2048_S640x2048_S1024x640_1_1_0_0_n_n_wf

abbrev win0_0 : Pipeline.Window sig grid0 :=
  Pipeline.Window.ofSpec (Memref.whole main_v3) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x2048 : Shape := ⟨3, ![2, 4096, 2048]⟩
abbrev S32000x2048 : Shape := ⟨2, ![32000, 2048]⟩
abbrev S2x4096 : Shape := ⟨2, ![2, 4096]⟩
abbrev S8192x2048 : Shape := ⟨2, ![8192, 2048]⟩
abbrev S8192 : Shape := ⟨1, ![8192]⟩
abbrev S8192x32000 : Shape := ⟨2, ![8192, 32000]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32000x2048, .f32⟩
  | .hbm, ⟨2, _⟩ => ⟨S2x4096, .i32⟩
  | .hbm, ⟨3, _⟩ => ⟨S8192x2048, .f32⟩
  | .hbm, ⟨4, _⟩ => ⟨S8192, .i32⟩
  | .hbm, ⟨5, _⟩ => ⟨S8192x32000, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x32000, .f32⟩
  | .hbm, ⟨13, _⟩ => ⟨S8192x32000, .f32⟩
  | .hbm, ⟨14, _⟩ => ⟨S8192x32000, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S8192x32000, .f32⟩
  | .hbm, ⟨20, _⟩ => ⟨S8192x32000, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S_, .i32⟩
  | .hbm, ⟨30, _⟩ => ⟨S8192x1, .i32⟩
  | .hbm, ⟨31, _⟩ => ⟨S8192x1, .i1⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S8192x1, .i32⟩
  | .hbm, ⟨36, _⟩ => ⟨S8192x1x1, .i32⟩
  | .hbm, ⟨37, _⟩ => ⟨S1, .i32⟩
  | .hbm, ⟨38, _⟩ => ⟨S_, .i32⟩
  | .hbm, ⟨39, _⟩ => ⟨S8192x1x1, .i32⟩
  | .hbm, ⟨40, _⟩ => ⟨S8192x1x1, .i1⟩
  | .hbm, ⟨41, _⟩ => ⟨S1x1x1, .i32⟩
  | .hbm, ⟨42, _⟩ => ⟨S8192x1x1, .i32⟩
  | .hbm, ⟨43, _⟩ => ⟨S8192x1x1, .i1⟩
  | .hbm, ⟨44, _⟩ => ⟨S8192x1x1, .i1⟩
  | .hbm, ⟨45, _⟩ => ⟨S_, .i1⟩
  | .hbm, ⟨46, _⟩ => ⟨S8192x1, .i1⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_v6 : Ref sig .tc := ⟨.hbm, 27, rfl⟩
abbrev main_v7 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst : Ref sig .tc := ⟨.hbm, 54, rfl⟩
abbrev main_v12 : Ref sig .tc := ⟨.hbm, 55, rfl⟩
abbrev main_cst_1 : Ref sig .tc := ⟨.hbm, 56, rfl⟩
abbrev main_v13 : Ref sig .tc := ⟨.hbm, 57, rfl⟩
abbrev main_cst_2 : Ref sig .tc := ⟨.hbm, 58, rfl⟩
abbrev main_call3_v0 : Ref sig .tc := ⟨.hbm, 59, rfl⟩
abbrev main_call3_v1 : Ref sig .tc := ⟨.hbm, 60, rfl⟩
abbrev main_v14 : Ref sig .tc := ⟨.hbm, 61, rfl⟩
abbrev main_cst_3 : Ref sig .tc := ⟨.hbm, 62, rfl⟩
abbrev main_v15 : Ref sig .tc := ⟨.hbm, 63, rfl⟩
abbrev main_v16 : Ref sig .tc := ⟨.hbm, 64, rfl⟩

abbrev nD : Nat := 1
abbrev τ : Topo := Topo.v7x

variable {F : FTy → Type} [FloatOps F]

class Facts₀ : Prop where
  shapeCasts_S2x4096x2048_S8192x2048 : S2x4096x2048.ShapeCasts S8192x2048
  shapeCasts_S2x4096_S8192 : S2x4096.ShapeCasts S8192
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x2048_S32000x2048_S8192x32000_1_1_0_0_n_n_wf : DotDims.WF S8192x2048 S32000x2048 S8192x32000 [1] [1] [0] [0] [] []
  gather_S8192x32000_S8192x1x1_S8192x1_n_1_0_0_1_2_11_wf : GatherDims.WF S8192x32000 S8192x1x1 S8192x1 [] [1] [0] [1] [0] 2 ![1, 1]

variable [Facts₀]

def dot_S8192x2048_S32000x2048_S8192x32000_1_1_0_0_n_n : DotDims S8192x2048 S32000x2048 S8192x32000 where
  lhsContracting := [1]
  rhsContracting := [1]
  lhsNonContracting := [0]
  rhsNonContracting := [0]
  lhsBatch := []
  rhsBatch := []
  wf := dot_S8192x2048_S32000x2048_S8192x32000_1_1_0_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.LseMath.lean ====
/-
  The arithmetic of a streamed log-sum-exp, over the reals inside the extended reals.

  A row of logits `L v` is summed in blocks: with `P` the sum of `exp (L v)` over the columns seen so far, the
  kernel keeps a running bound `m` and the rescaled sum `exp (-m) * P`.  One step, from bound `mp` to bound `mn`,
  multiplies the kept sum by `exp (mp - mn)` and adds the new block's `exp (L v - mn)`: the result is
  `exp (-mn) * (P + block)`, WHATEVER real number the new bound is.  At the end `m + log (exp (-m) * P) = log P`,
  so the bound cancels; the reference's shifted form `(s - M) - log (sum of exp (L v - M))` is `s - log P` for the
  same reason.  Only real numbers occur, so every law used is a law of the reals.
-/
import Idealize.ShloMosaic.PureOps.Ideal
import Idealize.ShloMosaic.PureOps.Ideal.Laws
import Mathlib.Data.Finset.Fold

noncomputable section

namespace Cert.Lse

open Idealize.ShloMosaic

/-- A finite sum of reals, read in the extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a difference of two reals. -/
theorem exp_sub_coe (a b : ℝ) : Ideal.exp ((a : EReal) - (b : EReal)) = ((Real.exp (a - b) : ℝ) : EReal) := by
  rw [← EReal.coe_sub]; rfl

/-- ONE STEP of the streamed sum: rescaling the kept sum from bound `mp` to bound `mn` and adding the block's
    exponentials shifted by `mn` gives the rescaled sum of everything seen, for any real `mn`. -/
theorem stream_step {C : ℕ} (mp mn Pp : ℝ) (blk : Fin C → ℝ) :
    Ideal.exp ((mp : EReal) - (mn : EReal)) * ((Real.exp (-mp) * Pp : ℝ) : EReal)
        + ∑ c : Fin C, Ideal.exp ((blk c : EReal) - (mn : EReal))
      = ((Real.exp (-mn) * (Pp + ∑ c : Fin C, Real.exp (blk c)) : ℝ) : EReal) := by
  simp only [exp_sub_coe]
  rw [← coe_sum, ← EReal.coe_mul, ← EReal.coe_add]
  congr 1
  rw [mul_add, Finset.mul_sum]
  congr 1
  · rw [← mul_assoc, ← Real.exp_add]; congr 2; ring
  · refine Finset.sum_congr rfl fun c _ => ?_
    rw [← Real.exp_add]; congr 1; ring

/-- The first step starts from an empty sum: the kept sum is `0`, whatever the starting bound. -/
theorem stream_first {C : ℕ} (mp mn : ℝ) (blk : Fin C → ℝ) :
    Ideal.exp ((mp : EReal) - (mn : EReal)) * (0 : EReal)
        + ∑ c : Fin C, Ideal.exp ((blk c : EReal) - (mn : EReal))
      = ((Real.exp (-mn) * (∑ c : Fin C, Real.exp (blk c)) : ℝ) : EReal) := by
  have h := stream_step mp mn 0 blk
  rw [mul_zero, EReal.coe_zero, zero_add] at h
  exact h

/-- The bound cancels: `m + log (exp (-m) * P) = log P` for a positive `P`. -/
theorem bound_cancels (m P : ℝ) (hP : 0 < P) :
    (m : EReal) + Ideal.log ((Real.exp (-m) * P : ℝ) : EReal) = ((Real.log P : ℝ) : EReal) := by
  have hpos : 0 < Real.exp (-m) * P := mul_pos (Real.exp_pos _) hP
  rw [Ideal.log_coe, if_neg (not_le.mpr hpos), ← EReal.coe_add]
  congr 1
  rw [Real.log_mul (Real.exp_pos _).ne' hP.ne', Real.log_exp]; ring

/-- The reference's shifted form: `(s - M) - log (exp (-M) * P) = s - log P`. -/
theorem shift_cancels (s M P : ℝ) (hP : 0 < P) :
    ((s : EReal) - (M : EReal)) - Ideal.log ((Real.exp (-M) * P : ℝ) : EReal) = ((s - Real.log P : ℝ) : EReal) := by
  have hpos : 0 < Real.exp (-M) * P := mul_pos (Real.exp_pos _) hP
  rw [Ideal.log_coe, if_neg (not_le.mpr hpos), ← EReal.coe_sub, ← EReal.coe_sub]
  congr 1
  rw [Real.log_mul (Real.exp_pos _).ne' hP.ne', Real.log_exp]; ring

/-- The reference's sum of shifted exponentials is the rescaled sum. -/
theorem shifted_sum {V : ℕ} (M : ℝ) (L : Fin V → ℝ) :
    ∑ v : Fin V, Ideal.exp ((L v : EReal) - (M : EReal)) = ((Real.exp (-M) * ∑ v : Fin V, Real.exp (L v) : ℝ) : EReal) := by
  have h := stream_first (C := V) 0 M L
  rw [mul_zero, zero_add] at h
  exact h

/-- A sum of exponentials over a nonempty range is positive. -/
theorem sum_exp_pos {V : ℕ} (hV : 0 < V) (L : Fin V → ℝ) : 0 < ∑ v : Fin V, Real.exp (L v) :=
  Finset.sum_pos (fun v _ => Real.exp_pos _) ⟨⟨0, hV⟩, Finset.mem_univ _⟩

/-- The larger of a real and the maximum (from `-∞`) of finitely many reals is a real. -/
theorem max_fold_real {C : ℕ} (mp : ℝ) (blk : Fin C → ℝ) :
    ∃ mn : ℝ, max (mp : EReal) ((Finset.univ : Finset (Fin C)).fold max ⊥ (fun c => (blk c : EReal))) = (mn : EReal) := by
  have hlt : (Finset.univ : Finset (Fin C)).fold max ⊥ (fun c => (blk c : EReal)) < ⊤ :=
    (Finset.fold_max_lt _).mpr ⟨bot_lt_top, fun c _ => EReal.coe_lt_top _⟩
  generalize (Finset.univ : Finset (Fin C)).fold max ⊥ (fun c => (blk c : EReal)) = x at hlt
  induction x using EReal.rec with
  | bot => exact ⟨mp, max_eq_left bot_le⟩
  | coe r => exact ⟨max mp r, (EReal.coe_strictMono.monotone.map_max).symm⟩
  | top => exact absurd hlt (lt_irrefl _)

/-- The maximum (from `-∞`, and once more against `-∞`) of a nonempty family of reals is a real. -/
theorem bot_max_fold_real {V : ℕ} (hV : 0 < V) (L : Fin V → ℝ) :
    ∃ M : ℝ, max (⊥ : EReal) ((Finset.univ : Finset (Fin V)).fold max ⊥ (fun v => (L v : EReal))) = (M : EReal) := by
  have hlt : (Finset.univ : Finset (Fin V)).fold max ⊥ (fun v => (L v : EReal)) < ⊤ :=
    (Finset.fold_max_lt _).mpr ⟨bot_lt_top, fun c _ => EReal.coe_lt_top _⟩
  have hge : (L ⟨0, hV⟩ : EReal) ≤ (Finset.univ : Finset (Fin V)).fold max ⊥ (fun v => (L v : EReal)) :=
    (Finset.le_fold_max _).mpr (Or.inr ⟨⟨0, hV⟩, Finset.mem_univ _, le_rfl⟩)
  generalize (Finset.univ : Finset (Fin V)).fold max ⊥ (fun v => (L v : EReal)) = x at hlt hge
  induction x using EReal.rec with
  | bot => exact absurd hge (not_le.mpr (EReal.bot_lt_coe _))
  | coe r => exact ⟨r, max_eq_right bot_le⟩
  | top => exact absurd hlt (lt_irrefl _)

end Cert.Lse

end
-- ==== Proof.Spec.lean ====
/-
  What both programs compute, as one function of the three argument arrays.

  The tokens are the 8192 rows `n` of the activations read as an [8192, 2048] matrix (row `n` is entry
  `(n / 4096, n % 4096)` of the [2, 4096] batch), the classes the 32000 rows `v` of the weight.  Row `n`'s logit for class
  `v` is the inner product `logit n v`; with finite inputs it is a real number `logitR n v`.  With
  `Z n = sum over v of exp (logitR n v)`, a token whose target `t n` is a class contributes
  `log (Z n) - logitR n (t n)` (its negative log-probability) and counts as `1`; a token whose target is the
  ignore value `-100` contributes `0` and counts as `0`.  The loss is the sum of the contributions divided by the
  larger of the count and `1`.
-/
import Idealize.ShloMosaic.PureOps.Ideal
import Idealize.ShloMosaic.PureOps.Ideal.Laws
import Idealize.ShloMosaic.Lib.ValueIdx
import proofs.«403814_j70300024701269_3_alg».proof.Proof.LseMath

noncomputable section

namespace Cert.Spec

open Idealize.ShloMosaic Idealize.ShloMosaic.ValueIdx

abbrev SX : Shape := ⟨3, ![2, 4096, 2048]⟩
abbrev SW : Shape := ⟨2, ![32000, 2048]⟩
abbrev ST : Shape := ⟨2, ![2, 4096]⟩

/-- Token `n`'s batch coordinate. -/
def hi (n : Fin 8192) : Fin 2 := ⟨n.val / 4096, by have := n.isLt; omega⟩
/-- Token `n`'s position in its batch entry. -/
def lo (n : Fin 8192) : Fin 4096 := ⟨n.val % 4096, by have := n.isLt; omega⟩

/-- The ignore value `-100` as a 32-bit word. -/
abbrev ignoreWord : BitVec 32 := 4294967196#32

/-- Token `n`'s logit for class `v`: the inner product of activation row `n` and weight row `v`. -/
def logit (x : SX.Idx → EReal) (w : SW.Idx → EReal) (n : Fin 8192) (v : Fin 32000) : EReal :=
  ∑ k : Fin 2048, x (ix3 (hi n) (lo n) k) * w (ix2 v k)

/-- The logit as a real number (its meaning when the inputs are finite). -/
def logitR (x : SX.Idx → EReal) (w : SW.Idx → EReal) (n : Fin 8192) (v : Fin 32000) : ℝ := (logit x w n v).toReal

/-- The normaliser of token `n`: the sum of the exponentials of its logits. -/
def Z (x : SX.Idx → EReal) (w : SW.Idx → EReal) (n : Fin 8192) : ℝ := ∑ v : Fin 32000, Real.exp (logitR x w n v)

/-- Token `n`'s target word. -/
def tgt (t : ST.Idx → BitVec 32) (n : Fin 8192) : BitVec 32 := t (ix2 (hi n) (lo n))

/-- Token `n`'s target as a class (meaningful when the word is below 32000). -/
def tcol (t : ST.Idx → BitVec 32) (n : Fin 8192) : Fin 32000 := ⟨(tgt t n).toNat % 32000, Nat.mod_lt _ (by norm_num)⟩

/-- Token `n`'s contribution: `0` if ignored, else `log (Z n) - logit n (t n)`. -/
def nllRow (x : SX.Idx → EReal) (w : SW.Idx → EReal) (t : ST.Idx → BitVec 32) (n : Fin 8192) : EReal :=
  if tgt t n = ignoreWord then 0 else ((Real.log (Z x w n) - logitR x w n (tcol t n) : ℝ) : EReal)

/-- Token `n`'s count: `0` if ignored, else `1`. -/
def validRow (t : ST.Idx → BitVec 32) (n : Fin 8192) : EReal := if tgt t n = ignoreWord then 0 else 1

/-- The loss: the contributions' sum over the larger of the count and one (the word `0x3F800000` is the float `1`). -/
def loss (x : SX.Idx → EReal) (w : SW.Idx → EReal) (t : ST.Idx → BitVec 32) : EReal :=
  Ideal.div (0 + ∑ n : Fin 8192, nllRow x w t n) (max (0 + ∑ n : Fin 8192, validRow t n) (Ideal.ofBits .f32 0x3F800000#32))

/-- With finite inputs every logit is a real number. -/
theorem logit_eq_coe (x : SX.Idx → EReal) (w : SW.Idx → EReal) (hx : ∀ i, x i ≠ ⊤ ∧ x i ≠ ⊥) (hw : ∀ i, w i ≠ ⊤ ∧ w i ≠ ⊥)
    (n : Fin 8192) (v : Fin 32000) : logit x w n v = ((logitR x w n v : ℝ) : EReal) := by
  have hsum : logit x w n v = ((∑ k : Fin 2048, (x (ix3 (hi n) (lo n) k)).toReal * (w (ix2 v k)).toReal : ℝ) : EReal) := by
    unfold logit
    rw [Cert.Lse.coe_sum]
    refine Finset.sum_congr rfl fun k _ => ?_
    rw [EReal.coe_mul, EReal.coe_toReal (hx _).1 (hx _).2, EReal.coe_toReal (hw _).1 (hw _).2]
  unfold logitR
  rw [hsum, EReal.toReal_coe]

/-- The normaliser is positive. -/
theorem Z_pos (x : SX.Idx → EReal) (w : SW.Idx → EReal) (n : Fin 8192) : 0 < Z x w n :=
  Cert.Lse.sum_exp_pos (by norm_num) _

end Cert.Spec

end
-- ==== Proof.PreFacts.lean ====
/-
  What the precondition says, read off its printed form: every activation and every weight is a finite number, and every
  target word is either the ignore value `-100` or a class number below 32000.
-/
import proofs.«403814_j70300024701269_3_alg».proof.Pre_finite_inputs
import proofs.«403814_j70300024701269_3_alg».proof.Proof.Gen.Pre_finite_inputs
import proofs.«403814_j70300024701269_3_alg».proof.Proof.Spec
import Idealize.ShloMosaic.Lib.ReduceAll
import Idealize.ShloMosaic.Lib.StableHlo.Predicate

noncomputable section

namespace Cert.PreFacts

open Idealize.ShloMosaic

/-- The rank-0 shape has one index. -/
local instance : Subsingleton Cert.Pre_finite_inputs.S_.Idx := ⟨fun a b => funext fun d => d.elim0⟩

/-- The word `0x7F800000` is `+∞`. -/
theorem inf_word : Ideal.ofBits .f32 0x7F800000#32 = ⊤ := by simp [Ideal.ofBits, Ideal.ieee]

/-- `|a| < +∞` says `a` is neither infinity. -/
theorem finite_of_abs_lt (a : EReal)
    (h : Ideal.cmp .olt (max a (-a)) (Ideal.ofBits .f32 0x7F800000#32) = 1#1) : a ≠ ⊤ ∧ a ≠ ⊥ := by
  rw [inf_word] at h
  unfold Ideal.cmp at h
  rw [StableHlo.Predicate.ofBool_eq_one_iff] at h
  have hlt : max a (-a) < ⊤ := of_decide_eq_true h
  obtain ⟨h1, h2⟩ := max_lt_iff.1 hlt
  refine ⟨ne_of_lt h1, ?_⟩
  rintro rfl
  simp at h2

/-- A word that is `-100`, or signed-at-least 0 and signed-below 32000, is `-100` or has value below 32000. -/
theorem target_of_mask (a : BitVec 32)
    (h : IntOp.ori (IntOp.cmpi .eq a 4294967196#32) (IntOp.andi (IntOp.cmpi .sge a 0#32) (IntOp.cmpi .slt a 32000#32)) = 1#1) :
    a = Cert.Spec.ignoreWord ∨ a.toNat < 32000 := by
  rcases IntOp.ori_eq_one.1 h with h | h
  · exact Or.inl (IntOp.cmpi_eq.1 h)
  · obtain ⟨h1, h2⟩ := IntOp.andi_eq_one.1 h
    have h1 := IntOp.cmpi_sge.1 h1
    have h2 := IntOp.cmpi_slt.1 h2
    have e0 : (0#32 : BitVec 32).toInt = 0 := by decide
    have e1 : (32000#32 : BitVec 32).toInt = 32000 := by decide
    rw [e0] at h1
    rw [e1] at h2
    right
    rw [BitVec.toInt_eq_toNat_cond] at h1 h2
    have := a.isLt
    split at h1 <;> omega

theorem decode (x : FVec Ideal Cert.Spec.SX .f32) (w : FVec Ideal Cert.Spec.SW .f32) (t : IVec Cert.Spec.ST 32)
    (h : Cert.Pre_finite_inputs.fn (F := Ideal) x w t = fun _ => 1#1) :
    (∀ i, (x i : EReal) ≠ ⊤ ∧ (x i : EReal) ≠ ⊥) ∧ (∀ i, (w i : EReal) ≠ ⊤ ∧ (w i : EReal) ≠ ⊥)
      ∧ (∀ i, t i = Cert.Spec.ignoreWord ∨ (t i).toNat < 32000) := by
  have h0 := congrFun h ValueIdx.ix0
  dsimp only [Cert.Pre_finite_inputs.fn, Cert.Pre_finite_inputs.fn_part1, andi] at h0
  obtain ⟨h12, h3⟩ := IntOp.andi_eq_one.1 h0
  obtain ⟨h1, h2⟩ := IntOp.andi_eq_one.1 h12
  refine ⟨fun i => ?_, fun i => ?_, fun i => ?_⟩
  · have e := Host.reduce_andi_all _ _ _ _ _ h1 i
    exact finite_of_abs_lt (x i) e
  · have e := Host.reduce_andi_all _ _ _ _ _ h2 i
    exact finite_of_abs_lt (w i) e
  · have e := Host.reduce_andi_all _ _ _ _ _ h3 i
    exact target_of_mask (t i) e

end Cert.PreFacts

end
-- ==== Proof.KPieces.lean ====
/-
  What each control case of the kernel body leaves in the three carried accumulators (the running bound, the rescaled
  sum of exponentials, the target logit picked so far) and, at a row block's last vocabulary block, in the two output
  blocks: each is one of the body's pure payload terms applied to the blocks the point was given and to what the
  point before left.  At a row block's first vocabulary block the accumulators start from the body's own constants.
-/
import proofs.«403814_j70300024701269_3_alg».proof.Proof.Gen.KernelIdeal.Frame
import Idealize.ShloMosaic.Lib.Pipeline.Value

set_option maxRecDepth 16384

noncomputable section

namespace Cert.KernelIdeal.KPieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The offsets of the whole-block rectangle are all zero. -/
theorem hz : (![0, 0] : Fin 2 → Nat) = fun _ => 0 := funext fun a => by fin_cases a <;> rfl

theorem sout_A_0 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .bf16) (x1 : Vec F S640x2048 .bf16) (x2 : Vec F S1024x1 .i32) :
    sout0_A_0 c i arg2 harg2 arg3 harg3 arg4 harg4 arg5 harg5 arg6 harg6 arg7 harg7 arg8 harg8 arg9 harg9 hc0 hc1 x0 x1 x2 = k0_pay2 (k0_pay9 x0 x1 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, View.readCov_unit_zero (S := S1024x1) _ hz, View.ld_unit_zero (S := S1024x1) hz, View.ld_unit_zero (S := S1024x2048) hz, View.ld_unit_zero (S := S640x2048) hz]

theorem sout_A_1 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .bf16) (x1 : Vec F S640x2048 .bf16) (x2 : Vec F S1024x1 .i32) :
    sout0_A_1 c i arg2 harg2 arg3 harg3 arg4 harg4 arg5 harg5 arg6 harg6 arg7 harg7 arg8 harg8 arg9 harg9 hc0 hc1 x0 x1 x2 = k0_pay10 x0 x1 (k0_pay5 (F := F)) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, View.readCov_unit_zero (S := S1024x1) _ hz, View.ld_unit_zero (S := S1024x1) hz, View.ld_unit_zero (S := S1024x2048) hz, View.ld_unit_zero (S := S640x2048) hz]

theorem sout_A_2 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .bf16) (x1 : Vec F S640x2048 .bf16) (x2 : Vec F S1024x1 .i32) :
    sout0_A_2 c i arg2 harg2 arg3 harg3 arg4 harg4 arg5 harg5 arg6 harg6 arg7 harg7 arg8 harg8 arg9 harg9 hc0 hc1 x0 x1 x2 = k0_pay1 (k0_pay11 i x0 x1 x2) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, View.readCov_unit_zero (S := S1024x1) _ hz, View.ld_unit_zero (S := S1024x1) hz, View.ld_unit_zero (S := S1024x2048) hz, View.ld_unit_zero (S := S640x2048) hz]

theorem sout_B_0 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S640x2048 .bf16) (x2 : Vec F S1024x1 .i32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 arg9 harg9 hc0 hc1 x0 x1 x2 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S640x2048) hz]

theorem sout_B_1 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S640x2048 .bf16) (x2 : Vec F S1024x1 .i32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 arg9 harg9 hc0 hc1 x0 x1 x2 xs0 xs1 xs2 = k0_pay10 x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S640x2048) hz]

theorem sout_B_2 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S640x2048 .bf16) (x2 : Vec F S1024x1 .i32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 arg9 harg9 hc0 hc1 x0 x1 x2 xs0 xs1 xs2 = k0_pay1 (k0_pay11 i x0 x1 x2) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S640x2048) hz]

theorem sout_C_0 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S640x2048 .bf16) (x2 : Vec F S1024x1 .i32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 arg9 harg9 hc0 hc1 x0 x1 x2 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S640x2048) hz]

theorem sout_C_1 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S640x2048 .bf16) (x2 : Vec F S1024x1 .i32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 arg9 harg9 hc0 hc1 x0 x1 x2 xs0 xs1 xs2 = k0_pay10 x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S640x2048) hz]

theorem sout_C_2 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S640x2048 .bf16) (x2 : Vec F S1024x1 .i32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 arg9 harg9 hc0 hc1 x0 x1 x2 xs0 xs1 xs2 = k0_pay1 (k0_pay11 i x0 x1 x2) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S640x2048) hz]

theorem out_C_3 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S640x2048 .bf16) (x2 : Vec F S1024x1 .i32) (xs0 : Vec F S1024x1 .f32) (xs1 : Vec F S1024x1 .f32) (xs2 : Vec F S1024x1 .f32) :
    out0_C_3 c i arg2 harg2 arg3 harg3 arg4 harg4 arg5 harg5 arg6 harg6 arg7 harg7 arg8 harg8 arg9 harg9 hc0 hc1 x0 x1 x2 xs0 xs1 xs2 = k0_pay4 (k0_pay2 (k0_pay9 x0 x1 xs0)) (k0_pay10 x0 x1 xs0 xs1) (k0_pay1 (k0_pay11 i x0 x1 x2) xs2) x2 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, View.readCov_unit_zero (S := S1024x1) _ hz, View.ld_unit_zero (S := S1024x1) hz, View.ld_unit_zero (S := S1024x2048) hz, View.ld_unit_zero (S := S640x2048) hz]

theorem out_C_4 (c : Dev nD) (i : grid0.Coords) (arg2 : Memref sig .tc .vmem S1024x2048 .bf16) (harg2 : arg2.IsWhole) (arg3 : Memref sig .tc .vmem S640x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S640x2048 .bf16) (x2 : Vec F S1024x1 .i32) (xs0 : Vec F S1024x1 .f32) (xs1 : Vec F S1024x1 .f32) (xs2 : Vec F S1024x1 .f32) :
    out0_C_4 c i arg2 harg2 arg3 harg3 arg4 harg4 arg5 harg5 arg6 harg6 arg7 harg7 arg8 harg8 arg9 harg9 hc0 hc1 x0 x1 x2 xs0 xs1 xs2 = k0_pay3 x2 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x2048) hz, View.ld_unit_zero (S := S640x2048) hz]

end Cert.KernelIdeal.KPieces

end
-- ==== Proof.KPayload.lean ====
/-
  The kernel body's payload terms read at a row of the block, over the extended reals.

  For a block of 1024 activation rows `x0` and a block of 640 weight rows `x1`, `blkLogit x0 x1 r c` is the inner
  product of activation row `r` and weight row `c`.  Each payload of the body is a column [1024, 1]; at row `r` it is:
  the new running bound (the larger of the old bound and the row's largest logit of the block); the new rescaled sum
  (the old one times `exp (old bound - new bound)`, plus the row's `exp (logit - new bound)`); the target logit picked
  so far (the old value plus the logits of the block's columns whose number, offset by the block's first column, is
  the row's target); and at the last block the row's contribution and count.
-/
import proofs.«403814_j70300024701269_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.KPayload

open Idealize.ShloMosaic Idealize.ShloMosaic.ValueIdx
open Cert.KernelIdeal Cert.KernelIdeal.Gen

/-- The inner product of activation row `r` of the block `x0` and weight row `c` of the block `x1`. -/
def blkLogit (x0 : Vec Ideal S1024x2048 .bf16) (x1 : Vec Ideal S640x2048 .bf16) (r : Fin 1024) (c : Fin 640) : EReal :=
  ∑ k : Fin 2048, (x0 (ix2 r k) : EReal) * (x1 (ix2 c k) : EReal)

/-! ## The keepdims column forms of the layout operations, read at an index -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The exponential and the logarithm of a vector at an index (definitional) -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## The two lane reductions of a [1024, 640] block at a row -/

/-- The word `0xFF800000` denotes `-∞`. -/
theorem ofBits_neg_inf : Ideal.ofBits .f32 0xFF800000#32 = (⊥ : EReal) := by simp [Ideal.ofBits, Ideal.ieee]

/-- The index of a [1024, 640] block that the lane reduction reads at row `r` and lane `c`. -/
theorem lift_row (r : Fin 1024) (c : Fin 640) : reduces_S1024x640_S1024.lift (ix1 r) c = ix2 r c :=
  funext fun a => Fin.ext (by match a with | ⟨0, _⟩ => rfl | ⟨1, _⟩ => rfl)

/-- The lane sum of a block at row `r` is the sum over the row's 640 columns. -/
theorem rowSum_apply (src : FVec Ideal S1024x640 .f32) (r : Fin 1024) :
    multiReduction (F := Ideal) .add [1] S1024 src 0x00000000#32 reduces_S1024x640_S1024 (.inl rfl) rfl (ix1 r)
      = ∑ c : Fin 640, src (ix2 r c) := by
  refine (Ideal.multiReduction_add_single src _ reduces_S1024x640_S1024 _ _ (ix1 r)).trans ?_
  exact Finset.sum_congr rfl fun c _ => congrArg src (lift_row r c)

/-- The lane maximum of a block at row `r` is the fold of `max` from `-∞` over the row's 640 columns. -/
theorem rowMax_apply (src : FVec Ideal S1024x640 .f32) (r : Fin 1024) :
    multiReduction (F := Ideal) .maximumf [1] S1024 src 0xFF800000#32 reduces_S1024x640_S1024 (.inl rfl) rfl (ix1 r)
      = (Finset.univ : Finset (Fin 640)).fold max (⊥ : EReal) (fun c => src (ix2 r c)) := by
  refine (Ideal.multiReduction_maximumf_single src _ reduces_S1024x640_S1024 _ _ (ix1 r)).trans ?_
  rw [Ideal.ofBits_def, ofBits_neg_inf]
  exact congrArg (fun f : Fin 640 → EReal => (Finset.univ : Finset (Fin 640)).fold max (⊥ : EReal) f) (funext fun c => congrArg src (lift_row r c))

/-! ## Integer words at an index (definitional), and the block's first column as a word -/

theorem cmpi_apply {s : Shape} {w : Nat} (p : CmpIPredicate) (x y : IVec s w) (i : s.Idx) : cmpi p x y i = IntOp.cmpi p (x i) (y i) := rfl
theorem subi_apply {s : Shape} {w : Nat} (x y : IVec s w) (i : s.Idx) : subi x y i = x i - y i := rfl

/-- The word product of a block number and the block width 640 is the word of their product. -/
theorem muli_block (n : ℕ) : Scalar.muli (BitVec.ofNat 32 n) 640#32 = BitVec.ofNat 32 (n * 640) :=
  (BitVec.ofNat_mul n 640).symm

/-- A "differs" comparison of words is `1` exactly when they differ. -/
theorem cmpi_ne_one_iff {a b : BitVec 32} : IntOp.cmpi .ne a b = 1#1 ↔ a ≠ b := by
  show BitVec.ofBool (a != b) = 1#1 ↔ a ≠ b
  rw [← bne_iff_ne]
  generalize (a != b) = t
  cases t <;> decide

/-! ## The matrix product -/

/-- The left operand's row is the result's row. -/
theorem lhs_pay8_0 (i : S1024x640.Idx) (q : dot_S1024x2048_S640x2048_S1024x640_1_1_0_0_n_n.contr.Idx) :
    (dot_S1024x2048_S640x2048_S1024x640_1_1_0_0_n_n.lhsIdx i q 0).val = (i 0).val := by
  unfold DotDims.lhsIdx
  rw [dif_neg (show ¬(0 : Fin S1024x2048.rank) ∈ dot_S1024x2048_S640x2048_S1024x640_1_1_0_0_n_n.lhsBatch by decide), dif_pos (show (0 : Fin S1024x2048.rank) ∈ dot_S1024x2048_S640x2048_S1024x640_1_1_0_0_n_n.lhsNonContracting by decide)]
  rfl
/-- The left operand's column is the contraction coordinate. -/
theorem lhs_pay8_1 (i : S1024x640.Idx) (q : dot_S1024x2048_S640x2048_S1024x640_1_1_0_0_n_n.contr.Idx) :
    (dot_S1024x2048_S640x2048_S1024x640_1_1_0_0_n_n.lhsIdx i q 1).val = (q ⟨0, by decide⟩).val :=
  dot_S1024x2048_S640x2048_S1024x640_1_1_0_0_n_n.lhsIdx_val_of_single rfl i q
/-- The right operand's row is the result's column. -/
theorem rhs_pay8_0 (i : S1024x640.Idx) (q : dot_S1024x2048_S640x2048_S1024x640_1_1_0_0_n_n.contr.Idx) :
    (dot_S1024x2048_S640x2048_S1024x640_1_1_0_0_n_n.rhsIdx i q 0).val = (i 1).val := by
  unfold DotDims.rhsIdx
  rw [dif_neg (show ¬(0 : Fin S640x2048.rank) ∈ dot_S1024x2048_S640x2048_S1024x640_1_1_0_0_n_n.rhsBatch by decide), dif_pos (show (0 : Fin S640x2048.rank) ∈ dot_S1024x2048_S640x2048_S1024x640_1_1_0_0_n_n.rhsNonContracting by decide)]
  rfl
/-- The right operand's column is the contraction coordinate. -/
theorem rhs_pay8_1 (i : S1024x640.Idx) (q : dot_S1024x2048_S640x2048_S1024x640_1_1_0_0_n_n.contr.Idx) :
    (dot_S1024x2048_S640x2048_S1024x640_1_1_0_0_n_n.rhsIdx i q 1).val = (q ⟨0, by decide⟩).val :=
  dot_S1024x2048_S640x2048_S1024x640_1_1_0_0_n_n.rhsIdx_val_of_single rfl i q

/-- The matrix product of the two blocks, at row `r` and column `c`. -/
theorem pay8_apply (x0 : Vec Ideal S1024x2048 .bf16) (x1 : Vec Ideal S640x2048 .bf16) (r : Fin 1024) (c : Fin 640) :
    (k0_pay8 (F := Ideal) x0 x1 (ix2 r c) : EReal) = blkLogit x0 x1 r c := by
  unfold k0_pay8 blkLogit
  rw [shapeCast_self, shapeCast_self]
  simp only [matmul]
  rw [Ideal.matmul_constant_zero_apply, ← Equiv.sum_comp (contrEquiv1 dot_S1024x2048_S640x2048_S1024x640_1_1_0_0_n_n 2048 rfl rfl).symm]
  refine Finset.sum_congr rfl fun k _ => ?_
  have hk := contrEquiv1_symm_val dot_S1024x2048_S640x2048_S1024x640_1_1_0_0_n_n 2048 rfl rfl k
  have el : dot_S1024x2048_S640x2048_S1024x640_1_1_0_0_n_n.lhsIdx (ix2 r c) ((contrEquiv1 dot_S1024x2048_S640x2048_S1024x640_1_1_0_0_n_n 2048 rfl rfl).symm k) = ix2 r k := funext fun a => Fin.ext (by
    match a with
    | ⟨0, _⟩ => exact lhs_pay8_0 _ _
    | ⟨1, _⟩ => exact (lhs_pay8_1 _ _).trans hk)
  have er : dot_S1024x2048_S640x2048_S1024x640_1_1_0_0_n_n.rhsIdx (ix2 r c) ((contrEquiv1 dot_S1024x2048_S640x2048_S1024x640_1_1_0_0_n_n 2048 rfl rfl).symm k) = ix2 c k := funext fun a => Fin.ext (by
    match a with
    | ⟨0, _⟩ => exact rhs_pay8_0 _ _
    | ⟨1, _⟩ => exact (rhs_pay8_1 _ _).trans hk)
  rw [el, er]

/-- The new running bound at row `r`. -/
theorem pay9_apply (x0 : Vec Ideal S1024x2048 .bf16) (x1 : Vec Ideal S640x2048 .bf16) (ms : Vec Ideal S1024x1 .f32) (r : Fin 1024) :
    (k0_pay9 (F := Ideal) x0 x1 ms (ix2 r (0 : Fin 1)) : EReal)
      = max (ms (ix2 r (0 : Fin 1)) : EReal) ((Finset.univ : Finset (Fin 640)).fold max (⊥ : EReal) (fun c => blkLogit x0 x1 r c)) := by
  unfold k0_pay9
  rw [maximumf_apply]
  refine congrArg (max (ms (ix2 r (0 : Fin 1)) : EReal)) ?_
  refine (shapeCast_a_a1_apply _ _ r 0).trans ?_
  refine (rowMax_apply _ r).trans ?_
  exact congrArg (fun f : Fin 640 → EReal => (Finset.univ : Finset (Fin 640)).fold max (⊥ : EReal) f) (funext fun c => pay8_apply x0 x1 r c)

/-- The new rescaled sum at row `r`. -/
theorem pay10_apply (x0 : Vec Ideal S1024x2048 .bf16) (x1 : Vec Ideal S640x2048 .bf16) (ms ls : Vec Ideal S1024x1 .f32) (r : Fin 1024) :
    (k0_pay10 (F := Ideal) x0 x1 ms ls (ix2 r (0 : Fin 1)) : EReal)
      = Ideal.exp ((ms (ix2 r (0 : Fin 1)) : EReal) - (k0_pay9 (F := Ideal) x0 x1 ms (ix2 r (0 : Fin 1)) : EReal)) * (ls (ix2 r (0 : Fin 1)) : EReal)
        + ∑ c : Fin 640, Ideal.exp (blkLogit x0 x1 r c - (k0_pay9 (F := Ideal) x0 x1 ms (ix2 r (0 : Fin 1)) : EReal)) := by
  unfold k0_pay10
  rw [shapeCast_self, addf_apply, mulf_apply, exp_apply, subf_apply]
  congr 1
  refine (shapeCast_a_a1_apply _ _ r 0).trans ?_
  refine (rowSum_apply _ r).trans ?_
  refine Finset.sum_congr rfl fun c _ => ?_
  rw [exp_apply, subf_apply, broadcastTo_a1_ab_apply, pay8_apply]

/-! ## The picked target logit -/

/-- The column mask at row `r` and column `c`: whether the row's word, less the block's first column `w`, is `c`. -/
theorem mask_apply (x2 : IVec S1024x1 32) (w : BitVec 32) (r : Fin 1024) (c : Fin 640) :
    cmpi .eq (broadcastTo S1024x640 (subi (shapeCast S1024x1 x2 shapeCasts_S1024x1_S1024x1) (broadcast S1024x1 w)) broadcasts_S1024x1_S1024x640)
        (broadcastTo S1024x640 (iota .tc S1x640 32 [1] iota_S1x640_d1_w32) broadcasts_S1x640_S1024x640) (ix2 r c)
      = IntOp.cmpi .eq (x2 (ix2 r (0 : Fin 1)) - w) (BitVec.ofNat 32 c.val) := by
  rw [cmpi_apply, broadcastTo_a1_ab_apply, broadcastTo_1b_ab_apply, iota_single_apply, subi_apply, shapeCast_self, broadcast_apply]

/-- The masked logit at row `r` and column `c`. -/
theorem pay11_apply (i : grid0.Coords) (x0 : Vec Ideal S1024x2048 .bf16) (x1 : Vec Ideal S640x2048 .bf16) (x2 : Vec Ideal S1024x1 .i32)
    (r : Fin 1024) (c : Fin 640) :
    (k0_pay11 (F := Ideal) i x0 x1 x2 (ix2 r c) : EReal)
      = if (x2 (ix2 r (0 : Fin 1)) : BitVec 32) - BitVec.ofNat 32 ((i 1).val * 640) = BitVec.ofNat 32 c.val then blkLogit x0 x1 r c else 0 := by
  unfold k0_pay11
  rw [select_apply, mask_apply, pay8_apply, broadcast_apply, muli_block]
  by_cases h : (x2 (ix2 r (0 : Fin 1)) : BitVec 32) - BitVec.ofNat 32 ((i 1).val * 640) = BitVec.ofNat 32 c.val
  · rw [if_pos h, StableHlo.Predicate.cmpi_eq_iff.2 h, select_one]
  · rw [if_neg h, eq_zero_of_ne_one (mt StableHlo.Predicate.cmpi_eq_iff.1 h), select_zero]
    exact Ideal.ofBits_zero_f32

/-- The target logit picked so far, at row `r`: the old value plus the logits of the block's columns `c` with
    `target - 640 * (block number) = c` as 32-bit words. -/
theorem pay1_apply (i : grid0.Coords) (x0 : Vec Ideal S1024x2048 .bf16) (x1 : Vec Ideal S640x2048 .bf16) (x2 : Vec Ideal S1024x1 .i32)
    (ts : Vec Ideal S1024x1 .f32) (r : Fin 1024) :
    (k0_pay1 (F := Ideal) (k0_pay11 (F := Ideal) i x0 x1 x2) ts (ix2 r (0 : Fin 1)) : EReal)
      = (ts (ix2 r (0 : Fin 1)) : EReal)
        + ∑ c : Fin 640, (if (x2 (ix2 r (0 : Fin 1)) : BitVec 32) - BitVec.ofNat 32 ((i 1).val * 640) = BitVec.ofNat 32 c.val then blkLogit x0 x1 r c else 0) := by
  unfold k0_pay1
  rw [shapeCast_self, addf_apply]
  congr 1
  refine (shapeCast_a_a1_apply _ _ r 0).trans ?_
  refine (rowSum_apply _ r).trans ?_
  exact Finset.sum_congr rfl fun c _ => pay11_apply i x0 x1 x2 r c

/-- Storing the bound changes nothing. -/
theorem pay2_eq (v : FVec Ideal S1024x1 .f32) : k0_pay2 (F := Ideal) v = v := by
  unfold k0_pay2
  exact shapeCast_self v _

/-- The bound's starting value is one finite number (the word `0xFF333332`), at every row. -/
theorem pay5_apply (y : S1024x1.Idx) : (k0_pay5 (F := Ideal) y : EReal) = Ideal.ofBits .f32 0xFF333332#32 := by
  unfold k0_pay5
  rw [shapeCast_self]
  rfl

/-- That starting value is a real number. -/
theorem start_real : ∃ b : ℝ, Ideal.ofBits .f32 0xFF333332#32 = (b : EReal) := by
  refine ⟨-(11744050 * 2 ^ 104), ?_⟩
  simp [Ideal.ofBits, Ideal.ieee]

/-- The rescaled sum starts at `0`. -/
theorem pay6_apply (y : S1024x1.Idx) : (k0_pay6 (F := Ideal) y : EReal) = 0 := by
  unfold k0_pay6
  rw [shapeCast_self]
  exact Ideal.ofBits_zero_f32

/-- The picked target logit starts at `0`. -/
theorem pay7_apply (y : S1024x1.Idx) : (k0_pay7 (F := Ideal) y : EReal) = 0 := by
  unfold k0_pay7
  rw [shapeCast_self]
  exact Ideal.ofBits_zero_f32

/-- The count of row `r`: `0` for the ignore value `-100`, else `1`. -/
theorem pay3_apply (x2 : Vec Ideal S1024x1 .i32) (r : Fin 1024) :
    (k0_pay3 (F := Ideal) x2 (ix2 r (0 : Fin 1)) : EReal) = if (x2 (ix2 r (0 : Fin 1)) : BitVec 32) = 4294967196#32 then 0 else 1 := by
  unfold k0_pay3
  rw [sitofp_apply, extui_apply, cmpi_apply, shapeCast_self, broadcast_apply]
  show ((((IntOp.cmpi .ne (x2 (ix2 r (0 : Fin 1)) : BitVec 32) 4294967196#32).setWidth 32).toInt : ℝ) : EReal) = _
  by_cases h : (x2 (ix2 r (0 : Fin 1)) : BitVec 32) = 4294967196#32
  · have e : IntOp.cmpi .ne (x2 (ix2 r (0 : Fin 1)) : BitVec 32) 4294967196#32 = 0#1 :=
      eq_zero_of_ne_one fun h1 => cmpi_ne_one_iff.1 h1 h
    have e0 : ((0#1 : BitVec 1).setWidth 32).toInt = 0 := by decide
    rw [if_pos h, e, e0]
    simp
  · have e : IntOp.cmpi .ne (x2 (ix2 r (0 : Fin 1)) : BitVec 32) 4294967196#32 = 1#1 := cmpi_ne_one_iff.2 h
    have e1 : ((1#1 : BitVec 1).setWidth 32).toInt = 1 := by decide
    rw [if_neg h, e, e1]
    simp

/-- The contribution of row `r`: `0` for the ignore value, else `(bound + log (rescaled sum)) - picked logit`. -/
theorem pay4_apply (v49 v50 v53 : Vec Ideal S1024x1 .f32) (x2 : Vec Ideal S1024x1 .i32) (r : Fin 1024) :
    (k0_pay4 (F := Ideal) v49 v50 v53 x2 (ix2 r (0 : Fin 1)) : EReal)
      = if (x2 (ix2 r (0 : Fin 1)) : BitVec 32) = 4294967196#32 then 0
        else ((v49 (ix2 r (0 : Fin 1)) : EReal) + Ideal.log (v50 (ix2 r (0 : Fin 1)) : EReal)) - (v53 (ix2 r (0 : Fin 1)) : EReal) := by
  unfold k0_pay4
  rw [select_apply, cmpf_apply, pay3_apply, subf_apply, addf_apply, log_apply]
  show Scalar.select (Ideal.cmp .ogt _ (Ideal.ofBits .f32 0x00000000#32)) _ (Ideal.ofBits .f32 0x00000000#32) = _
  rw [Ideal.ofBits_zero_f32]
  by_cases h : (x2 (ix2 r (0 : Fin 1)) : BitVec 32) = 4294967196#32
  · have e : Ideal.cmp .ogt (0 : EReal) 0 = 0#1 := by simp [Ideal.cmp]
    rw [if_pos h, if_pos h, e, select_zero]
  · have e : Ideal.cmp .ogt (1 : EReal) 0 = 1#1 := by simp [Ideal.cmp]
    rw [if_neg h, if_neg h, e, select_one]

end Cert.KernelIdeal.KPayload

end
-- ==== Proof.KBlocks.lean ====
/-
  The three input blocks of a grid point, read at an entry, in terms of the argument arrays.

  Grid point `t` (0 ≤ t < 400) is row block `t / 50` and vocabulary block `t % 50`.  Row `r` of its activation block is
  token `1024 * (t / 50) + r`: the region reads the activations through the host's reshape to [8192, 2048] (the change of
  float format is the identity at the extended reals).  Row `c` of its weight block is class `640 * (t % 50) + c`.  Row
  `r` of its target block is the same token's target word, through the host's two reshapes.
-/
import proofs.«403814_j70300024701269_3_alg».proof.Proof.Gen.KernelIdeal.Frame
import proofs.«403814_j70300024701269_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KBlocks

open Idealize.ShloMosaic Idealize.ShloMosaic.TcCoe Idealize.ShloMosaic.ValueIdx
open Idealize.SL Idealize.SL.Sem
open Cert.KernelIdeal Cert.KernelIdeal.Gen

/-- The token that row `r` of point `t`'s row block is. -/
def tok (t : Fin cfg0.N) (r : Fin 1024) : Fin 8192 :=
  ⟨1024 * (t.val / 50) + r.val, by have h := t.isLt; have hN : cfg0.N = 400 := N_0; have := r.isLt; omega⟩

/-- The class that row `c` of point `t`'s weight block is. -/
def cls (t : Fin cfg0.N) (cc : Fin 640) : Fin 32000 :=
  ⟨640 * (t.val % 50) + cc.val, by have := cc.isLt; have : t.val % 50 < 50 := Nat.mod_lt _ (by norm_num); omega⟩

variable (m : (ℓ : Loc nD τ sig) → Buf (Elt Ideal) ℓ)

/-! ## Where the blocks sit: the index maps over the grid -/

/-- The activation window's block index at point `t`: the row block `t / 50`, the whole feature axis. -/
theorem idx_x : ∀ t : Fin cfg0.N, win0_0.index t (0 : Fin 2) = t.val / 50 ∧ win0_0.index t (1 : Fin 2) = 0 :=
  (by decide +kernel : ∀ t : Fin grid0.N, _)

/-- The weight window's block index at point `t`: the vocabulary block `t % 50`, the whole feature axis. -/
theorem idx_w : ∀ t : Fin cfg0.N, win0_1.index t (0 : Fin 2) = t.val % 50 ∧ win0_1.index t (1 : Fin 2) = 0 :=
  (by decide +kernel : ∀ t : Fin grid0.N, _)

/-- The target window's block index at point `t`: the row block `t / 50`, the one column. -/
theorem idx_t : ∀ t : Fin cfg0.N, win0_2.index t (0 : Fin 2) = t.val / 50 ∧ win0_2.index t (1 : Fin 2) = 0 :=
  (by decide +kernel : ∀ t : Fin grid0.N, _)

/-! ## The arrays the region finds, as terms of the arguments -/

/-- The activation array the region finds is the activation argument read as an [8192, 2048] matrix (the change of
    float format is the identity at the extended reals). -/
theorem V_x (c : Dev nD) : (V m c main_v3 : S8192x2048.Idx → EReal)
    = shapeCast S8192x2048 (m ((c.tc : Thread nD τ).loc main_arg0) : FVec Ideal S2x4096x2048 .f32) shapeCasts_S2x4096x2048_S8192x2048 := by
  show StableHlo.after hostOps0 (fun b => m (c, b)) (Proc.devRef .tc main_v3) = _
  after_results
  rfl

/-- The weight array the region finds is the weight argument (the change of float format is the identity). -/
theorem V_w (c : Dev nD) : (V m c main_v4 : S32000x2048.Idx → EReal)
    = (m ((c.tc : Thread nD τ).loc main_arg1) : FVec Ideal S32000x2048 .f32) := by
  show StableHlo.after hostOps0 (fun b => m (c, b)) (Proc.devRef .tc main_v4) = _
  after_results
  rfl

/-- The target array the region finds is the target argument read as a column of 8192 words. -/
theorem V_t (c : Dev nD) : (V m c main_v2 : S8192x1.Idx → BitVec 32)
    = shapeCast S8192x1 (shapeCast S8192 (m ((c.tc : Thread nD τ).loc main_arg2) : IVec S2x4096 32) shapeCasts_S2x4096_S8192) shapeCasts_S8192_S8192x1 := by
  show StableHlo.after hostOps0 (fun b => m (c, b)) (Proc.devRef .tc main_v2) = _
  after_results
  rfl

/-! ## The reshapes read at an index -/

/-- Row `n` of the [8192, 2048] reading of a [2, 4096, 2048] array is its row `(n / 4096, n % 4096)`. -/
theorem reshape_x {α : Type} (x0 : S2x4096x2048.Idx → α) (n : Fin 8192) (k : Fin 2048) :
    shapeCast S8192x2048 x0 shapeCasts_S2x4096x2048_S8192x2048 (ix2 n k) = x0 (ix3 (Cert.Spec.hi n) (Cert.Spec.lo n) k) := by
  refine shapeCast_apply x0 shapeCasts_S2x4096x2048_S8192x2048 (ix2 n k) (ix3 (Cert.Spec.hi n) (Cert.Spec.lo n) k) ?_
  rewrite [Shape.rowMajor_val_three, Shape.rowMajor_val_two]
  have h0 : n.val < 8192 := n.isLt
  have h1 : k.val < 2048 := k.isLt
  show (n.val / 4096 * 4096 + n.val % 4096) * 2048 + k.val = n.val * 2048 + k.val
  omega

/-- Row `n` of the column reading of a [2, 4096] array is its entry `(n / 4096, n % 4096)`. -/
theorem reshape_t {α : Type} (x2 : S2x4096.Idx → α) (n : Fin 8192) :
    shapeCast S8192x1 (shapeCast S8192 x2 shapeCasts_S2x4096_S8192) shapeCasts_S8192_S8192x1 (ix2 n (0 : Fin 1))
      = x2 (ix2 (Cert.Spec.hi n) (Cert.Spec.lo n)) := by
  have h0 : n.val < 8192 := n.isLt
  rw [shapeCast_apply _ shapeCasts_S8192_S8192x1 (ix2 n (0 : Fin 1)) (ix1 n)
    (by rewrite [Shape.rowMajor_val_one, Shape.rowMajor_val_two]; show n.val = n.val * 1 + 0; omega)]
  exact shapeCast_apply x2 shapeCasts_S2x4096_S8192 (ix1 n) (ix2 (Cert.Spec.hi n) (Cert.Spec.lo n))
    (by rewrite [Shape.rowMajor_val_two, Shape.rowMajor_val_one]; show n.val / 4096 * 4096 + n.val % 4096 = n.val; omega)

/-! ## The blocks at an entry -/

/-- Entry `(r, k)` of point `t`'s activation block is the activation of token `tok t r` at feature `k`. -/
theorem xblk_apply (c : Dev nD) (t : Fin cfg0.N) (r : Fin 1024) (k : Fin 2048) :
    ((iblk m c 0 t : Vec Ideal S1024x2048 .bf16) (ix2 r k) : EReal)
      = (m ((c.tc : Thread nD τ).loc main_arg0) : FVec Ideal S2x4096x2048 .f32) (ix3 (Cert.Spec.hi (tok t r)) (Cert.Spec.lo (tok t r)) k) := by
  obtain ⟨e0, e1⟩ := idx_x t
  have hidx : (((cfg0.win 0).blk t).view.emb (ix2 r k) : S8192x2048.Idx) = ix2 (tok t r) k := by
    funext a; apply Fin.ext
    match a with
    | ⟨0, _⟩ => show win0_0.index t (0 : Fin 2) * 1024 + 1 * r.val = 1024 * (t.val / 50) + r.val; omega
    | ⟨1, _⟩ => show win0_0.index t (1 : Fin 2) * 2048 + 1 * k.val = k.val; omega
  show (V m c main_v3 : S8192x2048.Idx → EReal) (((cfg0.win 0).blk t).view.emb (ix2 r k)) = _
  rw [hidx, V_x, reshape_x]

/-- Entry `(cc, k)` of point `t`'s weight block is the weight of class `cls t cc` at feature `k`. -/
theorem wblk_apply (c : Dev nD) (t : Fin cfg0.N) (cc : Fin 640) (k : Fin 2048) :
    ((iblk m c 1 t : Vec Ideal S640x2048 .bf16) (ix2 cc k) : EReal)
      = (m ((c.tc : Thread nD τ).loc main_arg1) : FVec Ideal S32000x2048 .f32) (ix2 (cls t cc) k) := by
  obtain ⟨e0, e1⟩ := idx_w t
  have hidx : (((cfg0.win 1).blk t).view.emb (ix2 cc k) : S32000x2048.Idx) = ix2 (cls t cc) k := by
    funext a; apply Fin.ext
    match a with
    | ⟨0, _⟩ => show win0_1.index t (0 : Fin 2) * 640 + 1 * cc.val = 640 * (t.val % 50) + cc.val; omega
    | ⟨1, _⟩ => show win0_1.index t (1 : Fin 2) * 2048 + 1 * k.val = k.val; omega
  show (V m c main_v4 : S32000x2048.Idx → EReal) (((cfg0.win 1).blk t).view.emb (ix2 cc k)) = _
  rw [hidx, V_w]

/-- Row `r` of point `t`'s target block is the target word of token `tok t r`. -/
theorem tblk_apply (c : Dev nD) (t : Fin cfg0.N) (r : Fin 1024) :
    ((iblk m c 2 t : Vec Ideal S1024x1 .i32) (ix2 r (0 : Fin 1)) : BitVec 32)
      = (m ((c.tc : Thread nD τ).loc main_arg2) : IVec S2x4096 32) (ix2 (Cert.Spec.hi (tok t r)) (Cert.Spec.lo (tok t r))) := by
  obtain ⟨e0, e1⟩ := idx_t t
  have hidx : (((cfg0.win 2).blk t).view.emb (ix2 r (0 : Fin 1)) : S8192x1.Idx) = ix2 (tok t r) (0 : Fin 1) := by
    funext a; apply Fin.ext
    match a with
    | ⟨0, _⟩ => show win0_2.index t (0 : Fin 2) * 1024 + 1 * r.val = 1024 * (t.val / 50) + r.val; omega
    | ⟨1, _⟩ => show win0_2.index t (1 : Fin 2) * 1 + 1 * 0 = 0; omega
  show (V m c main_v2 : S8192x1.Idx → BitVec 32) (((cfg0.win 2).blk t).view.emb (ix2 r (0 : Fin 1))) = _
  rw [hidx, V_t, reshape_t]

end Cert.KernelIdeal.KBlocks

end
-- ==== Proof.KSteps.lean ====
/-
  One grid point's effect on the three accumulators the kernel carries through a row block, and on the two outputs at the
  row block's last vocabulary block: the body's pure terms applied to the point's three blocks and to what the point
  before left (at the first vocabulary block, to the body's own starting constants).
-/
import proofs.«403814_j70300024701269_3_alg».proof.Proof.KPieces
import proofs.«403814_j70300024701269_3_alg».proof.Proof.KPayload
import proofs.«403814_j70300024701269_3_alg».proof.Proof.KBlocks
import proofs.«403814_j70300024701269_3_alg».proof.Proof.Spec

set_option maxRecDepth 16384

noncomputable section

namespace Cert.KernelIdeal.KInv

open Idealize.ShloMosaic Idealize.ShloMosaic.TcCoe Idealize.ShloMosaic.ValueIdx
open Idealize.SL Idealize.SL.Sem
open Cert.KernelIdeal Cert.KernelIdeal.Gen Cert.KernelIdeal.KBlocks

variable (m : (ℓ : Loc nD τ sig) → Buf (Elt Ideal) ℓ)

/-- The activations, weights and targets on core `c`. -/
abbrev X (c : Dev nD) : Cert.Spec.SX.Idx → EReal := m ((c.tc : Thread nD τ).loc main_arg0)
abbrev W (c : Dev nD) : Cert.Spec.SW.Idx → EReal := m ((c.tc : Thread nD τ).loc main_arg1)
abbrev T (c : Dev nD) : Cert.Spec.ST.Idx → BitVec 32 := m ((c.tc : Thread nD τ).loc main_arg2)

/-! ## The accumulators after a point, from the accumulators after the point before -/

/-- The point's three blocks, at their literal types. -/
abbrev xb (c : Dev nD) (t : Fin cfg0.N) : Vec Ideal S1024x2048 .bf16 := iblk m c 0 t
abbrev wb (c : Dev nD) (t : Fin cfg0.N) : Vec Ideal S640x2048 .bf16 := iblk m c 1 t
abbrev tb (c : Dev nD) (t : Fin cfg0.N) : Vec Ideal S1024x1 .i32 := iblk m c 2 t

/-- The three accumulators after point `n`. -/
abbrev bnd (c : Dev nD) (n : ℕ) (hn : n < cfg0.N) : Vec Ideal S1024x1 .f32 := (outsAt0 m c n hn).2.2.1
abbrev rsum (c : Dev nD) (n : ℕ) (hn : n < cfg0.N) : Vec Ideal S1024x1 .f32 := (outsAt0 m c n hn).2.2.2.1
abbrev pick (c : Dev nD) (n : ℕ) (hn : n < cfg0.N) : Vec Ideal S1024x1 .f32 := (outsAt0 m c n hn).2.2.2.2

theorem prev_lt (t : Fin cfg0.N) : t.val - 1 < cfg0.N := Nat.lt_of_le_of_lt (Nat.sub_le _ _) t.isLt

/-- First vocabulary block of a row block: the accumulators start from the body's constants. -/
theorem first_step (c : Dev nD) (t : Fin cfg0.N) (h0 : t.val % 50 = 0) :
    bnd m c t.val t.isLt = k0_pay2 (k0_pay9 (xb m c t) (wb m c t) (k0_pay5 (F := Ideal)))
    ∧ rsum m c t.val t.isLt = k0_pay10 (xb m c t) (wb m c t) (k0_pay5 (F := Ideal)) (k0_pay6 (F := Ideal))
    ∧ pick m c t.val t.isLt = k0_pay1 (k0_pay11 (grid0.coords t) (xb m c t) (wb m c t) (tb m c t)) (k0_pay7 (F := Ideal)) := by
  have h1 : ¬t.val % 50 = 49 := by omega
  refine ⟨?_, ?_, ?_⟩
  · show (outsAt0 m c t.val t.isLt).2.2.1 = _
    rw [outsAt0_A m c t h0 h1]; dsimp only
    exact Cert.KernelIdeal.KPieces.sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · show (outsAt0 m c t.val t.isLt).2.2.2.1 = _
    rw [outsAt0_A m c t h0 h1]; dsimp only
    exact Cert.KernelIdeal.KPieces.sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · show (outsAt0 m c t.val t.isLt).2.2.2.2 = _
    rw [outsAt0_A m c t h0 h1]; dsimp only
    exact Cert.KernelIdeal.KPieces.sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- A later vocabulary block: the accumulators step from what the point before left. -/
theorem later_step (c : Dev nD) (t : Fin cfg0.N) (h0 : ¬t.val % 50 = 0) :
    bnd m c t.val t.isLt = k0_pay2 (k0_pay9 (xb m c t) (wb m c t) (bnd m c (t.val - 1) (prev_lt t)))
    ∧ rsum m c t.val t.isLt = k0_pay10 (xb m c t) (wb m c t) (bnd m c (t.val - 1) (prev_lt t)) (rsum m c (t.val - 1) (prev_lt t))
    ∧ pick m c t.val t.isLt = k0_pay1 (k0_pay11 (grid0.coords t) (xb m c t) (wb m c t) (tb m c t)) (pick m c (t.val - 1) (prev_lt t)) := by
  by_cases h1 : t.val % 50 = 49
  · refine ⟨?_, ?_, ?_⟩
    · show (outsAt0 m c t.val t.isLt).2.2.1 = _
      rw [outsAt0_C m c t h0 h1]; dsimp only
      exact Cert.KernelIdeal.KPieces.sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · show (outsAt0 m c t.val t.isLt).2.2.2.1 = _
      rw [outsAt0_C m c t h0 h1]; dsimp only
      exact Cert.KernelIdeal.KPieces.sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · show (outsAt0 m c t.val t.isLt).2.2.2.2 = _
      rw [outsAt0_C m c t h0 h1]; dsimp only
      exact Cert.KernelIdeal.KPieces.sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · refine ⟨?_, ?_, ?_⟩
    · show (outsAt0 m c t.val t.isLt).2.2.1 = _
      rw [outsAt0_B m c t h0 h1]; dsimp only
      exact Cert.KernelIdeal.KPieces.sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · show (outsAt0 m c t.val t.isLt).2.2.2.1 = _
      rw [outsAt0_B m c t h0 h1]; dsimp only
      exact Cert.KernelIdeal.KPieces.sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
    · show (outsAt0 m c t.val t.isLt).2.2.2.2 = _
      rw [outsAt0_B m c t h0 h1]; dsimp only
      exact Cert.KernelIdeal.KPieces.sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- Last vocabulary block: the two outputs, from the accumulators just computed. -/
theorem last_outputs (c : Dev nD) (t : Fin cfg0.N) (h1 : t.val % 50 = 49) :
    (outsAt0 m c t.val t.isLt).1 = k0_pay4 (bnd m c t.val t.isLt) (rsum m c t.val t.isLt) (pick m c t.val t.isLt) (tb m c t)
    ∧ (outsAt0 m c t.val t.isLt).2.1 = k0_pay3 (tb m c t) := by
  have h0 : ¬t.val % 50 = 0 := by omega
  obtain ⟨e0, e1, e2⟩ := later_step m c t h0
  refine ⟨?_, ?_⟩
  · rw [e0, e1, e2]
    rw [outsAt0_C m c t h0 h1]; dsimp only
    exact Cert.KernelIdeal.KPieces.out_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_C m c t h0 h1]; dsimp only
    exact Cert.KernelIdeal.KPieces.out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.KInv

end
-- ==== Proof.Rows.lean ====
/-
  One token's running quantities over the 50 vocabulary blocks of 640 classes: the sum of the exponentials of its
  logits over the blocks seen so far, and the logit picked so far (the sum, over the columns seen, of the logits whose
  column number is the target word).  After the last block the first is the normaliser `Z` and, for a target that is
  a class, the second is the target's logit.
-/
import proofs.«403814_j70300024701269_3_alg».proof.Proof.Spec
import proofs.«403814_j70300024701269_3_alg».proof.Proof.LseMath
import Mathlib.Data.BitVec
import Mathlib.Algebra.BigOperators.Fin
import Mathlib.Logic.Equiv.Fin.Basic

set_option maxRecDepth 16384

noncomputable section

namespace Cert.Rows

open Idealize.ShloMosaic

/-! ## The 32000 classes as 50 blocks of 640 -/

/-- Column `cc` of vocabulary block `j`, as a class. -/
def col (j : ℕ) (cc : Fin 640) : Fin 32000 := ⟨(640 * j + cc.val) % 32000, Nat.mod_lt _ (by norm_num)⟩

theorem col_val (j : ℕ) (hj : j < 50) (cc : Fin 640) : (col j cc).val = 640 * j + cc.val := by
  have := cc.isLt
  show (640 * j + cc.val) % 32000 = _
  exact Nat.mod_eq_of_lt (by omega)

/-- A sum over the classes is the sum over the blocks of the sums over their columns. -/
theorem sum_blocks {M : Type} [AddCommMonoid M] (f : Fin 32000 → M) :
    ∑ v : Fin 32000, f v = ∑ j ∈ Finset.range 50, ∑ cc : Fin 640, f (col j cc) := by
  have e1 : ∑ v : Fin 32000, f v = ∑ p : Fin 50 × Fin 640, f (finProdFinEquiv p) :=
    (Equiv.sum_comp (finProdFinEquiv (m := 50) (n := 640)) f).symm
  rw [e1, Fintype.sum_prod_type, ← Fin.sum_univ_eq_sum_range (fun j => ∑ cc : Fin 640, f (col j cc)) 50]
  refine Finset.sum_congr rfl fun j _ => Finset.sum_congr rfl fun cc _ => congrArg f ?_
  apply Fin.ext
  rw [col_val j.val j.isLt cc]
  show cc.val + 640 * j.val = _
  omega

/-! ## One token's running quantities -/

section row

variable (x : Cert.Spec.SX.Idx → EReal) (w : Cert.Spec.SW.Idx → EReal) (tw : BitVec 32) (n : Fin 8192)

/-- The sum of the exponentials of the token's logits over vocabulary blocks `0 … j`. -/
def Zp : ℕ → ℝ
  | 0 => ∑ cc : Fin 640, Real.exp (Cert.Spec.logitR x w n (col 0 cc))
  | j + 1 => Zp j + ∑ cc : Fin 640, Real.exp (Cert.Spec.logitR x w n (col (j + 1) cc))

/-- What block `j` adds to the picked logit: the logits of its columns whose number, offset by the block's first
    column, is the target word. -/
def pickBlock (j : ℕ) : EReal :=
  ∑ cc : Fin 640, (if tw - BitVec.ofNat 32 (j * 640) = BitVec.ofNat 32 cc.val then ((Cert.Spec.logitR x w n (col j cc) : ℝ) : EReal) else 0)

/-- The picked logit after vocabulary blocks `0 … j`. -/
def pk : ℕ → EReal
  | 0 => pickBlock x w tw n 0
  | j + 1 => pk j + pickBlock x w tw n (j + 1)

theorem Zp_eq_sum (j : ℕ) :
    Zp x w n j = ∑ j' ∈ Finset.range (j + 1), ∑ cc : Fin 640, Real.exp (Cert.Spec.logitR x w n (col j' cc)) := by
  induction j with
  | zero => simp [Zp]
  | succ j ih => rw [Zp, ih, Finset.sum_range_succ (n := j + 1)]

theorem Zp_pos (j : ℕ) : 0 < Zp x w n j := by
  induction j with
  | zero => exact Cert.Lse.sum_exp_pos (by norm_num) _
  | succ j ih => exact add_pos ih (Cert.Lse.sum_exp_pos (by norm_num) _)

/-- After the last block the running sum is the normaliser. -/
theorem Zp_last : Zp x w n 49 = Cert.Spec.Z x w n := by
  rw [Zp_eq_sum]
  exact (sum_blocks fun v => Real.exp (Cert.Spec.logitR x w n v)).symm

theorem pk_eq_sum (j : ℕ) : pk x w tw n j = ∑ j' ∈ Finset.range (j + 1), pickBlock x w tw n j' := by
  induction j with
  | zero => simp [pk]
  | succ j ih => rw [pk, ih, Finset.sum_range_succ (n := j + 1)]

/-- After the last block the picked logit is the target's logit, for a target that is a class. -/
theorem pk_last (htw : tw.toNat < 32000) :
    pk x w tw n 49 = ((Cert.Spec.logitR x w n ⟨tw.toNat % 32000, Nat.mod_lt _ (by norm_num)⟩ : ℝ) : EReal) := by
  rw [pk_eq_sum]
  have hblock : ∀ j ∈ Finset.range 50, pickBlock x w tw n j
      = ∑ cc : Fin 640, (fun v : Fin 32000 => if tw = BitVec.ofNat 32 v.val then ((Cert.Spec.logitR x w n v : ℝ) : EReal) else 0) (col j cc) := by
    intro j hj
    have hj' : j < 50 := Finset.mem_range.mp hj
    unfold pickBlock
    refine Finset.sum_congr rfl fun cc _ => ?_
    have hiff : (tw - BitVec.ofNat 32 (j * 640) = BitVec.ofNat 32 cc.val) ↔ (tw = BitVec.ofNat 32 (col j cc).val) := by
      rw [col_val j hj' cc, sub_eq_iff_eq_add, ← BitVec.ofNat_add]
      have : cc.val + j * 640 = 640 * j + cc.val := by omega
      rw [this]
    simp only [hiff]
  have hs := sum_blocks (fun v : Fin 32000 => if tw = BitVec.ofNat 32 v.val then ((Cert.Spec.logitR x w n v : ℝ) : EReal) else 0)
  rw [Finset.sum_congr rfl hblock]
  refine hs.symm.trans ?_
  rw [Finset.sum_eq_single (⟨tw.toNat % 32000, Nat.mod_lt _ (by norm_num)⟩ : Fin 32000)]
  · rw [if_pos]
    apply BitVec.eq_of_toNat_eq
    rw [BitVec.toNat_ofNat]
    show tw.toNat = (tw.toNat % 32000) % 2 ^ 32
    rw [Nat.mod_eq_of_lt htw, Nat.mod_eq_of_lt (by omega)]
  · intro v _ hv
    rw [if_neg]
    intro h
    apply hv
    apply Fin.ext
    show v.val = tw.toNat % 32000
    rw [h, BitVec.toNat_ofNat, Nat.mod_eq_of_lt (show v.val < 2 ^ 32 by have := v.isLt; omega), Nat.mod_eq_of_lt v.isLt]
  · intro h; exact absurd (Finset.mem_univ _) h

end row

end Cert.Rows

end
-- ==== Proof.KInv.lean ====
/-
  What the kernel's grid leaves, row by row.

  Within a row block the kernel sweeps the 50 vocabulary blocks.  After vocabulary block `j`, for the token of row `r`:
  the first accumulator holds some real bound `b`; the second holds `exp (-b)` times the sum of `exp (logit)` over the
  columns of blocks `0 … j`; the third holds the sum, over those columns, of the logits whose column number is the
  token's target.  After the last block the bound cancels against the logarithm, so the row's output is the token's
  contribution `log Z - logit (target)` (or `0` for an ignored token), and the second output is its count.
-/
import proofs.«403814_j70300024701269_3_alg».proof.Proof.KSteps
import proofs.«403814_j70300024701269_3_alg».proof.Proof.Rows
import proofs.«403814_j70300024701269_3_alg».proof.Proof.LseMath

set_option maxRecDepth 16384

noncomputable section

namespace Cert.KernelIdeal.KInv

open Idealize.ShloMosaic Idealize.ShloMosaic.TcCoe Idealize.ShloMosaic.ValueIdx
open Idealize.SL Idealize.SL.Sem
open Cert.KernelIdeal Cert.KernelIdeal.Gen Cert.KernelIdeal.KBlocks Cert.KernelIdeal.KPayload Cert.Rows

variable (m : (ℓ : Loc nD τ sig) → Buf (Elt Ideal) ℓ)

/-- A grid point's vocabulary block number is its position modulo 50. -/
theorem coord1 : ∀ t : Fin cfg0.N, ((grid0.coords t) 1).val = t.val % 50 :=
  (by decide +kernel : ∀ t : Fin grid0.N, ((grid0.coords t) 1).val = t.val % 50)

/-- The logit of row `r` and column `cc` of a point's blocks is the token's logit for that class, a real number. -/
theorem blk_logit (c : Dev nD) (hx : ∀ i, X m c i ≠ ⊤ ∧ X m c i ≠ ⊥) (hw : ∀ i, W m c i ≠ ⊤ ∧ W m c i ≠ ⊥)
    (t : Fin cfg0.N) (r : Fin 1024) (cc : Fin 640) :
    blkLogit (xb m c t) (wb m c t) r cc
      = ((Cert.Spec.logitR (X m c) (W m c) (tok t r) (col (t.val % 50) cc) : ℝ) : EReal) := by
  have hcls : cls t cc = col (t.val % 50) cc :=
    Fin.ext (by rw [col_val _ (Nat.mod_lt _ (by norm_num)) cc]; rfl)
  rw [← hcls, ← Cert.Spec.logit_eq_coe (X m c) (W m c) hx hw]
  unfold blkLogit Cert.Spec.logit
  exact Finset.sum_congr rfl fun k _ => congrArg₂ (· * ·) (xblk_apply m c t r k) (wblk_apply m c t cc k)

/-- Row `r` of a point's target block is the token's target word. -/
theorem tgt_blk (c : Dev nD) (t : Fin cfg0.N) (r : Fin 1024) :
    (tb m c t (ix2 r (0 : Fin 1)) : BitVec 32) = Cert.Spec.tgt (T m c) (tok t r) :=
  tblk_apply m c t r

/-- The state of row `r`'s accumulators after point `n`, for token `k` and vocabulary block `j`. -/
def RowInv (c : Dev nD) (n : ℕ) (hn : n < cfg0.N) (r : Fin 1024) (k : Fin 8192) (j : ℕ) : Prop :=
  ∃ b : ℝ, (bnd m c n hn (ix2 r (0 : Fin 1)) : EReal) = (b : EReal)
    ∧ (rsum m c n hn (ix2 r (0 : Fin 1)) : EReal) = ((Real.exp (-b) * Zp (X m c) (W m c) k j : ℝ) : EReal)
    ∧ (pick m c n hn (ix2 r (0 : Fin 1)) : EReal) = pk (X m c) (W m c) (Cert.Spec.tgt (T m c) k) k j

/-- At a row block's first vocabulary block. -/
theorem inv_first (c : Dev nD) (hx : ∀ i, X m c i ≠ ⊤ ∧ X m c i ≠ ⊥) (hw : ∀ i, W m c i ≠ ⊤ ∧ W m c i ≠ ⊥)
    (t : Fin cfg0.N) (h0 : t.val % 50 = 0) (r : Fin 1024) :
    RowInv m c t.val t.isLt r (tok t r) 0 := by
  obtain ⟨e0, e1, e2⟩ := first_step m c t h0
  obtain ⟨b0, hb0⟩ := start_real
  have hblk : ∀ cc, blkLogit (xb m c t) (wb m c t) r cc
      = ((Cert.Spec.logitR (X m c) (W m c) (tok t r) (col 0 cc) : ℝ) : EReal) := fun cc => by
    have h := blk_logit m c hx hw t r cc
    rwa [h0] at h
  have hb9 : (k0_pay9 (F := Ideal) (xb m c t) (wb m c t) (k0_pay5 (F := Ideal)) (ix2 r (0 : Fin 1)) : EReal)
      = max (b0 : EReal) ((Finset.univ : Finset (Fin 640)).fold max ⊥
          (fun cc => ((Cert.Spec.logitR (X m c) (W m c) (tok t r) (col 0 cc) : ℝ) : EReal))) := by
    rw [pay9_apply, pay5_apply, hb0]
    simp only [hblk]
  obtain ⟨mn, hmn⟩ := Cert.Lse.max_fold_real b0 (fun cc => Cert.Spec.logitR (X m c) (W m c) (tok t r) (col 0 cc))
  refine ⟨mn, ?_, ?_, ?_⟩
  · show (bnd m c t.val t.isLt (ix2 r (0 : Fin 1)) : EReal) = _
    rw [e0, pay2_eq, hb9, hmn]
  · show (rsum m c t.val t.isLt (ix2 r (0 : Fin 1)) : EReal) = _
    rw [e1, pay10_apply, hb9, hmn, pay5_apply, hb0, pay6_apply]
    simp only [hblk]
    exact Cert.Lse.stream_first b0 mn (fun cc => Cert.Spec.logitR (X m c) (W m c) (tok t r) (col 0 cc))
  · show (pick m c t.val t.isLt (ix2 r (0 : Fin 1)) : EReal) = _
    rw [e2, pay1_apply, pay7_apply, zero_add, coord1, h0, tgt_blk]
    simp only [hblk]
    rfl

/-- At a later vocabulary block, from the state after the point before. -/
theorem inv_later (c : Dev nD) (hx : ∀ i, X m c i ≠ ⊤ ∧ X m c i ≠ ⊥) (hw : ∀ i, W m c i ≠ ⊤ ∧ W m c i ≠ ⊥)
    (t : Fin cfg0.N) (j : ℕ) (hj : t.val % 50 = j + 1) (r : Fin 1024)
    (ih : RowInv m c (t.val - 1) (prev_lt t) r (tok t r) j) :
    RowInv m c t.val t.isLt r (tok t r) (j + 1) := by
  have h0 : ¬t.val % 50 = 0 := by omega
  obtain ⟨e0, e1, e2⟩ := later_step m c t h0
  obtain ⟨bp, hbp, hsp, hpp⟩ := ih
  have hblk : ∀ cc, blkLogit (xb m c t) (wb m c t) r cc
      = ((Cert.Spec.logitR (X m c) (W m c) (tok t r) (col (j + 1) cc) : ℝ) : EReal) := fun cc => by
    have h := blk_logit m c hx hw t r cc
    rwa [hj] at h
  have hb9 : (k0_pay9 (F := Ideal) (xb m c t) (wb m c t) (bnd m c (t.val - 1) (prev_lt t)) (ix2 r (0 : Fin 1)) : EReal)
      = max (bp : EReal) ((Finset.univ : Finset (Fin 640)).fold max ⊥
          (fun cc => ((Cert.Spec.logitR (X m c) (W m c) (tok t r) (col (j + 1) cc) : ℝ) : EReal))) := by
    rw [pay9_apply, hbp]
    simp only [hblk]
  obtain ⟨mn, hmn⟩ := Cert.Lse.max_fold_real bp (fun cc => Cert.Spec.logitR (X m c) (W m c) (tok t r) (col (j + 1) cc))
  refine ⟨mn, ?_, ?_, ?_⟩
  · show (bnd m c t.val t.isLt (ix2 r (0 : Fin 1)) : EReal) = _
    rw [e0, pay2_eq, hb9, hmn]
  · show (rsum m c t.val t.isLt (ix2 r (0 : Fin 1)) : EReal) = _
    rw [e1, pay10_apply, hb9, hmn, hbp, hsp]
    simp only [hblk]
    exact Cert.Lse.stream_step bp mn _ (fun cc => Cert.Spec.logitR (X m c) (W m c) (tok t r) (col (j + 1) cc))
  · show (pick m c t.val t.isLt (ix2 r (0 : Fin 1)) : EReal) = _
    rw [e2, pay1_apply, hpp, coord1, hj, tgt_blk]
    simp only [hblk]
    rfl

/-- THE INVARIANT, at every point: by induction along the grid. -/
theorem inv (c : Dev nD) (hx : ∀ i, X m c i ≠ ⊤ ∧ X m c i ≠ ⊥) (hw : ∀ i, W m c i ≠ ⊤ ∧ W m c i ≠ ⊥) :
    ∀ (n : ℕ) (hn : n < cfg0.N) (r : Fin 1024), RowInv m c n hn r (tok ⟨n, hn⟩ r) (n % 50) := by
  intro n
  induction n with
  | zero =>
    intro hn r
    exact inv_first m c hx hw ⟨0, hn⟩ rfl r
  | succ k ih =>
    intro hn r
    by_cases h0 : (k + 1) % 50 = 0
    · rw [h0]
      exact inv_first m c hx hw ⟨k + 1, hn⟩ h0 r
    · have hk : k < cfg0.N := Nat.lt_of_succ_lt hn
      obtain ⟨j, hj⟩ : ∃ j, (k + 1) % 50 = j + 1 := ⟨(k + 1) % 50 - 1, by omega⟩
      have hkj : k % 50 = j := by omega
      have htok : tok ⟨k, hk⟩ r = tok ⟨k + 1, hn⟩ r := by
        apply Fin.ext
        show 1024 * (k / 50) + r.val = 1024 * ((k + 1) / 50) + r.val
        have : k / 50 = (k + 1) / 50 := by omega
        rw [this]
      have ih' := ih hk r
      rw [hkj, htok] at ih'
      rw [hj]
      exact inv_later m c hx hw ⟨k + 1, hn⟩ j hj r ih'

/-- At the last vocabulary block of a row block, the first output block holds each row's contribution. -/
theorem out3_eq (c : Dev nD) (hx : ∀ i, X m c i ≠ ⊤ ∧ X m c i ≠ ⊥) (hw : ∀ i, W m c i ≠ ⊤ ∧ W m c i ≠ ⊥)
    (ht : ∀ i, T m c i = Cert.Spec.ignoreWord ∨ (T m c i).toNat < 32000)
    (t : Fin cfg0.N) (h49 : t.val % 50 = 49) (r : Fin 1024) :
    (((outsAt0 m c t.val t.isLt).1 : Vec Ideal S1024x1 .f32) (ix2 r (0 : Fin 1)) : EReal)
      = Cert.Spec.nllRow (X m c) (W m c) (T m c) (tok t r) := by
  obtain ⟨b, hb, hs, hp⟩ := inv m c hx hw t.val t.isLt r
  rw [h49] at hs hp
  rw [(last_outputs m c t h49).1, pay4_apply, tgt_blk]
  unfold Cert.Spec.nllRow
  by_cases hig : Cert.Spec.tgt (T m c) (tok t r) = Cert.Spec.ignoreWord
  · rw [if_pos hig, if_pos hig]
  · have hlt : (Cert.Spec.tgt (T m c) (tok t r)).toNat < 32000 := (ht _).resolve_left hig
    rw [if_neg hig, if_neg hig, hb, hs, hp, Zp_last, Cert.Lse.bound_cancels b _ (Cert.Spec.Z_pos _ _ _),
      pk_last _ _ _ _ hlt, ← EReal.coe_sub]
    rfl

/-- … and the second output block each row's count. -/
theorem out4_eq (c : Dev nD) (t : Fin cfg0.N) (h49 : t.val % 50 = 49) (r : Fin 1024) :
    (((outsAt0 m c t.val t.isLt).2.1 : Vec Ideal S1024x1 .f32) (ix2 r (0 : Fin 1)) : EReal)
      = Cert.Spec.validRow (T m c) (tok t r) := by
  rw [(last_outputs m c t h49).2, pay3_apply, tgt_blk]
  rfl

end Cert.KernelIdeal.KInv

end
-- ==== Proof.KFinal.lean ====
/-
  From the blocks to the result.  The two output arrays [8192, 1] are written back once per row block, at its last
  vocabulary block, and the eight written blocks tile them: so after the grid the first array holds every token's
  contribution and the second every token's count.  The host then sums each array, takes the larger of the count and
  one, and divides: the loss.
-/
import proofs.«403814_j70300024701269_3_alg».proof.Proof.KInv
import Idealize.ShloMosaic.Lib.Pipeline.Value
import Idealize.ShloMosaic.Lib.StableHlo.Run
import Idealize.ShloMosaic.PureOps.Ideal.Laws

set_option maxRecDepth 16384

noncomputable section

namespace Cert.KernelIdeal.KFinal

open Idealize.ShloMosaic Idealize.ShloMosaic.TcCoe Idealize.ShloMosaic.ValueIdx
open Idealize.SL Idealize.SL.Sem
open Cert.KernelIdeal Cert.KernelIdeal.Gen Cert.KernelIdeal.KBlocks Cert.KernelIdeal.KInv

variable (m : (ℓ : Loc nD τ sig) → Buf (Elt Ideal) ℓ) (ρ : Dev nD → PrngReg)

/-- The token that row `i` of an [8192, 1] array stands for. -/
def rowTok (i : S8192x1.Idx) : Fin 8192 := ⟨(i 0).val, (i 0).isLt⟩

/-- Every token's contribution, as an [8192, 1] array. -/
def G3 (c : Dev nD) : S8192x1.Idx → EReal := fun i => Cert.Spec.nllRow (X m c) (W m c) (T m c) (rowTok i)

/-- Every token's count, as an [8192, 1] array. -/
def G4 (c : Dev nD) : S8192x1.Idx → EReal := fun i => Cert.Spec.validRow (T m c) (rowTok i)

/-- The block index of both output windows at point `t`: the row block `t / 50`, and `0` along the unit axis. -/
theorem idx_facts3 : ∀ t : Fin cfg0.N, win0_3.index t (0 : Fin 2) = t.val / 50 ∧ win0_3.index t (1 : Fin 2) = 0 :=
  (by decide +kernel : ∀ t : Fin grid0.N, _)
theorem idx_facts4 : ∀ t : Fin cfg0.N, win0_4.index t (0 : Fin 2) = t.val / 50 ∧ win0_4.index t (1 : Fin 2) = 0 :=
  (by decide +kernel : ∀ t : Fin grid0.N, _)

/-- What a writing point writes back to the first output array is its block of the contributions. -/
theorem flushed3_eq (c : Dev nD) (hx : ∀ i, X m c i ≠ ⊤ ∧ X m c i ≠ ⊥) (hw : ∀ i, W m c i ≠ ⊤ ∧ W m c i ≠ ⊥)
    (ht : ∀ i, T m c i = Cert.Spec.ignoreWord ∨ (T m c i).toNat < 32000)
    (t : Fin cfg0.N) (hf : (cfg0.win 3).flush t = true) :
    (dats m 0 c).flushed 3 t = ((cfg0.win 3).blk t).view.read (Elt Ideal) (G3 m c) := by
  have h49 : t.val % 50 = 49 := (flush0_3 t).mp hf
  obtain ⟨e0, e1⟩ := idx_facts3 t
  show (cfg0.win 3).cut (grid0.coords t) ((dats m 0 c).after 3 t) = _
  rw [after0_3]
  funext y
  have hy0 : (y 0).val < 1024 := (y 0).isLt
  have hy1 : (y 1).val < 1 := (y 1).isLt
  have hxi : (cfg0.win 3).xinj (grid0.coords t) y = ix2 (⟨(y 0).val, hy0⟩ : Fin 1024) (0 : Fin 1) := by
    funext a; apply Fin.ext
    match a with
    | ⟨0, _⟩ => rfl
    | ⟨1, _⟩ => show (y 1).val = 0; omega
  show ((outsAt0 m c t.val t.isLt).1 : Vec Ideal S1024x1 .f32) ((cfg0.win 3).xinj (grid0.coords t) y) = _
  rw [hxi]
  refine (out3_eq m c hx hw ht t h49 ⟨(y 0).val, hy0⟩).trans ?_
  rw [View.read_apply]
  show Cert.Spec.nllRow (X m c) (W m c) (T m c) (tok t ⟨(y 0).val, hy0⟩) = Cert.Spec.nllRow (X m c) (W m c) (T m c) (rowTok (((cfg0.win 3).blk t).view.emb y))
  congr 1
  apply Fin.ext
  show 1024 * (t.val / 50) + (y 0).val = win0_3.index t (0 : Fin 2) * 1024 + 1 * (y 0).val
  rw [e0]; omega

/-- … and to the second, its block of the counts. -/
theorem flushed4_eq (c : Dev nD) (t : Fin cfg0.N) (hf : (cfg0.win 4).flush t = true) :
    (dats m 0 c).flushed 4 t = ((cfg0.win 4).blk t).view.read (Elt Ideal) (G4 m c) := by
  have h49 : t.val % 50 = 49 := (flush0_4 t).mp hf
  obtain ⟨e0, e1⟩ := idx_facts4 t
  show (cfg0.win 4).cut (grid0.coords t) ((dats m 0 c).after 4 t) = _
  rw [after0_4]
  funext y
  have hy0 : (y 0).val < 1024 := (y 0).isLt
  have hy1 : (y 1).val < 1 := (y 1).isLt
  have hxi : (cfg0.win 4).xinj (grid0.coords t) y = ix2 (⟨(y 0).val, hy0⟩ : Fin 1024) (0 : Fin 1) := by
    funext a; apply Fin.ext
    match a with
    | ⟨0, _⟩ => rfl
    | ⟨1, _⟩ => show (y 1).val = 0; omega
  show ((outsAt0 m c t.val t.isLt).2.1 : Vec Ideal S1024x1 .f32) ((cfg0.win 4).xinj (grid0.coords t) y) = _
  rw [hxi]
  refine (out4_eq m c t h49 ⟨(y 0).val, hy0⟩).trans ?_
  rw [View.read_apply]
  show Cert.Spec.validRow (T m c) (tok t ⟨(y 0).val, hy0⟩) = Cert.Spec.validRow (T m c) (rowTok (((cfg0.win 4).blk t).view.emb y))
  congr 1
  apply Fin.ext
  show 1024 * (t.val / 50) + (y 0).val = win0_4.index t (0 : Fin 2) * 1024 + 1 * (y 0).val
  rw [e0]; omega

/-- An index of the first output array is in point `t`'s block iff each coordinate is in the block's range on its axis. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v5_0).slice (win0_3.rect t)).set ↔ _
  rw [View.set_slice_whole, Rect.mem_set_unit]
  exact Iff.rfl

/-- The same for the second output array. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v5_1).slice (win0_4.rect t)).set ↔ _
  rw [View.set_slice_whole, Rect.mem_set_unit]
  exact Iff.rfl

/-- The last vocabulary block of the row block that holds row `n`. -/
def lastPt (n : Fin 8192) : Fin cfg0.N :=
  ⟨50 * (n.val / 1024) + 49, by have hN : cfg0.N = 400 := N_0; have := n.isLt; omega⟩

/-- Every row of the first output array is in the block written at the last vocabulary block of its row block. -/
theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have htv : (lastPt (rowTok i)).val = 50 * ((i 0).val / 1024) + 49 := rfl
  obtain ⟨e0, e1⟩ := idx_facts3 (lastPt (rowTok i))
  refine ⟨lastPt (rowTok i), (flush0_3 _).mpr (by omega), ?_⟩
  rw [mem_blk3]
  intro a
  match a with
  | ⟨0, _⟩ =>
    show win0_3.index (lastPt (rowTok i)) (0 : Fin 2) * 1024 ≤ (i 0).val ∧ (i 0).val < win0_3.index (lastPt (rowTok i)) (0 : Fin 2) * 1024 + 1024
    rw [e0, htv]; omega
  | ⟨1, _⟩ =>
    show win0_3.index (lastPt (rowTok i)) (1 : Fin 2) * 1 ≤ (i 1).val ∧ (i 1).val < win0_3.index (lastPt (rowTok i)) (1 : Fin 2) * 1 + 1
    rw [e1]; omega

/-- The same for the second output array. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have htv : (lastPt (rowTok i)).val = 50 * ((i 0).val / 1024) + 49 := rfl
  obtain ⟨e0, e1⟩ := idx_facts4 (lastPt (rowTok i))
  refine ⟨lastPt (rowTok i), (flush0_4 _).mpr (by omega), ?_⟩
  rw [mem_blk4]
  intro a
  match a with
  | ⟨0, _⟩ =>
    show win0_4.index (lastPt (rowTok i)) (0 : Fin 2) * 1024 ≤ (i 0).val ∧ (i 0).val < win0_4.index (lastPt (rowTok i)) (0 : Fin 2) * 1024 + 1024
    rw [e0, htv]; omega
  | ⟨1, _⟩ =>
    show win0_4.index (lastPt (rowTok i)) (1 : Fin 2) * 1 ≤ (i 1).val ∧ (i 1).val < win0_4.index (lastPt (rowTok i)) (1 : Fin 2) * 1 + 1
    rw [e1]; omega

/-- After the grid the first output array holds every token's contribution. -/
theorem final3 (c : Dev nD) (hx : ∀ i, X m c i ≠ ⊤ ∧ X m c i ≠ ⊥) (hw : ∀ i, W m c i ≠ ⊤ ∧ W m c i ≠ ⊥)
    (ht : ∀ i, T m c i = Cert.Spec.ignoreWord ∨ (T m c i).toNat < 32000) :
    (dats m 0 c).arrAt 3 cfg0.N = G3 m c :=
  (dats m 0 c).arrAt_eq_of_cover 3 (G3 m c) (flushed3_eq m c hx hw ht) cover3

/-- … and the second every token's count. -/
theorem final4 (c : Dev nD) : (dats m 0 c).arrAt 4 cfg0.N = G4 m c :=
  (dats m 0 c).arrAt_eq_of_cover 4 (G4 m c) (flushed4_eq m c) cover4

/-- An index of an [8192, 1] array is its row and `0`: a sum over the array is the sum over the rows. -/
theorem sum_rows (f : Fin 8192 → EReal) : ∑ i : S8192x1.Idx, f (rowTok i) = ∑ n : Fin 8192, f n := by
  refine (sum_idx2 (n0 := 8192) (n1 := 1) (fun i => f (rowTok i))).trans ?_
  refine Finset.sum_congr rfl fun a _ => ?_
  rw [Fin.sum_univ_one]
  rfl

/-- The host's sum of an [8192, 1] array over both axes from the zero constant: `0` plus the sum of its entries. -/
theorem sumAll (x : FVec Ideal S8192x1 .f32) (i : S_.Idx) :
    Host.reduceAdd x (constant (F := Ideal) S_ .f32 0x00000000#32) reducesTo_S8192x1_S_d0_1 h_S_ i = 0 + ∑ j : S8192x1.Idx, x j := by
  simp only [Host.reduceAdd, Ideal.hostReduceAdd_def]
  refine (Ideal.hostReduceAdd_total reducesTo_S8192x1_S_d0_1 (fun b => b.elim0) x _ i).trans ?_
  rw [constant_apply, Ideal.ofBits_zero_f32]

/-- The host operations after the grid, on the two output arrays: the loss. -/
theorem tail_eq (c : Dev nD) (hx : ∀ i, X m c i ≠ ⊤ ∧ X m c i ≠ ⊥) (hw : ∀ i, W m c i ≠ ⊤ ∧ W m c i ≠ ⊥)
    (ht : ∀ i, T m c i = Cert.Spec.ignoreWord ∨ (T m c i).toNat < 32000) :
    Pipeline.afterTail₀ cfgs (dats m) 0 (V0 m) [hostOps1] c main_v9 = fun _ => Cert.Spec.loss (X m c) (W m c) (T m c) := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v5_0) = G3 m c from
        (Pipeline.withArrays_arr spec0 launch0.win.arr_inj c _ _ 3).trans (final3 m c hx hw ht),
      show Pipeline.withArrays (cfgs 0).spec c (V0 m c) (fun w => (dats m 0 c).arrAt w (cfgs 0).N) (Proc.devRef .tc main_v5_1) = G4 m c from
        (Pipeline.withArrays_arr spec0 launch0.win.arr_inj c _ _ 4).trans (final4 m c)]
  funext i
  show Ideal.div (Host.reduceAdd (G3 m c : FVec Ideal S8192x1 .f32) (constant (F := Ideal) S_ .f32 0x00000000#32) reducesTo_S8192x1_S_d0_1 h_S_ i)
        (max (Host.reduceAdd (G4 m c : FVec Ideal S8192x1 .f32) (constant (F := Ideal) S_ .f32 0x00000000#32) reducesTo_S8192x1_S_d0_1 h_S_ i) (Ideal.ofBits .f32 0x3F800000#32)) = _
  rw [sumAll (G3 m c) i, sumAll (G4 m c) i]
  have h3 : ∑ j : S8192x1.Idx, G3 m c j = ∑ n : Fin 8192, Cert.Spec.nllRow (X m c) (W m c) (T m c) n := sum_rows _
  have h4 : ∑ j : S8192x1.Idx, G4 m c j = ∑ n : Fin 8192, Cert.Spec.validRow (T m c) n := sum_rows _
  rw [h3, h4]
  rfl

/-- The kernel program's run, with its result named: the loss of the argument arrays, which end unchanged. -/
theorem kernel_run (hx : ∀ c i, X m c i ≠ ⊤ ∧ X m c i ≠ ⊥) (hw : ∀ c i, W m c i ≠ ⊤ ∧ W m c i ≠ ⊥)
    (ht : ∀ c i, T m c i = Cert.Spec.ignoreWord ∨ (T m c i).toNat < 32000) :
    θ_run (defs (F := Ideal)) (onTc (τ := τ) (main (F := Ideal))) ⟨m, fun _ => 0, ρ⟩ (fun r => ∀ c : Dev nD,
      r.2.mem ((c.tc : Thread nD τ).loc main_v9) = (fun _ => Cert.Spec.loss (X m c) (W m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v9 (Pipeline.mem_restRefs_of main_v9 (by decide) (by decide))).trans (tail_eq m c (hx c) (hw c) (ht c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KFinal

end
-- ==== Proof.RefRunBase.lean ====
/-
  The reference program's sixty-two host operations cut into four stretches: the reshapes, the logits and their
  log-softmax; the mask of the tokens that count and the targets with the ignored ones at class 0; each token's
  log-probability at its target; the count, the masked sum and their quotient.  The program's list is the four in order.
-/
import proofs.«403814_j70300024701269_3_alg».proof.Proof.RefRun
import proofs.«403814_j70300024701269_3_alg».proof.Proof.RefRead

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first stretch: the reshapes, the logits and their log-softmax. -/
abbrev ops1 : List (HloOp τ sig (Elt F)) :=
  [ reshape main_arg0 main_v0 rfl shapeCasts_S2x4096x2048_S8192x2048,
    reshape main_arg2 main_v1 rfl shapeCasts_S2x4096_S8192,
    binary main_v0 main_arg1 main_v2 ((fun l r => Host.dotGeneral dot_S8192x2048_S32000x2048_S8192x32000_1_1_0_0_n_n none l r) : (⟨S8192x2048, .f32⟩ : BufTy).Contents (Elt F) → (⟨S32000x2048, .f32⟩ : BufTy).Contents (Elt F) → (⟨S8192x32000, .f32⟩ : BufTy).Contents (Elt F)),
    TRef.nullary (TRef.of (T := ⟨S_, .f32⟩) main_call0_cst) (constant S_ .f32 0xFF800000#32),
    TRef.binary (TRef.of (T := ⟨S8192x32000, .f32⟩) main_v2) (TRef.of (T := ⟨S_, .f32⟩) main_call0_cst) (TRef.of (T := ⟨S8192, .f32⟩) main_call0_v0) (fun x v => Host.reduce FloatOps.maximumf x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1),
    TRef.binary (TRef.of (T := ⟨S8192x32000, .f32⟩) main_v2) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v3) subf ]

/-- The second stretch: the mask of the tokens that count and the targets with the ignored ones at class 0. -/
abbrev ops2 : List (HloOp τ sig (Elt F)) :=
  [ nullary main_c (constantI S_ 32 4294967196#32),
    unary main_c main_v4 (broadcastInDim S8192 ![] bcast_S_S8192 : (⟨S_, .i32⟩ : BufTy).Contents (Elt F) → (⟨S8192, .i32⟩ : BufTy).Contents (Elt F)),
    binary main_v1 main_v4 main_v5 (cmpi .ne : (⟨S8192, .i32⟩ : BufTy).Contents (Elt F) → (⟨S8192, .i32⟩ : BufTy).Contents (Elt F) → (⟨S8192, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S8192, .i32⟩) main_call1_v1) (broadcastInDim S8192 ![] bcast_S_S8192),
    TRef.ternary (TRef.of (T := ⟨S8192, .i1⟩) main_v5) (TRef.of (T := ⟨S8192, .i32⟩) main_v1) (TRef.of (T := ⟨S8192, .i32⟩) main_call1_v1) (TRef.of (T := ⟨S8192, .i32⟩) main_v6) select,
    unary main_v6 main_v7 (broadcastInDim S8192x1 ![0] bcast_S8192_S8192x1_0 : (⟨S8192, .i32⟩ : BufTy).Contents (Elt F) → (⟨S8192x1, .i32⟩ : BufTy).Contents (Elt F)) ]

/-- The third stretch: each token's log-probability at its target (the indices wrapped, bounds-checked, gathered). -/
abbrev ops3 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8192x1, .i32⟩) main_call2_v0) (broadcastInDim S8192x1 ![] bcast_S_S8192x1),
    TRef.binary (TRef.of (T := ⟨S8192x1, .i32⟩) main_v7) (TRef.of (T := ⟨S8192x1, .i32⟩) main_call2_v0) (TRef.of (T := ⟨S8192x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S8192x1, .i32⟩) main_call2_v2) (broadcastInDim S8192x1 ![] bcast_S_S8192x1),
    TRef.binary (TRef.of (T := ⟨S8192x1, .i32⟩) main_v7) (TRef.of (T := ⟨S8192x1, .i32⟩) main_call2_v2) (TRef.of (T := ⟨S8192x1, .i32⟩) main_call2_v3) addi,
    TRef.ternary (TRef.of (T := ⟨S8192x1, .i1⟩) main_call2_v1) (TRef.of (T := ⟨S8192x1, .i32⟩) main_call2_v3) (TRef.of (T := ⟨S8192x1, .i32⟩) main_v7) (TRef.of (T := ⟨S8192x1, .i32⟩) main_call2_v4) select,
    TRef.reshape (TRef.of (T := ⟨S8192x1, .i32⟩) main_call2_v4) (TRef.of (T := ⟨S8192x1x1, .i32⟩) main_call2_v5) rfl shapeCasts_S8192x1_S8192x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S8192x1x1, .i32⟩) main_call2_v6) (broadcastInDim S8192x1x1 ![] bcast_S_S8192x1x1),
    TRef.binary (TRef.of (T := ⟨S8192x1x1, .i32⟩) main_call2_v5) (TRef.of (T := ⟨S8192x1x1, .i32⟩) main_call2_v6) (TRef.of (T := ⟨S8192x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8192x1x1, .i32⟩) main_call2_v9) (broadcastInDim S8192x1x1 ![0, 1, 2] bcast_S1x1x1_S8192x1x1_0_1_2),
    TRef.binary (TRef.of (T := ⟨S8192x1x1, .i32⟩) main_call2_v5) (TRef.of (T := ⟨S8192x1x1, .i32⟩) main_call2_v9) (TRef.of (T := ⟨S8192x1x1, .i1⟩) main_call2_v10) (cmpi .sle),
    TRef.binary (TRef.of (T := ⟨S8192x1x1, .i1⟩) main_call2_v7) (TRef.of (T := ⟨S8192x1x1, .i1⟩) main_call2_v10) (TRef.of (T := ⟨S8192x1x1, .i1⟩) main_call2_v11) andi,
    TRef.nullary (TRef.of (T := ⟨S_, .i1⟩) main_call2_c_3) (constantI S_ 1 1#1),
    TRef.binary (TRef.of (T := ⟨S8192x1x1, .i1⟩) main_call2_v11) (TRef.of (T := ⟨S_, .i1⟩) main_call2_c_3) (TRef.of (T := ⟨S8192x1, .i1⟩) main_call2_v12) (fun x v => Host.reduce IntOp.andi x v reducesTo_S8192x1x1_S8192x1_d2 h_S_),
    TRef.binary (TRef.of (T := ⟨S8192x32000, .f32⟩) main_v3) (TRef.of (T := ⟨S8192x1x1, .i32⟩) main_call2_v5) (TRef.of (T := ⟨S8192x1, .f32⟩) main_call2_v13) (fun x i => Host.gather gather_S8192x32000_S8192x1x1_S8192x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8192x1, .f32⟩) main_call2_v14) (broadcastInDim S8192x1 ![] bcast_S_S8192x1),
    TRef.ternary (TRef.of (T := ⟨S8192x1, .i1⟩) main_call2_v12) (TRef.of (T := ⟨S8192x1, .f32⟩) main_call2_v13) (TRef.of (T := ⟨S8192x1, .f32⟩) main_call2_v14) (TRef.of (T := ⟨S8192x1, .f32⟩) main_v8) select ]

/-- The last stretch: the count, the masked sum of the negated log-probabilities, and their quotient. -/
abbrev ops4 : List (HloOp τ sig (Elt F)) :=
  [ reshape main_v8 main_v9 rfl shapeCasts_S8192x1_S8192,
    unary main_v9 main_v10 (Host.negf : (⟨S8192, .f32⟩ : BufTy).Contents (Elt F) → (⟨S8192, .f32⟩ : BufTy).Contents (Elt F)),
    unary main_v5 main_v11 (uitofp .f32 : (⟨S8192, .i1⟩ : BufTy).Contents (Elt F) → (⟨S8192, .f32⟩ : BufTy).Contents (Elt F)),
    nullary main_cst (constant S_ .f32 0x00000000#32),
    binary main_v11 main_cst main_v12 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_1 (constant S_ .f32 0x3F800000#32),
    binary main_v12 main_cst_1 main_v13 (maximumf : (⟨S_, .f32⟩ : BufTy).Contents (Elt F) → (⟨S_, .f32⟩ : BufTy).Contents (Elt F) → (⟨S_, .f32⟩ : BufTy).Contents (Elt F)),
    nullary main_cst_2 (constant S_ .f32 0x00000000#32),
    TRef.unary (TRef.of (T := ⟨S_, .f32⟩) main_cst_2) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v5) (TRef.of (T := ⟨S8192, .f32⟩) main_v10) (TRef.of (T := ⟨S8192, .f32⟩) main_call3_v1) (TRef.of (T := ⟨S8192, .f32⟩) main_v14) select,
    nullary main_cst_3 (constant S_ .f32 0x00000000#32),
    binary main_v14 main_cst_3 main_v15 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    binary main_v15 main_v13 main_v16 (Host.divf : (⟨S_, .f32⟩ : BufTy).Contents (Elt F) → (⟨S_, .f32⟩ : BufTy).Contents (Elt F) → (⟨S_, .f32⟩ : BufTy).Contents (Elt F)) ]

/-- The program's operations are the four stretches in order. -/
theorem ops_split : (ops (F := F)) = ops1 ++ ops2 ++ ops3 ++ ops4 := rfl

end Cert.ReferenceIdeal.RunH

end
-- ==== Proof.RefRunSteps.lean ====
/-
  One operation of a function the reference calls, read at its own result buffer.  Such an operation names its buffers by
  references that carry their tensor type, and moves contents between a buffer's type and the tensor's type by a
  transport along the equation of the two.  For a reference whose type IS the tensor's the transport is the identity:
  so, whatever the operation's function `f`, the result buffer holds `f` of what the operand buffers hold.  Stated with
  the function and the operands' contents as variables, and up to the types' equations (heterogeneous equality), so
  that no transport is left for a later step to look through.
-/
import proofs.«403814_j70300024701269_3_alg».proof.Proof.RefRunBase

noncomputable section

namespace Cert.ReferenceIdeal.RunH

open Cert.ReferenceIdeal
open Idealize.ShloMosaic Idealize.ShloMosaic.TcCoe Idealize.SL.Sem Idealize.ShloMosaic.StableHlo

variable {Val : EltTy → Type} {Tx Ta Tb Ty : BufTy}

/-- A constant: the result buffer holds it. -/
theorem tnullary_heq (y : Ref sig .tc) (hy : y.ty = Ty) (dy : y.space ≠ .host) (uy : y.isScoped = false)
    (v : Ty.Contents Val) (W : Valuation τ sig Val) :
    HEq ((TRef.nullary (TRef.of (T := Ty) y hy dy uy) v : HloOp τ sig Val).result W (Proc.devRef .tc y)) v := by
  subst hy
  rw [nullary_result]
  exact cast_heq _ _

/-- One operand: the result buffer holds the function of what the operand buffer holds. -/
theorem tunary_heq (x y : Ref sig .tc) (hx : x.ty = Tx) (hy : y.ty = Ty) (dx : x.space ≠ .host) (ux : x.isScoped = false)
    (dy : y.space ≠ .host) (uy : y.isScoped = false) (f : Tx.Contents Val → Ty.Contents Val) (W : Valuation τ sig Val)
    (vx : Tx.Contents Val) (hvx : HEq (W (Proc.devRef .tc x)) vx) :
    HEq ((TRef.unary (TRef.of (T := Tx) x hx dx ux) (TRef.of (T := Ty) y hy dy uy) f : HloOp τ sig Val).result W (Proc.devRef .tc y)) (f vx) := by
  subst hx hy
  rw [unary_result]
  have e : W (Proc.devRef .tc x) = vx := eq_of_heq hvx
  simp only [TRef.toBuf, TRef.ofBuf, cast_eq]
  rw [e]

/-- Two operands. -/
theorem tbinary_heq (a b y : Ref sig .tc) (ha : a.ty = Ta) (hb : b.ty = Tb) (hy : y.ty = Ty)
    (da : a.space ≠ .host) (ua : a.isScoped = false) (db : b.space ≠ .host) (ub : b.isScoped = false)
    (dy : y.space ≠ .host) (uy : y.isScoped = false)
    (f : Ta.Contents Val → Tb.Contents Val → Ty.Contents Val) (W : Valuation τ sig Val)
    (va : Ta.Contents Val) (vb : Tb.Contents Val)
    (hva : HEq (W (Proc.devRef .tc a)) va) (hvb : HEq (W (Proc.devRef .tc b)) vb) :
    HEq ((TRef.binary (TRef.of (T := Ta) a ha da ua) (TRef.of (T := Tb) b hb db ub) (TRef.of (T := Ty) y hy dy uy) f : HloOp τ sig Val).result W (Proc.devRef .tc y)) (f va vb) := by
  subst ha hb hy
  rw [binary_result]
  have ea : W (Proc.devRef .tc a) = va := eq_of_heq hva
  have eb : W (Proc.devRef .tc b) = vb := eq_of_heq hvb
  simp only [TRef.toBuf, TRef.ofBuf, cast_eq]
  rw [ea, eb]

end Cert.ReferenceIdeal.RunH

end
-- ==== Proof.RefRunC1.lean ====
/- The reference's first stretch of operations — the two reshapes, the logits, their log-softmax — one operation at a time:
  after each operation, every buffer still to be read holds its stage, a function of the stretch's incoming argument
  buffers; an operation's result is its function of its operands' stages, and every other buffer keeps what it held.
-/
import proofs.«403814_j70300024701269_3_alg».proof.Proof.RefRunSteps

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 4000000 in
/-- After the first stretch the log-probabilities' buffer and the flattened targets' buffer hold their stages. -/
theorem s1 (W0 : Valuation τ sig (Elt F)) :
    after (ops1 (F := F)) W0 (Proc.devRef .tc main_v3) = val_main_v3 (F := F) (W0 (Proc.devRef .tc main_arg0)) (W0 (Proc.devRef .tc main_arg1))
    ∧ after (ops1 (F := F)) W0 (Proc.devRef .tc main_v1) = val_main_v1 (F := F) (W0 (Proc.devRef .tc main_arg2)) := by
  have h0_main_arg0 : W0 (Proc.devRef .tc main_arg0) = (W0 (Proc.devRef .tc main_arg0)) := rfl
  have h0_main_arg1 : W0 (Proc.devRef .tc main_arg1) = (W0 (Proc.devRef .tc main_arg1)) := rfl
  have h0_main_arg2 : W0 (Proc.devRef .tc main_arg2) = (W0 (Proc.devRef .tc main_arg2)) := rfl
  delta ops1
  -- main_v0
  rw [after_cons]
  generalize e1 : (reshape main_arg0 main_v0 rfl shapeCasts_S2x4096x2048_S8192x2048 : HloOp τ sig (Elt F)).result W0 = W1
  have h1_main_v0 : W1 (Proc.devRef .tc main_v0) = val_main_v0 (F := F) (W0 (Proc.devRef .tc main_arg0)) := by
    rw [← e1, reshape_result, h0_main_arg0]
    unfold val_main_v0
    rfl
  have h1_main_arg1 : W1 (Proc.devRef .tc main_arg1) = (W0 (Proc.devRef .tc main_arg1)) := by
    rw [← e1, reshape_result_ne]
    all_goals first | exact h0_main_arg1 | decide
  have h1_main_arg2 : W1 (Proc.devRef .tc main_arg2) = (W0 (Proc.devRef .tc main_arg2)) := by
    rw [← e1, reshape_result_ne]
    all_goals first | exact h0_main_arg2 | decide
  clear e1 h0_main_arg0 h0_main_arg1 h0_main_arg2
  -- main_v1
  rw [after_cons]
  generalize e2 : (reshape main_arg2 main_v1 rfl shapeCasts_S2x4096_S8192 : HloOp τ sig (Elt F)).result W1 = W2
  have h2_main_v1 : W2 (Proc.devRef .tc main_v1) = val_main_v1 (F := F) (W0 (Proc.devRef .tc main_arg2)) := by
    rw [← e2, reshape_result, h1_main_arg2]
    unfold val_main_v1
    rfl
  have h2_main_arg1 : W2 (Proc.devRef .tc main_arg1) = (W0 (Proc.devRef .tc main_arg1)) := by
    rw [← e2, reshape_result_ne]
    all_goals first | exact h1_main_arg1 | decide
  have h2_main_v0 : W2 (Proc.devRef .tc main_v0) = val_main_v0 (F := F) (W0 (Proc.devRef .tc main_arg0)) := by
    rw [← e2, reshape_result_ne]
    all_goals first | exact h1_main_v0 | decide
  clear e2 h1_main_arg1 h1_main_arg2 h1_main_v0
  -- main_v2
  rw [after_cons]
  generalize e3 : (binary main_v0 main_arg1 main_v2 ((fun l r => Host.dotGeneral dot_S8192x2048_S32000x2048_S8192x32000_1_1_0_0_n_n none l r) : (⟨S8192x2048, .f32⟩ : BufTy).Contents (Elt F) → (⟨S32000x2048, .f32⟩ : BufTy).Contents (Elt F) → (⟨S8192x32000, .f32⟩ : BufTy).Contents (Elt F)) : HloOp τ sig (Elt F)).result W2 = W3
  have h3_main_v2 : W3 (Proc.devRef .tc main_v2) = val_main_v2 (F := F) (W0 (Proc.devRef .tc main_arg0)) (W0 (Proc.devRef .tc main_arg1)) := by
    rw [← e3, binary_result, h2_main_v0, h2_main_arg1]
    unfold val_main_v2
    rfl
  have h3_main_v1 : W3 (Proc.devRef .tc main_v1) = val_main_v1 (F := F) (W0 (Proc.devRef .tc main_arg2)) := by
    rw [← e3, binary_result_ne]
    all_goals first | exact h2_main_v1 | decide
  clear e3 h2_main_arg1 h2_main_v0 h2_main_v1
  -- main_call0_cst
  rw [after_cons]
  generalize e4 : (TRef.nullary (TRef.of (T := ⟨S_, .f32⟩) main_call0_cst) (constant S_ .f32 0xFF800000#32) : HloOp τ sig (Elt F)).result W3 = W4
  have h4_main_call0_cst : W4 (Proc.devRef .tc main_call0_cst) = val_main_call0_cst (F := F) := by
    rw [← e4]
    apply eq_of_heq
    refine HEq.trans (tnullary_heq _ _ _ _ _ _) (heq_of_eq ?_)
    unfold val_main_call0_cst
    rfl
  have h4_main_v1 : W4 (Proc.devRef .tc main_v1) = val_main_v1 (F := F) (W0 (Proc.devRef .tc main_arg2)) := by
    rw [← e4, nullary_result_ne]
    all_goals first | exact h3_main_v1 | decide
  have h4_main_v2 : W4 (Proc.devRef .tc main_v2) = val_main_v2 (F := F) (W0 (Proc.devRef .tc main_arg0)) (W0 (Proc.devRef .tc main_arg1)) := by
    rw [← e4, nullary_result_ne]
    all_goals first | exact h3_main_v2 | decide
  clear e4 h3_main_v1 h3_main_v2
  -- main_call0_v0
  rw [after_cons]
  generalize e5 : (TRef.binary (TRef.of (T := ⟨S8192x32000, .f32⟩) main_v2) (TRef.of (T := ⟨S_, .f32⟩) main_call0_cst) (TRef.of (T := ⟨S8192, .f32⟩) main_call0_v0) (fun x v => Host.reduce FloatOps.maximumf x v reducesTo_S8192x32000_S8192_d1 h_S_) : HloOp τ sig (Elt F)).result W4 = W5
  have h5_main_call0_v0 : W5 (Proc.devRef .tc main_call0_v0) = val_main_call0_v0 (F := F) (W0 (Proc.devRef .tc main_arg0)) (W0 (Proc.devRef .tc main_arg1)) := by
    rw [← e5]
    apply eq_of_heq
    refine HEq.trans (tbinary_heq _ _ _ _ _ _ _ _ _ _ _ _ _ _ _ _ (heq_of_eq h4_main_v2) (heq_of_eq h4_main_call0_cst)) (heq_of_eq ?_)
    unfold val_main_call0_v0
    rfl
  have h5_main_v1 : W5 (Proc.devRef .tc main_v1) = val_main_v1 (F := F) (W0 (Proc.devRef .tc main_arg2)) := by
    rw [← e5, binary_result_ne]
    all_goals first | exact h4_main_v1 | decide
  have h5_main_v2 : W5 (Proc.devRef .tc main_v2) = val_main_v2 (F := F) (W0 (Proc.devRef .tc main_arg0)) (W0 (Proc.devRef .tc main_arg1)) := by
    rw [← e5, binary_result_ne]
    all_goals first | exact h4_main_v2 | decide
  clear e5 h4_main_v1 h4_main_v2 h4_main_call0_cst
  -- main_call0_cst_0
  rw [after_cons]
  generalize e6 : (TRef.nullary (TRef.of (T := ⟨S_, .f32⟩) main_call0_cst_0) (constant S_ .f32 0xFF800000#32) : HloOp τ sig (Elt F)).result W5 = W6
  have h6_main_call0_cst_0 : W6 (Proc.devRef .tc main_call0_cst_0) = val_main_call0_cst_0 (F := F) := by
    rw [← e6]
    apply eq_of_heq
    refine HEq.trans (tnullary_heq _ _ _ _ _ _) (heq_of_eq ?_)
    unfold val_main_call0_cst_0
    rfl
  have h6_main_v1 : W6 (Proc.devRef .tc main_v1) = val_main_v1 (F := F) (W0 (Proc.devRef .tc main_arg2)) := by
    rw [← e6, nullary_result_ne]
    all_goals first | exact h5_main_v1 | decide
  have h6_main_v2 : W6 (Proc.devRef .tc main_v2) = val_main_v2 (F := F) (W0 (Proc.devRef .tc main_arg0)) (W0 (Proc.devRef .tc main_arg1)) := by
    rw [← e6, nullary_result_ne]
    all_goals first | exact h5_main_v2 | decide
  have h6_main_call0_v0 : W6 (Proc.devRef .tc main_call0_v0) = val_main_call0_v0 (F := F) (W0 (Proc.devRef .tc main_arg0)) (W0 (Proc.devRef .tc main_arg1)) := by
    rw [← e6, nullary_result_ne]
    all_goals first | exact h5_main_call0_v0 | decide
  clear e6 h5_main_v1 h5_main_v2 h5_main_call0_v0
  -- main_call0_v1
  rw [after_cons]
  generalize e7 : (TRef.unary (TRef.of (T := ⟨S_, .f32⟩) main_call0_cst_0) (TRef.of (T := ⟨S8192, .f32⟩) main_call0_v1) (broadcastInDim S8192 ![] bcast_S_S8192) : HloOp τ sig (Elt F)).result W6 = W7
  have h7_main_call0_v1 : W7 (Proc.devRef .tc main_call0_v1) = val_main_call0_v1 (F := F) := by
    rw [← e7]
    apply eq_of_heq
    refine HEq.trans (tunary_heq _ _ _ _ _ _ _ _ _ _ _ (heq_of_eq h6_main_call0_cst_0)) (heq_of_eq ?_)
    unfold val_main_call0_v1
    rfl
  have h7_main_v1 : W7 (Proc.devRef .tc main_v1) = val_main_v1 (F := F) (W0 (Proc.devRef .tc main_arg2)) := by
    rw [← e7, unary_result_ne]
    all_goals first | exact h6_main_v1 | decide
  have h7_main_v2 : W7 (Proc.devRef .tc main_v2) = val_main_v2 (F := F) (W0 (Proc.devRef .tc main_arg0)) (W0 (Proc.devRef .tc main_arg1)) := by
    rw [← e7, unary_result_ne]
    all_goals first | exact h6_main_v2 | decide
  have h7_main_call0_v0 : W7 (Proc.devRef .tc main_call0_v0) = val_main_call0_v0 (F := F) (W0 (Proc.devRef .tc main_arg0)) (W0 (Proc.devRef .tc main_arg1)) := by
    rw [← e7, unary_result_ne]
    all_goals first | exact h6_main_call0_v0 | decide
  clear e7 h6_main_v1 h6_main_v2 h6_main_call0_v0 h6_main_call0_cst_0
  -- main_call0_v2
  rw [after_cons]
  generalize e8 : (TRef.binary (TRef.of (T := ⟨S8192, .f32⟩) main_call0_v1) (TRef.of (T := ⟨S8192, .f32⟩) main_call0_v0) (TRef.of (T := ⟨S8192, .f32⟩) main_call0_v2) maximumf : HloOp τ sig (Elt F)).result W7 = W8
  have h8_main_call0_v2 : W8 (Proc.devRef .tc main_call0_v2) = val_main_call0_v2 (F := F) (W0 (Proc.devRef .tc main_arg0)) (W0 (Proc.devRef .tc main_arg1)) := by
    rw [← e8]
    apply eq_of_heq
    refine HEq.trans (tbinary_heq _ _ _ _ _ _ _ _ _ _ _ _ _ _ _ _ (heq_of_eq h7_main_call0_v1) (heq_of_eq h7_main_call0_v0)) (heq_of_eq ?_)
    unfold val_main_call0_v2
    rfl
  have h8_main_v1 : W8 (Proc.devRef .tc main_v1) = val_main_v1 (F := F) (W0 (Proc.devRef .tc main_arg2)) := by
    rw [← e8, binary_result_ne]
    all_goals first | exact h7_main_v1 | decide
  have h8_main_v2 : W8 (Proc.devRef .tc main_v2) = val_main_v2 (F := F) (W0 (Proc.devRef .tc main_arg0)) (W0 (Proc.devRef .tc main_arg1)) := by
    rw [← e8, binary_result_ne]
    all_goals first | exact h7_main_v2 | decide
  clear e8 h7_main_v1 h7_main_v2 h7_main_call0_v0 h7_main_call0_v1
  -- main_call0_v3
  rw [after_cons]
  generalize e9 : (TRef.unary (TRef.of (T := ⟨S8192, .f32⟩) main_call0_v2) (TRef.of (T := ⟨S8192x1, .f32⟩) main_call0_v3) (broadcastInDim S8192x1 ![0] bcast_S8192_S8192x1_0) : HloOp τ sig (Elt F)).result W8 = W9
  have h9_main_call0_v3 : W9 (Proc.devRef .tc main_call0_v3) = val_main_call0_v3 (F := F) (W0 (Proc.devRef .tc main_arg0)) (W0 (Proc.devRef .tc main_arg1)) := by
    rw [← e9]
    apply eq_of_heq
    refine HEq.trans (tunary_heq _ _ _ _ _ _ _ _ _ _ _ (heq_of_eq h8_main_call0_v2)) (heq_of_eq ?_)
    unfold val_main_call0_v3
    rfl
  have h9_main_v1 : W9 (Proc.devRef .tc main_v1) = val_main_v1 (F := F) (W0 (Proc.devRef .tc main_arg2)) := by
    rw [← e9, unary_result_ne]
    all_goals first | exact h8_main_v1 | decide
  have h9_main_v2 : W9 (Proc.devRef .tc main_v2) = val_main_v2 (F := F) (W0 (Proc.devRef .tc main_arg0)) (W0 (Proc.devRef .tc main_arg1)) := by
    rw [← e9, unary_result_ne]
    all_goals first | exact h8_main_v2 | decide
  clear e9 h8_main_v1 h8_main_v2 h8_main_call0_v2
  -- main_call0_v4
  rw [after_cons]
  generalize e10 : (TRef.unary (TRef.of (T := ⟨S8192x1, .f32⟩) main_call0_v3) (TRef.of (T := ⟨S8192x32000, .f32⟩) main_call0_v4) (broadcastInDim S8192x32000 ![0, 1] bcast_S8192x1_S8192x32000_0_1) : HloOp τ sig (Elt F)).result W9 = W10
  have h10_main_call0_v4 : W10 (Proc.devRef .tc main_call0_v4) = val_main_call0_v4 (F := F) (W0 (Proc.devRef .tc main_arg0)) (W0 (Proc.devRef .tc main_arg1)) := by
    rw [← e10]
    apply eq_of_heq
    refine HEq.trans (tunary_heq _ _ _ _ _ _ _ _ _ _ _ (heq_of_eq h9_main_call0_v3)) (heq_of_eq ?_)
    unfold val_main_call0_v4
    rfl
  have h10_main_v1 : W10 (Proc.devRef .tc main_v1) = val_main_v1 (F := F) (W0 (Proc.devRef .tc main_arg2)) := by
    rw [← e10, unary_result_ne]
    all_goals first | exact h9_main_v1 | decide
  have h10_main_v2 : W10 (Proc.devRef .tc main_v2) = val_main_v2 (F := F) (W0 (Proc.devRef .tc main_arg0)) (W0 (Proc.devRef .tc main_arg1)) := by
    rw [← e10, unary_result_ne]
    all_goals first | exact h9_main_v2 | decide
  clear e10 h9_main_v1 h9_main_v2 h9_main_call0_v3
  -- main_call0_v5
  rw [after_cons]
  generalize e11 : (TRef.binary (TRef.of (T := ⟨S8192x32000, .f32⟩) main_v2) (TRef.of (T := ⟨S8192x32000, .f32⟩) main_call0_v4) (TRef.of (T := ⟨S8192x32000, .f32⟩) main_call0_v5) subf : HloOp τ sig (Elt F)).result W10 = W11
  have h11_main_call0_v5 : W11 (Proc.devRef .tc main_call0_v5) = val_main_call0_v5 (F := F) (W0 (Proc.devRef .tc main_arg0)) (W0 (Proc.devRef .tc main_arg1)) := by
    rw [← e11]
    apply eq_of_heq
    refine HEq.trans (tbinary_heq _ _ _ _ _ _ _ _ _ _ _ _ _ _ _ _ (heq_of_eq h10_main_v2) (heq_of_eq h10_main_call0_v4)) (heq_of_eq ?_)
    unfold val_main_call0_v5
    rfl
  have h11_main_v1 : W11 (Proc.devRef .tc main_v1) = val_main_v1 (F := F) (W0 (Proc.devRef .tc main_arg2)) := by
    rw [← e11, binary_result_ne]
    all_goals first | exact h10_main_v1 | decide
  clear e11 h10_main_v1 h10_main_v2 h10_main_call0_v4
  -- main_call0_v6
  rw [after_cons]
  generalize e12 : (TRef.unary (TRef.of (T := ⟨S8192x32000, .f32⟩) main_call0_v5) (TRef.of (T := ⟨S8192x32000, .f32⟩) main_call0_v6) Host.exp : HloOp τ sig (Elt F)).result W11 = W12
  have h12_main_call0_v6 : W12 (Proc.devRef .tc main_call0_v6) = val_main_call0_v6 (F := F) (W0 (Proc.devRef .tc main_arg0)) (W0 (Proc.devRef .tc main_arg1)) := by
    rw [← e12]
    apply eq_of_heq
    refine HEq.trans (tunary_heq _ _ _ _ _ _ _ _ _ _ _ (heq_of_eq h11_main_call0_v5)) (heq_of_eq ?_)
    unfold val_main_call0_v6
    rfl
  have h12_main_v1 : W12 (Proc.devRef .tc main_v1) = val_main_v1 (F := F) (W0 (Proc.devRef .tc main_arg2)) := by
    rw [← e12, unary_result_ne]
    all_goals first | exact h11_main_v1 | decide
  have h12_main_call0_v5 : W12 (Proc.devRef .tc main_call0_v5) = val_main_call0_v5 (F := F) (W0 (Proc.devRef .tc main_arg0)) (W0 (Proc.devRef .tc main_arg1)) := by
    rw [← e12, unary_result_ne]
    all_goals first | exact h11_main_call0_v5 | decide
  clear e12 h11_main_v1 h11_main_call0_v5
  -- main_call0_cst_1
  rw [after_cons]
  generalize e13 : (TRef.nullary (TRef.of (T := ⟨S_, .f32⟩) main_call0_cst_1) (constant S_ .f32 0x00000000#32) : HloOp τ sig (Elt F)).result W12 = W13
  have h13_main_call0_cst_1 : W13 (Proc.devRef .tc main_call0_cst_1) = val_main_call0_cst_1 (F := F) := by
    rw [← e13]
    apply eq_of_heq
    refine HEq.trans (tnullary_heq _ _ _ _ _ _) (heq_of_eq ?_)
    unfold val_main_call0_cst_1
    rfl
  have h13_main_v1 : W13 (Proc.devRef .tc main_v1) = val_main_v1 (F := F) (W0 (Proc.devRef .tc main_arg2)) := by
    rw [← e13, nullary_result_ne]
    all_goals first | exact h12_main_v1 | decide
  have h13_main_call0_v5 : W13 (Proc.devRef .tc main_call0_v5) = val_main_call0_v5 (F := F) (W0 (Proc.devRef .tc main_arg0)) (W0 (Proc.devRef .tc main_arg1)) := by
    rw [← e13, nullary_result_ne]
    all_goals first | exact h12_main_call0_v5 | decide
  have h13_main_call0_v6 : W13 (Proc.devRef .tc main_call0_v6) = val_main_call0_v6 (F := F) (W0 (Proc.devRef .tc main_arg0)) (W0 (Proc.devRef .tc main_arg1)) := by
    rw [← e13, nullary_result_ne]
    all_goals first | exact h12_main_call0_v6 | decide
  clear e13 h12_main_v1 h12_main_call0_v5 h12_main_call0_v6
  -- main_call0_v7
  rw [after_cons]
  generalize e14 : (TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_) : HloOp τ sig (Elt F)).result W13 = W14
  have h14_main_call0_v7 : W14 (Proc.devRef .tc main_call0_v7) = val_main_call0_v7 (F := F) (W0 (Proc.devRef .tc main_arg0)) (W0 (Proc.devRef .tc main_arg1)) := by
    rw [← e14]
    apply eq_of_heq
    refine HEq.trans (tbinary_heq _ _ _ _ _ _ _ _ _ _ _ _ _ _ _ _ (heq_of_eq h13_main_call0_v6) (heq_of_eq h13_main_call0_cst_1)) (heq_of_eq ?_)
    unfold val_main_call0_v7
    rfl
  have h14_main_v1 : W14 (Proc.devRef .tc main_v1) = val_main_v1 (F := F) (W0 (Proc.devRef .tc main_arg2)) := by
    rw [← e14, binary_result_ne]
    all_goals first | exact h13_main_v1 | decide
  have h14_main_call0_v5 : W14 (Proc.devRef .tc main_call0_v5) = val_main_call0_v5 (F := F) (W0 (Proc.devRef .tc main_arg0)) (W0 (Proc.devRef .tc main_arg1)) := by
    rw [← e14, binary_result_ne]
    all_goals first | exact h13_main_call0_v5 | decide
  clear e14 h13_main_v1 h13_main_call0_v5 h13_main_call0_v6 h13_main_call0_cst_1
  -- main_call0_v8
  rw [after_cons]
  generalize e15 : (TRef.unary (TRef.of (T := ⟨S8192, .f32⟩) main_call0_v7) (TRef.of (T := ⟨S8192x1, .f32⟩) main_call0_v8) (broadcastInDim S8192x1 ![0] bcast_S8192_S8192x1_0) : HloOp τ sig (Elt F)).result W14 = W15
  have h15_main_call0_v8 : W15 (Proc.devRef .tc main_call0_v8) = val_main_call0_v8 (F := F) (W0 (Proc.devRef .tc main_arg0)) (W0 (Proc.devRef .tc main_arg1)) := by
    rw [← e15]
    apply eq_of_heq
    refine HEq.trans (tunary_heq _ _ _ _ _ _ _ _ _ _ _ (heq_of_eq h14_main_call0_v7)) (heq_of_eq ?_)
    unfold val_main_call0_v8
    rfl
  have h15_main_v1 : W15 (Proc.devRef .tc main_v1) = val_main_v1 (F := F) (W0 (Proc.devRef .tc main_arg2)) := by
    rw [← e15, unary_result_ne]
    all_goals first | exact h14_main_v1 | decide
  have h15_main_call0_v5 : W15 (Proc.devRef .tc main_call0_v5) = val_main_call0_v5 (F := F) (W0 (Proc.devRef .tc main_arg0)) (W0 (Proc.devRef .tc main_arg1)) := by
    rw [← e15, unary_result_ne]
    all_goals first | exact h14_main_call0_v5 | decide
  clear e15 h14_main_v1 h14_main_call0_v5 h14_main_call0_v7
  -- main_call0_v9
  rw [after_cons]
  generalize e16 : (TRef.unary (TRef.of (T := ⟨S8192x1, .f32⟩) main_call0_v8) (TRef.of (T := ⟨S8192x1, .f32⟩) main_call0_v9) Host.log : HloOp τ sig (Elt F)).result W15 = W16
  have h16_main_call0_v9 : W16 (Proc.devRef .tc main_call0_v9) = val_main_call0_v9 (F := F) (W0 (Proc.devRef .tc main_arg0)) (W0 (Proc.devRef .tc main_arg1)) := by
    rw [← e16]
    apply eq_of_heq
    refine HEq.trans (tunary_heq _ _ _ _ _ _ _ _ _ _ _ (heq_of_eq h15_main_call0_v8)) (heq_of_eq ?_)
    unfold val_main_call0_v9
    rfl
  have h16_main_v1 : W16 (Proc.devRef .tc main_v1) = val_main_v1 (F := F) (W0 (Proc.devRef .tc main_arg2)) := by
    rw [← e16, unary_result_ne]
    all_goals first | exact h15_main_v1 | decide
  have h16_main_call0_v5 : W16 (Proc.devRef .tc main_call0_v5) = val_main_call0_v5 (F := F) (W0 (Proc.devRef .tc main_arg0)) (W0 (Proc.devRef .tc main_arg1)) := by
    rw [← e16, unary_result_ne]
    all_goals first | exact h15_main_call0_v5 | decide
  clear e16 h15_main_v1 h15_main_call0_v5 h15_main_call0_v8
  -- main_call0_v10
  rw [after_cons]
  generalize e17 : (TRef.unary (TRef.of (T := ⟨S8192x1, .f32⟩) main_call0_v9) (TRef.of (T := ⟨S8192x32000, .f32⟩) main_call0_v10) (broadcastInDim S8192x32000 ![0, 1] bcast_S8192x1_S8192x32000_0_1) : HloOp τ sig (Elt F)).result W16 = W17
  have h17_main_call0_v10 : W17 (Proc.devRef .tc main_call0_v10) = val_main_call0_v10 (F := F) (W0 (Proc.devRef .tc main_arg0)) (W0 (Proc.devRef .tc main_arg1)) := by
    rw [← e17]
    apply eq_of_heq
    refine HEq.trans (tunary_heq _ _ _ _ _ _ _ _ _ _ _ (heq_of_eq h16_main_call0_v9)) (heq_of_eq ?_)
    unfold val_main_call0_v10
    rfl
  have h17_main_v1 : W17 (Proc.devRef .tc main_v1) = val_main_v1 (F := F) (W0 (Proc.devRef .tc main_arg2)) := by
    rw [← e17, unary_result_ne]
    all_goals first | exact h16_main_v1 | decide
  have h17_main_call0_v5 : W17 (Proc.devRef .tc main_call0_v5) = val_main_call0_v5 (F := F) (W0 (Proc.devRef .tc main_arg0)) (W0 (Proc.devRef .tc main_arg1)) := by
    rw [← e17, unary_result_ne]
    all_goals first | exact h16_main_call0_v5 | decide
  clear e17 h16_main_v1 h16_main_call0_v5 h16_main_call0_v9
  -- main_v3
  rw [after_cons]
  generalize e18 : (TRef.binary (TRef.of (T := ⟨S8192x32000, .f32⟩) main_call0_v5) (TRef.of (T := ⟨S8192x32000, .f32⟩) main_call0_v10) (TRef.of (T := ⟨S8192x32000, .f32⟩) main_v3) subf : HloOp τ sig (Elt F)).result W17 = W18
  have h18_main_v3 : W18 (Proc.devRef .tc main_v3) = val_main_v3 (F := F) (W0 (Proc.devRef .tc main_arg0)) (W0 (Proc.devRef .tc main_arg1)) := by
    rw [← e18]
    apply eq_of_heq
    refine HEq.trans (tbinary_heq _ _ _ _ _ _ _ _ _ _ _ _ _ _ _ _ (heq_of_eq h17_main_call0_v5) (heq_of_eq h17_main_call0_v10)) (heq_of_eq ?_)
    unfold val_main_v3
    rfl
  have h18_main_v1 : W18 (Proc.devRef .tc main_v1) = val_main_v1 (F := F) (W0 (Proc.devRef .tc main_arg2)) := by
    rw [← e18, binary_result_ne]
    all_goals first | exact h17_main_v1 | decide
  clear e18 h17_main_v1 h17_main_call0_v5 h17_main_call0_v10
  rw [after_nil]
  exact ⟨h18_main_v3, h18_main_v1⟩

end Cert.ReferenceIdeal.RunH

end
-- ==== Proof.RefRunC234.lean ====
/- The reference's second, third and last stretches of operations — the mask and the targets' column; each token's
  log-probability at its target; the count, the masked sum and their quotient — one operation at a time: after each
  operation, every buffer still to be read holds its stage, a function of the three arguments; an operation's result is
  its function of its operands' stages, and every other buffer keeps what it held.
-/
import proofs.«403814_j70300024701269_3_alg».proof.Proof.RefRunBase

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxHeartbeats 4000000 in
/-- The second stretch, from any contents that hold the flattened targets and the log-softmax: it leaves the mask and the
    targets' column, and keeps the log-softmax. -/
theorem s2 (W : Valuation τ sig (Elt F)) (x0 : (⟨S2x4096x2048, .f32⟩ : BufTy).Contents (Elt F)) (x1 : (⟨S32000x2048, .f32⟩ : BufTy).Contents (Elt F)) (x2 : (⟨S2x4096, .i32⟩ : BufTy).Contents (Elt F))
    (h_main_v1 : W (Proc.devRef .tc main_v1) = val_main_v1 (F := F) x2)
    (h_main_v3 : W (Proc.devRef .tc main_v3) = val_main_v3 (F := F) x0 x1) :
    after (ops2 (F := F)) W (Proc.devRef .tc main_v5) = val_main_v5 (F := F) x2
      ∧ after (ops2 (F := F)) W (Proc.devRef .tc main_v7) = val_main_v7 (F := F) x2
      ∧ after (ops2 (F := F)) W (Proc.devRef .tc main_v3) = val_main_v3 (F := F) x0 x1 := by
  unfold ops2
  -- main_c
  rw [after_cons]
  generalize hk : HloOp.result _ W = W1
  have f0_main_c : W1 (Proc.devRef .tc main_c) = val_main_c (F := F) := by
    rw [← hk, nullary_result]
    rfl
  have g0_main_v1 : W1 (Proc.devRef .tc main_v1) = val_main_v1 (F := F) x2 := by
    rw [← hk, nullary_result_ne]; exact h_main_v1; decide
  have g0_main_v3 : W1 (Proc.devRef .tc main_v3) = val_main_v3 (F := F) x0 x1 := by
    rw [← hk, nullary_result_ne]; exact h_main_v3; decide
  clear hk h_main_v1 h_main_v3
  -- main_v4
  rw [after_cons]
  generalize hk : HloOp.result _ W1 = W2
  have f1_main_v4 : W2 (Proc.devRef .tc main_v4) = val_main_v4 (F := F) := by
    rw [← hk, unary_result, f0_main_c]
    rfl
  have g1_main_v1 : W2 (Proc.devRef .tc main_v1) = val_main_v1 (F := F) x2 := by
    rw [← hk, unary_result_ne]; exact g0_main_v1; decide
  have g1_main_v3 : W2 (Proc.devRef .tc main_v3) = val_main_v3 (F := F) x0 x1 := by
    rw [← hk, unary_result_ne]; exact g0_main_v3; decide
  clear hk f0_main_c g0_main_v1 g0_main_v3
  -- main_v5
  rw [after_cons]
  generalize hk : HloOp.result _ W2 = W3
  have f2_main_v5 : W3 (Proc.devRef .tc main_v5) = val_main_v5 (F := F) x2 := by
    rw [← hk, binary_result, g1_main_v1, f1_main_v4]
    rfl
  have g2_main_v1 : W3 (Proc.devRef .tc main_v1) = val_main_v1 (F := F) x2 := by
    rw [← hk, binary_result_ne]; exact g1_main_v1; decide
  have g2_main_v3 : W3 (Proc.devRef .tc main_v3) = val_main_v3 (F := F) x0 x1 := by
    rw [← hk, binary_result_ne]; exact g1_main_v3; decide
  clear hk f1_main_v4 g1_main_v1 g1_main_v3
  -- main_c_0
  rw [after_cons]
  generalize hk : HloOp.result _ W3 = W4
  have f3_main_c_0 : W4 (Proc.devRef .tc main_c_0) = val_main_c_0 (F := F) := by
    rw [← hk, nullary_result]
    rfl
  have g3_main_v5 : W4 (Proc.devRef .tc main_v5) = val_main_v5 (F := F) x2 := by
    rw [← hk, nullary_result_ne]; exact f2_main_v5; decide
  have g3_main_v1 : W4 (Proc.devRef .tc main_v1) = val_main_v1 (F := F) x2 := by
    rw [← hk, nullary_result_ne]; exact g2_main_v1; decide
  have g3_main_v3 : W4 (Proc.devRef .tc main_v3) = val_main_v3 (F := F) x0 x1 := by
    rw [← hk, nullary_result_ne]; exact g2_main_v3; decide
  clear hk f2_main_v5 g2_main_v1 g2_main_v3
  -- main_call1_v0
  rw [after_cons]
  generalize hk : HloOp.result _ W4 = W5
  have f4_main_call1_v0 : W5 (Proc.devRef .tc main_call1_v0) = val_main_call1_v0 (F := F) := by
    rw [← hk, unary_result, f3_main_c_0]
    rfl
  have g4_main_v5 : W5 (Proc.devRef .tc main_v5) = val_main_v5 (F := F) x2 := by
    rw [← hk, unary_result_ne]; exact g3_main_v5; decide
  have g4_main_v1 : W5 (Proc.devRef .tc main_v1) = val_main_v1 (F := F) x2 := by
    rw [← hk, unary_result_ne]; exact g3_main_v1; decide
  have g4_main_v3 : W5 (Proc.devRef .tc main_v3) = val_main_v3 (F := F) x0 x1 := by
    rw [← hk, unary_result_ne]; exact g3_main_v3; decide
  clear hk f3_main_c_0 g3_main_v5 g3_main_v1 g3_main_v3
  -- main_call1_v1
  rw [after_cons]
  generalize hk : HloOp.result _ W5 = W6
  have f5_main_call1_v1 : W6 (Proc.devRef .tc main_call1_v1) = val_main_call1_v1 (F := F) := by
    rw [← hk, unary_result, f4_main_call1_v0]
    rfl
  have g5_main_v5 : W6 (Proc.devRef .tc main_v5) = val_main_v5 (F := F) x2 := by
    rw [← hk, unary_result_ne]; exact g4_main_v5; decide
  have g5_main_v1 : W6 (Proc.devRef .tc main_v1) = val_main_v1 (F := F) x2 := by
    rw [← hk, unary_result_ne]; exact g4_main_v1; decide
  have g5_main_v3 : W6 (Proc.devRef .tc main_v3) = val_main_v3 (F := F) x0 x1 := by
    rw [← hk, unary_result_ne]; exact g4_main_v3; decide
  clear hk f4_main_call1_v0 g4_main_v5 g4_main_v1 g4_main_v3
  -- main_v6
  rw [after_cons]
  generalize hk : HloOp.result _ W6 = W7
  have f6_main_v6 : W7 (Proc.devRef .tc main_v6) = val_main_v6 (F := F) x2 := by
    rw [← hk, ternary_result, g5_main_v5, g5_main_v1, f5_main_call1_v1]
    rfl
  have g6_main_v5 : W7 (Proc.devRef .tc main_v5) = val_main_v5 (F := F) x2 := by
    rw [← hk, ternary_result_ne]; exact g5_main_v5; decide
  have g6_main_v3 : W7 (Proc.devRef .tc main_v3) = val_main_v3 (F := F) x0 x1 := by
    rw [← hk, ternary_result_ne]; exact g5_main_v3; decide
  clear hk f5_main_call1_v1 g5_main_v5 g5_main_v1 g5_main_v3
  -- main_v7
  rw [after_cons]
  generalize hk : HloOp.result _ W7 = W8
  have f7_main_v7 : W8 (Proc.devRef .tc main_v7) = val_main_v7 (F := F) x2 := by
    rw [← hk, unary_result, f6_main_v6]
    rfl
  have g7_main_v5 : W8 (Proc.devRef .tc main_v5) = val_main_v5 (F := F) x2 := by
    rw [← hk, unary_result_ne]; exact g6_main_v5; decide
  have g7_main_v3 : W8 (Proc.devRef .tc main_v3) = val_main_v3 (F := F) x0 x1 := by
    rw [← hk, unary_result_ne]; exact g6_main_v3; decide
  clear hk f6_main_v6 g6_main_v5 g6_main_v3
  exact ⟨g7_main_v5, f7_main_v7, g7_main_v3⟩

set_option maxHeartbeats 4000000 in
/-- The third stretch, from any contents that hold the targets' column, the log-softmax and the mask: it leaves each
    token's log-probability at its target, and keeps the mask. -/
theorem s3 (W : Valuation τ sig (Elt F)) (x0 : (⟨S2x4096x2048, .f32⟩ : BufTy).Contents (Elt F)) (x1 : (⟨S32000x2048, .f32⟩ : BufTy).Contents (Elt F)) (x2 : (⟨S2x4096, .i32⟩ : BufTy).Contents (Elt F))
    (h_main_v7 : W (Proc.devRef .tc main_v7) = val_main_v7 (F := F) x2)
    (h_main_v3 : W (Proc.devRef .tc main_v3) = val_main_v3 (F := F) x0 x1)
    (h_main_v5 : W (Proc.devRef .tc main_v5) = val_main_v5 (F := F) x2) :
    after (ops3 (F := F)) W (Proc.devRef .tc main_v8) = val_main_v8 (F := F) x0 x1 x2
      ∧ after (ops3 (F := F)) W (Proc.devRef .tc main_v5) = val_main_v5 (F := F) x2 := by
  unfold ops3
  -- main_call2_c
  rw [after_cons]
  generalize hk : HloOp.result _ W = W1
  have f0_main_call2_c : W1 (Proc.devRef .tc main_call2_c) = val_main_call2_c (F := F) := by
    rw [← hk, nullary_result]
    rfl
  have g0_main_v7 : W1 (Proc.devRef .tc main_v7) = val_main_v7 (F := F) x2 := by
    rw [← hk, nullary_result_ne]; exact h_main_v7; decide
  have g0_main_v3 : W1 (Proc.devRef .tc main_v3) = val_main_v3 (F := F) x0 x1 := by
    rw [← hk, nullary_result_ne]; exact h_main_v3; decide
  have g0_main_v5 : W1 (Proc.devRef .tc main_v5) = val_main_v5 (F := F) x2 := by
    rw [← hk, nullary_result_ne]; exact h_main_v5; decide
  clear hk h_main_v7 h_main_v3 h_main_v5
  -- main_call2_v0
  rw [after_cons]
  generalize hk : HloOp.result _ W1 = W2
  have f1_main_call2_v0 : W2 (Proc.devRef .tc main_call2_v0) = val_main_call2_v0 (F := F) := by
    rw [← hk, unary_result, f0_main_call2_c]
    rfl
  have g1_main_v7 : W2 (Proc.devRef .tc main_v7) = val_main_v7 (F := F) x2 := by
    rw [← hk, unary_result_ne]; exact g0_main_v7; decide
  have g1_main_v3 : W2 (Proc.devRef .tc main_v3) = val_main_v3 (F := F) x0 x1 := by
    rw [← hk, unary_result_ne]; exact g0_main_v3; decide
  have g1_main_v5 : W2 (Proc.devRef .tc main_v5) = val_main_v5 (F := F) x2 := by
    rw [← hk, unary_result_ne]; exact g0_main_v5; decide
  clear hk f0_main_call2_c g0_main_v7 g0_main_v3 g0_main_v5
  -- main_call2_v1
  rw [after_cons]
  generalize hk : HloOp.result _ W2 = W3
  have f2_main_call2_v1 : W3 (Proc.devRef .tc main_call2_v1) = val_main_call2_v1 (F := F) x2 := by
    rw [← hk, binary_result, g1_main_v7, f1_main_call2_v0]
    rfl
  have g2_main_v7 : W3 (Proc.devRef .tc main_v7) = val_main_v7 (F := F) x2 := by
    rw [← hk, binary_result_ne]; exact g1_main_v7; decide
  have g2_main_v3 : W3 (Proc.devRef .tc main_v3) = val_main_v3 (F := F) x0 x1 := by
    rw [← hk, binary_result_ne]; exact g1_main_v3; decide
  have g2_main_v5 : W3 (Proc.devRef .tc main_v5) = val_main_v5 (F := F) x2 := by
    rw [← hk, binary_result_ne]; exact g1_main_v5; decide
  clear hk f1_main_call2_v0 g1_main_v7 g1_main_v3 g1_main_v5
  -- main_call2_c_0
  rw [after_cons]
  generalize hk : HloOp.result _ W3 = W4
  have f3_main_call2_c_0 : W4 (Proc.devRef .tc main_call2_c_0) = val_main_call2_c_0 (F := F) := by
    rw [← hk, nullary_result]
    rfl
  have g3_main_call2_v1 : W4 (Proc.devRef .tc main_call2_v1) = val_main_call2_v1 (F := F) x2 := by
    rw [← hk, nullary_result_ne]; exact f2_main_call2_v1; decide
  have g3_main_v7 : W4 (Proc.devRef .tc main_v7) = val_main_v7 (F := F) x2 := by
    rw [← hk, nullary_result_ne]; exact g2_main_v7; decide
  have g3_main_v3 : W4 (Proc.devRef .tc main_v3) = val_main_v3 (F := F) x0 x1 := by
    rw [← hk, nullary_result_ne]; exact g2_main_v3; decide
  have g3_main_v5 : W4 (Proc.devRef .tc main_v5) = val_main_v5 (F := F) x2 := by
    rw [← hk, nullary_result_ne]; exact g2_main_v5; decide
  clear hk f2_main_call2_v1 g2_main_v7 g2_main_v3 g2_main_v5
  -- main_call2_v2
  rw [after_cons]
  generalize hk : HloOp.result _ W4 = W5
  have f4_main_call2_v2 : W5 (Proc.devRef .tc main_call2_v2) = val_main_call2_v2 (F := F) := by
    rw [← hk, unary_result, f3_main_call2_c_0]
    rfl
  have g4_main_call2_v1 : W5 (Proc.devRef .tc main_call2_v1) = val_main_call2_v1 (F := F) x2 := by
    rw [← hk, unary_result_ne]; exact g3_main_call2_v1; decide
  have g4_main_v7 : W5 (Proc.devRef .tc main_v7) = val_main_v7 (F := F) x2 := by
    rw [← hk, unary_result_ne]; exact g3_main_v7; decide
  have g4_main_v3 : W5 (Proc.devRef .tc main_v3) = val_main_v3 (F := F) x0 x1 := by
    rw [← hk, unary_result_ne]; exact g3_main_v3; decide
  have g4_main_v5 : W5 (Proc.devRef .tc main_v5) = val_main_v5 (F := F) x2 := by
    rw [← hk, unary_result_ne]; exact g3_main_v5; decide
  clear hk f3_main_call2_c_0 g3_main_call2_v1 g3_main_v7 g3_main_v3 g3_main_v5
  -- main_call2_v3
  rw [after_cons]
  generalize hk : HloOp.result _ W5 = W6
  have f5_main_call2_v3 : W6 (Proc.devRef .tc main_call2_v3) = val_main_call2_v3 (F := F) x2 := by
    rw [← hk, binary_result, g4_main_v7, f4_main_call2_v2]
    rfl
  have g5_main_call2_v1 : W6 (Proc.devRef .tc main_call2_v1) = val_main_call2_v1 (F := F) x2 := by
    rw [← hk, binary_result_ne]; exact g4_main_call2_v1; decide
  have g5_main_v7 : W6 (Proc.devRef .tc main_v7) = val_main_v7 (F := F) x2 := by
    rw [← hk, binary_result_ne]; exact g4_main_v7; decide
  have g5_main_v3 : W6 (Proc.devRef .tc main_v3) = val_main_v3 (F := F) x0 x1 := by
    rw [← hk, binary_result_ne]; exact g4_main_v3; decide
  have g5_main_v5 : W6 (Proc.devRef .tc main_v5) = val_main_v5 (F := F) x2 := by
    rw [← hk, binary_result_ne]; exact g4_main_v5; decide
  clear hk f4_main_call2_v2 g4_main_call2_v1 g4_main_v7 g4_main_v3 g4_main_v5
  -- main_call2_v4
  rw [after_cons]
  generalize hk : HloOp.result _ W6 = W7
  have f6_main_call2_v4 : W7 (Proc.devRef .tc main_call2_v4) = val_main_call2_v4 (F := F) x2 := by
    rw [← hk, ternary_result, g5_main_call2_v1, f5_main_call2_v3, g5_main_v7]
    rfl
  have g6_main_v3 : W7 (Proc.devRef .tc main_v3) = val_main_v3 (F := F) x0 x1 := by
    rw [← hk, ternary_result_ne]; exact g5_main_v3; decide
  have g6_main_v5 : W7 (Proc.devRef .tc main_v5) = val_main_v5 (F := F) x2 := by
    rw [← hk, ternary_result_ne]; exact g5_main_v5; decide
  clear hk f5_main_call2_v3 g5_main_call2_v1 g5_main_v7 g5_main_v3 g5_main_v5
  -- main_call2_v5
  rw [after_cons]
  generalize hk : HloOp.result _ W7 = W8
  have f7_main_call2_v5 : W8 (Proc.devRef .tc main_call2_v5) = val_main_call2_v5 (F := F) x2 := by
    rw [← hk, reshape_result, f6_main_call2_v4]
    rfl
  have g7_main_v3 : W8 (Proc.devRef .tc main_v3) = val_main_v3 (F := F) x0 x1 := by
    rw [← hk, reshape_result_ne]; exact g6_main_v3; decide
  have g7_main_v5 : W8 (Proc.devRef .tc main_v5) = val_main_v5 (F := F) x2 := by
    rw [← hk, reshape_result_ne]; exact g6_main_v5; decide
  clear hk f6_main_call2_v4 g6_main_v3 g6_main_v5
  -- main_call2_c_1
  rw [after_cons]
  generalize hk : HloOp.result _ W8 = W9
  have f8_main_call2_c_1 : W9 (Proc.devRef .tc main_call2_c_1) = val_main_call2_c_1 (F := F) := by
    rw [← hk, nullary_result]
    rfl
  have g8_main_call2_v5 : W9 (Proc.devRef .tc main_call2_v5) = val_main_call2_v5 (F := F) x2 := by
    rw [← hk, nullary_result_ne]; exact f7_main_call2_v5; decide
  have g8_main_v3 : W9 (Proc.devRef .tc main_v3) = val_main_v3 (F := F) x0 x1 := by
    rw [← hk, nullary_result_ne]; exact g7_main_v3; decide
  have g8_main_v5 : W9 (Proc.devRef .tc main_v5) = val_main_v5 (F := F) x2 := by
    rw [← hk, nullary_result_ne]; exact g7_main_v5; decide
  clear hk f7_main_call2_v5 g7_main_v3 g7_main_v5
  -- main_call2_c_2
  rw [after_cons]
  generalize hk : HloOp.result _ W9 = W10
  have f9_main_call2_c_2 : W10 (Proc.devRef .tc main_call2_c_2) = val_main_call2_c_2 (F := F) := by
    rw [← hk, nullary_result]
    rfl
  have g9_main_call2_c_1 : W10 (Proc.devRef .tc main_call2_c_1) = val_main_call2_c_1 (F := F) := by
    rw [← hk, nullary_result_ne]; exact f8_main_call2_c_1; decide
  have g9_main_call2_v5 : W10 (Proc.devRef .tc main_call2_v5) = val_main_call2_v5 (F := F) x2 := by
    rw [← hk, nullary_result_ne]; exact g8_main_call2_v5; decide
  have g9_main_v3 : W10 (Proc.devRef .tc main_v3) = val_main_v3 (F := F) x0 x1 := by
    rw [← hk, nullary_result_ne]; exact g8_main_v3; decide
  have g9_main_v5 : W10 (Proc.devRef .tc main_v5) = val_main_v5 (F := F) x2 := by
    rw [← hk, nullary_result_ne]; exact g8_main_v5; decide
  clear hk f8_main_call2_c_1 g8_main_call2_v5 g8_main_v3 g8_main_v5
  -- main_call2_v6
  rw [after_cons]
  generalize hk : HloOp.result _ W10 = W11
  have f10_main_call2_v6 : W11 (Proc.devRef .tc main_call2_v6) = val_main_call2_v6 (F := F) := by
    rw [← hk, unary_result, f9_main_call2_c_2]
    rfl
  have g10_main_call2_c_1 : W11 (Proc.devRef .tc main_call2_c_1) = val_main_call2_c_1 (F := F) := by
    rw [← hk, unary_result_ne]; exact g9_main_call2_c_1; decide
  have g10_main_call2_v5 : W11 (Proc.devRef .tc main_call2_v5) = val_main_call2_v5 (F := F) x2 := by
    rw [← hk, unary_result_ne]; exact g9_main_call2_v5; decide
  have g10_main_v3 : W11 (Proc.devRef .tc main_v3) = val_main_v3 (F := F) x0 x1 := by
    rw [← hk, unary_result_ne]; exact g9_main_v3; decide
  have g10_main_v5 : W11 (Proc.devRef .tc main_v5) = val_main_v5 (F := F) x2 := by
    rw [← hk, unary_result_ne]; exact g9_main_v5; decide
  clear hk f9_main_call2_c_2 g9_main_call2_c_1 g9_main_call2_v5 g9_main_v3 g9_main_v5
  -- main_call2_v7
  rw [after_cons]
  generalize hk : HloOp.result _ W11 = W12
  have f11_main_call2_v7 : W12 (Proc.devRef .tc main_call2_v7) = val_main_call2_v7 (F := F) x2 := by
    rw [← hk, binary_result, g10_main_call2_v5, f10_main_call2_v6]
    rfl
  have g11_main_call2_c_1 : W12 (Proc.devRef .tc main_call2_c_1) = val_main_call2_c_1 (F := F) := by
    rw [← hk, binary_result_ne]; exact g10_main_call2_c_1; decide
  have g11_main_call2_v5 : W12 (Proc.devRef .tc main_call2_v5) = val_main_call2_v5 (F := F) x2 := by
    rw [← hk, binary_result_ne]; exact g10_main_call2_v5; decide
  have g11_main_v3 : W12 (Proc.devRef .tc main_v3) = val_main_v3 (F := F) x0 x1 := by
    rw [← hk, binary_result_ne]; exact g10_main_v3; decide
  have g11_main_v5 : W12 (Proc.devRef .tc main_v5) = val_main_v5 (F := F) x2 := by
    rw [← hk, binary_result_ne]; exact g10_main_v5; decide
  clear hk f10_main_call2_v6 g10_main_call2_c_1 g10_main_call2_v5 g10_main_v3 g10_main_v5
  -- main_call2_v8
  rw [after_cons]
  generalize hk : HloOp.result _ W12 = W13
  have f12_main_call2_v8 : W13 (Proc.devRef .tc main_call2_v8) = val_main_call2_v8 (F := F) := by
    rw [← hk, unary_result, g11_main_call2_c_1]
    rfl
  have g12_main_call2_v7 : W13 (Proc.devRef .tc main_call2_v7) = val_main_call2_v7 (F := F) x2 := by
    rw [← hk, unary_result_ne]; exact f11_main_call2_v7; decide
  have g12_main_call2_v5 : W13 (Proc.devRef .tc main_call2_v5) = val_main_call2_v5 (F := F) x2 := by
    rw [← hk, unary_result_ne]; exact g11_main_call2_v5; decide
  have g12_main_v3 : W13 (Proc.devRef .tc main_v3) = val_main_v3 (F := F) x0 x1 := by
    rw [← hk, unary_result_ne]; exact g11_main_v3; decide
  have g12_main_v5 : W13 (Proc.devRef .tc main_v5) = val_main_v5 (F := F) x2 := by
    rw [← hk, unary_result_ne]; exact g11_main_v5; decide
  clear hk f11_main_call2_v7 g11_main_call2_c_1 g11_main_call2_v5 g11_main_v3 g11_main_v5
  -- main_call2_v9
  rw [after_cons]
  generalize hk : HloOp.result _ W13 = W14
  have f13_main_call2_v9 : W14 (Proc.devRef .tc main_call2_v9) = val_main_call2_v9 (F := F) := by
    rw [← hk, unary_result, f12_main_call2_v8]
    rfl
  have g13_main_call2_v7 : W14 (Proc.devRef .tc main_call2_v7) = val_main_call2_v7 (F := F) x2 := by
    rw [← hk, unary_result_ne]; exact g12_main_call2_v7; decide
  have g13_main_call2_v5 : W14 (Proc.devRef .tc main_call2_v5) = val_main_call2_v5 (F := F) x2 := by
    rw [← hk, unary_result_ne]; exact g12_main_call2_v5; decide
  have g13_main_v3 : W14 (Proc.devRef .tc main_v3) = val_main_v3 (F := F) x0 x1 := by
    rw [← hk, unary_result_ne]; exact g12_main_v3; decide
  have g13_main_v5 : W14 (Proc.devRef .tc main_v5) = val_main_v5 (F := F) x2 := by
    rw [← hk, unary_result_ne]; exact g12_main_v5; decide
  clear hk f12_main_call2_v8 g12_main_call2_v7 g12_main_call2_v5 g12_main_v3 g12_main_v5
  -- main_call2_v10
  rw [after_cons]
  generalize hk : HloOp.result _ W14 = W15
  have f14_main_call2_v10 : W15 (Proc.devRef .tc main_call2_v10) = val_main_call2_v10 (F := F) x2 := by
    rw [← hk, binary_result, g13_main_call2_v5, f13_main_call2_v9]
    rfl
  have g14_main_call2_v7 : W15 (Proc.devRef .tc main_call2_v7) = val_main_call2_v7 (F := F) x2 := by
    rw [← hk, binary_result_ne]; exact g13_main_call2_v7; decide
  have g14_main_call2_v5 : W15 (Proc.devRef .tc main_call2_v5) = val_main_call2_v5 (F := F) x2 := by
    rw [← hk, binary_result_ne]; exact g13_main_call2_v5; decide
  have g14_main_v3 : W15 (Proc.devRef .tc main_v3) = val_main_v3 (F := F) x0 x1 := by
    rw [← hk, binary_result_ne]; exact g13_main_v3; decide
  have g14_main_v5 : W15 (Proc.devRef .tc main_v5) = val_main_v5 (F := F) x2 := by
    rw [← hk, binary_result_ne]; exact g13_main_v5; decide
  clear hk f13_main_call2_v9 g13_main_call2_v7 g13_main_call2_v5 g13_main_v3 g13_main_v5
  -- main_call2_v11
  rw [after_cons]
  generalize hk : HloOp.result _ W15 = W16
  have f15_main_call2_v11 : W16 (Proc.devRef .tc main_call2_v11) = val_main_call2_v11 (F := F) x2 := by
    rw [← hk, binary_result, g14_main_call2_v7, f14_main_call2_v10]
    rfl
  have g15_main_call2_v5 : W16 (Proc.devRef .tc main_call2_v5) = val_main_call2_v5 (F := F) x2 := by
    rw [← hk, binary_result_ne]; exact g14_main_call2_v5; decide
  have g15_main_v3 : W16 (Proc.devRef .tc main_v3) = val_main_v3 (F := F) x0 x1 := by
    rw [← hk, binary_result_ne]; exact g14_main_v3; decide
  have g15_main_v5 : W16 (Proc.devRef .tc main_v5) = val_main_v5 (F := F) x2 := by
    rw [← hk, binary_result_ne]; exact g14_main_v5; decide
  clear hk f14_main_call2_v10 g14_main_call2_v7 g14_main_call2_v5 g14_main_v3 g14_main_v5
  -- main_call2_c_3
  rw [after_cons]
  generalize hk : HloOp.result _ W16 = W17
  have f16_main_call2_c_3 : W17 (Proc.devRef .tc main_call2_c_3) = val_main_call2_c_3 (F := F) := by
    rw [← hk, nullary_result]
    rfl
  have g16_main_call2_v11 : W17 (Proc.devRef .tc main_call2_v11) = val_main_call2_v11 (F := F) x2 := by
    rw [← hk, nullary_result_ne]; exact f15_main_call2_v11; decide
  have g16_main_call2_v5 : W17 (Proc.devRef .tc main_call2_v5) = val_main_call2_v5 (F := F) x2 := by
    rw [← hk, nullary_result_ne]; exact g15_main_call2_v5; decide
  have g16_main_v3 : W17 (Proc.devRef .tc main_v3) = val_main_v3 (F := F) x0 x1 := by
    rw [← hk, nullary_result_ne]; exact g15_main_v3; decide
  have g16_main_v5 : W17 (Proc.devRef .tc main_v5) = val_main_v5 (F := F) x2 := by
    rw [← hk, nullary_result_ne]; exact g15_main_v5; decide
  clear hk f15_main_call2_v11 g15_main_call2_v5 g15_main_v3 g15_main_v5
  -- main_call2_v12
  rw [after_cons]
  generalize hk : HloOp.result _ W17 = W18
  have f17_main_call2_v12 : W18 (Proc.devRef .tc main_call2_v12) = val_main_call2_v12 (F := F) x2 := by
    rw [← hk, binary_result, g16_main_call2_v11, f16_main_call2_c_3]
    rfl
  have g17_main_call2_v5 : W18 (Proc.devRef .tc main_call2_v5) = val_main_call2_v5 (F := F) x2 := by
    rw [← hk, binary_result_ne]; exact g16_main_call2_v5; decide
  have g17_main_v3 : W18 (Proc.devRef .tc main_v3) = val_main_v3 (F := F) x0 x1 := by
    rw [← hk, binary_result_ne]; exact g16_main_v3; decide
  have g17_main_v5 : W18 (Proc.devRef .tc main_v5) = val_main_v5 (F := F) x2 := by
    rw [← hk, binary_result_ne]; exact g16_main_v5; decide
  clear hk f16_main_call2_c_3 g16_main_call2_v11 g16_main_call2_v5 g16_main_v3 g16_main_v5
  -- main_call2_v13
  rw [after_cons]
  generalize hk : HloOp.result _ W18 = W19
  have f18_main_call2_v13 : W19 (Proc.devRef .tc main_call2_v13) = val_main_call2_v13 (F := F) x0 x1 x2 := by
    rw [← hk, binary_result, g17_main_v3, g17_main_call2_v5]
    rfl
  have g18_main_call2_v12 : W19 (Proc.devRef .tc main_call2_v12) = val_main_call2_v12 (F := F) x2 := by
    rw [← hk, binary_result_ne]; exact f17_main_call2_v12; decide
  have g18_main_v5 : W19 (Proc.devRef .tc main_v5) = val_main_v5 (F := F) x2 := by
    rw [← hk, binary_result_ne]; exact g17_main_v5; decide
  clear hk f17_main_call2_v12 g17_main_call2_v5 g17_main_v3 g17_main_v5
  -- main_call2_cst
  rw [after_cons]
  generalize hk : HloOp.result _ W19 = W20
  have f19_main_call2_cst : W20 (Proc.devRef .tc main_call2_cst) = val_main_call2_cst (F := F) := by
    rw [← hk, nullary_result]
    rfl
  have g19_main_call2_v13 : W20 (Proc.devRef .tc main_call2_v13) = val_main_call2_v13 (F := F) x0 x1 x2 := by
    rw [← hk, nullary_result_ne]; exact f18_main_call2_v13; decide
  have g19_main_call2_v12 : W20 (Proc.devRef .tc main_call2_v12) = val_main_call2_v12 (F := F) x2 := by
    rw [← hk, nullary_result_ne]; exact g18_main_call2_v12; decide
  have g19_main_v5 : W20 (Proc.devRef .tc main_v5) = val_main_v5 (F := F) x2 := by
    rw [← hk, nullary_result_ne]; exact g18_main_v5; decide
  clear hk f18_main_call2_v13 g18_main_call2_v12 g18_main_v5
  -- main_call2_v14
  rw [after_cons]
  generalize hk : HloOp.result _ W20 = W21
  have f20_main_call2_v14 : W21 (Proc.devRef .tc main_call2_v14) = val_main_call2_v14 (F := F) := by
    rw [← hk, unary_result, f19_main_call2_cst]
    rfl
  have g20_main_call2_v13 : W21 (Proc.devRef .tc main_call2_v13) = val_main_call2_v13 (F := F) x0 x1 x2 := by
    rw [← hk, unary_result_ne]; exact g19_main_call2_v13; decide
  have g20_main_call2_v12 : W21 (Proc.devRef .tc main_call2_v12) = val_main_call2_v12 (F := F) x2 := by
    rw [← hk, unary_result_ne]; exact g19_main_call2_v12; decide
  have g20_main_v5 : W21 (Proc.devRef .tc main_v5) = val_main_v5 (F := F) x2 := by
    rw [← hk, unary_result_ne]; exact g19_main_v5; decide
  clear hk f19_main_call2_cst g19_main_call2_v13 g19_main_call2_v12 g19_main_v5
  -- main_v8
  rw [after_cons]
  generalize hk : HloOp.result _ W21 = W22
  have f21_main_v8 : W22 (Proc.devRef .tc main_v8) = val_main_v8 (F := F) x0 x1 x2 := by
    rw [← hk, ternary_result, g20_main_call2_v12, g20_main_call2_v13, f20_main_call2_v14]
    rfl
  have g21_main_v5 : W22 (Proc.devRef .tc main_v5) = val_main_v5 (F := F) x2 := by
    rw [← hk, ternary_result_ne]; exact g20_main_v5; decide
  clear hk f20_main_call2_v14 g20_main_call2_v13 g20_main_call2_v12 g20_main_v5
  exact ⟨f21_main_v8, g21_main_v5⟩

set_option maxHeartbeats 4000000 in
/-- The last stretch, from any contents that hold the log-probabilities and the mask: it leaves the result. -/
theorem s4 (W : Valuation τ sig (Elt F)) (x0 : (⟨S2x4096x2048, .f32⟩ : BufTy).Contents (Elt F)) (x1 : (⟨S32000x2048, .f32⟩ : BufTy).Contents (Elt F)) (x2 : (⟨S2x4096, .i32⟩ : BufTy).Contents (Elt F))
    (h_main_v8 : W (Proc.devRef .tc main_v8) = val_main_v8 (F := F) x0 x1 x2)
    (h_main_v5 : W (Proc.devRef .tc main_v5) = val_main_v5 (F := F) x2) :
    after (ops4 (F := F)) W (Proc.devRef .tc main_v16) = val_main_v16 (F := F) x0 x1 x2 := by
  unfold ops4
  -- main_v9
  rw [after_cons]
  generalize hk : HloOp.result _ W = W1
  have f0_main_v9 : W1 (Proc.devRef .tc main_v9) = val_main_v9 (F := F) x0 x1 x2 := by
    rw [← hk, reshape_result, h_main_v8]
    rfl
  have g0_main_v5 : W1 (Proc.devRef .tc main_v5) = val_main_v5 (F := F) x2 := by
    rw [← hk, reshape_result_ne]; exact h_main_v5; decide
  clear hk h_main_v8 h_main_v5
  -- main_v10
  rw [after_cons]
  generalize hk : HloOp.result _ W1 = W2
  have f1_main_v10 : W2 (Proc.devRef .tc main_v10) = val_main_v10 (F := F) x0 x1 x2 := by
    rw [← hk, unary_result, f0_main_v9]
    rfl
  have g1_main_v5 : W2 (Proc.devRef .tc main_v5) = val_main_v5 (F := F) x2 := by
    rw [← hk, unary_result_ne]; exact g0_main_v5; decide
  clear hk f0_main_v9 g0_main_v5
  -- main_v11
  rw [after_cons]
  generalize hk : HloOp.result _ W2 = W3
  have f2_main_v11 : W3 (Proc.devRef .tc main_v11) = val_main_v11 (F := F) x2 := by
    rw [← hk, unary_result, g1_main_v5]
    rfl
  have g2_main_v10 : W3 (Proc.devRef .tc main_v10) = val_main_v10 (F := F) x0 x1 x2 := by
    rw [← hk, unary_result_ne]; exact f1_main_v10; decide
  have g2_main_v5 : W3 (Proc.devRef .tc main_v5) = val_main_v5 (F := F) x2 := by
    rw [← hk, unary_result_ne]; exact g1_main_v5; decide
  clear hk f1_main_v10 g1_main_v5
  -- main_cst
  rw [after_cons]
  generalize hk : HloOp.result _ W3 = W4
  have f3_main_cst : W4 (Proc.devRef .tc main_cst) = val_main_cst (F := F) := by
    rw [← hk, nullary_result]
    rfl
  have g3_main_v11 : W4 (Proc.devRef .tc main_v11) = val_main_v11 (F := F) x2 := by
    rw [← hk, nullary_result_ne]; exact f2_main_v11; decide
  have g3_main_v10 : W4 (Proc.devRef .tc main_v10) = val_main_v10 (F := F) x0 x1 x2 := by
    rw [← hk, nullary_result_ne]; exact g2_main_v10; decide
  have g3_main_v5 : W4 (Proc.devRef .tc main_v5) = val_main_v5 (F := F) x2 := by
    rw [← hk, nullary_result_ne]; exact g2_main_v5; decide
  clear hk f2_main_v11 g2_main_v10 g2_main_v5
  -- main_v12
  rw [after_cons]
  generalize hk : HloOp.result _ W4 = W5
  have f4_main_v12 : W5 (Proc.devRef .tc main_v12) = val_main_v12 (F := F) x2 := by
    rw [← hk, binary_result, g3_main_v11, f3_main_cst]
    rfl
  have g4_main_v10 : W5 (Proc.devRef .tc main_v10) = val_main_v10 (F := F) x0 x1 x2 := by
    rw [← hk, binary_result_ne]; exact g3_main_v10; decide
  have g4_main_v5 : W5 (Proc.devRef .tc main_v5) = val_main_v5 (F := F) x2 := by
    rw [← hk, binary_result_ne]; exact g3_main_v5; decide
  clear hk f3_main_cst g3_main_v11 g3_main_v10 g3_main_v5
  -- main_cst_1
  rw [after_cons]
  generalize hk : HloOp.result _ W5 = W6
  have f5_main_cst_1 : W6 (Proc.devRef .tc main_cst_1) = val_main_cst_1 (F := F) := by
    rw [← hk, nullary_result]
    rfl
  have g5_main_v12 : W6 (Proc.devRef .tc main_v12) = val_main_v12 (F := F) x2 := by
    rw [← hk, nullary_result_ne]; exact f4_main_v12; decide
  have g5_main_v10 : W6 (Proc.devRef .tc main_v10) = val_main_v10 (F := F) x0 x1 x2 := by
    rw [← hk, nullary_result_ne]; exact g4_main_v10; decide
  have g5_main_v5 : W6 (Proc.devRef .tc main_v5) = val_main_v5 (F := F) x2 := by
    rw [← hk, nullary_result_ne]; exact g4_main_v5; decide
  clear hk f4_main_v12 g4_main_v10 g4_main_v5
  -- main_v13
  rw [after_cons]
  generalize hk : HloOp.result _ W6 = W7
  have f6_main_v13 : W7 (Proc.devRef .tc main_v13) = val_main_v13 (F := F) x2 := by
    rw [← hk, binary_result, g5_main_v12, f5_main_cst_1]
    rfl
  have g6_main_v10 : W7 (Proc.devRef .tc main_v10) = val_main_v10 (F := F) x0 x1 x2 := by
    rw [← hk, binary_result_ne]; exact g5_main_v10; decide
  have g6_main_v5 : W7 (Proc.devRef .tc main_v5) = val_main_v5 (F := F) x2 := by
    rw [← hk, binary_result_ne]; exact g5_main_v5; decide
  clear hk f5_main_cst_1 g5_main_v12 g5_main_v10 g5_main_v5
  -- main_cst_2
  rw [after_cons]
  generalize hk : HloOp.result _ W7 = W8
  have f7_main_cst_2 : W8 (Proc.devRef .tc main_cst_2) = val_main_cst_2 (F := F) := by
    rw [← hk, nullary_result]
    rfl
  have g7_main_v13 : W8 (Proc.devRef .tc main_v13) = val_main_v13 (F := F) x2 := by
    rw [← hk, nullary_result_ne]; exact f6_main_v13; decide
  have g7_main_v10 : W8 (Proc.devRef .tc main_v10) = val_main_v10 (F := F) x0 x1 x2 := by
    rw [← hk, nullary_result_ne]; exact g6_main_v10; decide
  have g7_main_v5 : W8 (Proc.devRef .tc main_v5) = val_main_v5 (F := F) x2 := by
    rw [← hk, nullary_result_ne]; exact g6_main_v5; decide
  clear hk f6_main_v13 g6_main_v10 g6_main_v5
  -- main_call3_v0
  rw [after_cons]
  generalize hk : HloOp.result _ W8 = W9
  have f8_main_call3_v0 : W9 (Proc.devRef .tc main_call3_v0) = val_main_call3_v0 (F := F) := by
    rw [← hk, unary_result, f7_main_cst_2]
    rfl
  have g8_main_v13 : W9 (Proc.devRef .tc main_v13) = val_main_v13 (F := F) x2 := by
    rw [← hk, unary_result_ne]; exact g7_main_v13; decide
  have g8_main_v10 : W9 (Proc.devRef .tc main_v10) = val_main_v10 (F := F) x0 x1 x2 := by
    rw [← hk, unary_result_ne]; exact g7_main_v10; decide
  have g8_main_v5 : W9 (Proc.devRef .tc main_v5) = val_main_v5 (F := F) x2 := by
    rw [← hk, unary_result_ne]; exact g7_main_v5; decide
  clear hk f7_main_cst_2 g7_main_v13 g7_main_v10 g7_main_v5
  -- main_call3_v1
  rw [after_cons]
  generalize hk : HloOp.result _ W9 = W10
  have f9_main_call3_v1 : W10 (Proc.devRef .tc main_call3_v1) = val_main_call3_v1 (F := F) := by
    rw [← hk, unary_result, f8_main_call3_v0]
    rfl
  have g9_main_v13 : W10 (Proc.devRef .tc main_v13) = val_main_v13 (F := F) x2 := by
    rw [← hk, unary_result_ne]; exact g8_main_v13; decide
  have g9_main_v10 : W10 (Proc.devRef .tc main_v10) = val_main_v10 (F := F) x0 x1 x2 := by
    rw [← hk, unary_result_ne]; exact g8_main_v10; decide
  have g9_main_v5 : W10 (Proc.devRef .tc main_v5) = val_main_v5 (F := F) x2 := by
    rw [← hk, unary_result_ne]; exact g8_main_v5; decide
  clear hk f8_main_call3_v0 g8_main_v13 g8_main_v10 g8_main_v5
  -- main_v14
  rw [after_cons]
  generalize hk : HloOp.result _ W10 = W11
  have f10_main_v14 : W11 (Proc.devRef .tc main_v14) = val_main_v14 (F := F) x0 x1 x2 := by
    rw [← hk, ternary_result, g9_main_v5, g9_main_v10, f9_main_call3_v1]
    rfl
  have g10_main_v13 : W11 (Proc.devRef .tc main_v13) = val_main_v13 (F := F) x2 := by
    rw [← hk, ternary_result_ne]; exact g9_main_v13; decide
  clear hk f9_main_call3_v1 g9_main_v13 g9_main_v10 g9_main_v5
  -- main_cst_3
  rw [after_cons]
  generalize hk : HloOp.result _ W11 = W12
  have f11_main_cst_3 : W12 (Proc.devRef .tc main_cst_3) = val_main_cst_3 (F := F) := by
    rw [← hk, nullary_result]
    rfl
  have g11_main_v14 : W12 (Proc.devRef .tc main_v14) = val_main_v14 (F := F) x0 x1 x2 := by
    rw [← hk, nullary_result_ne]; exact f10_main_v14; decide
  have g11_main_v13 : W12 (Proc.devRef .tc main_v13) = val_main_v13 (F := F) x2 := by
    rw [← hk, nullary_result_ne]; exact g10_main_v13; decide
  clear hk f10_main_v14 g10_main_v13
  -- main_v15
  rw [after_cons]
  generalize hk : HloOp.result _ W12 = W13
  have f12_main_v15 : W13 (Proc.devRef .tc main_v15) = val_main_v15 (F := F) x0 x1 x2 := by
    rw [← hk, binary_result, g11_main_v14, f11_main_cst_3]
    rfl
  have g12_main_v13 : W13 (Proc.devRef .tc main_v13) = val_main_v13 (F := F) x2 := by
    rw [← hk, binary_result_ne]; exact g11_main_v13; decide
  clear hk f11_main_cst_3 g11_main_v14 g11_main_v13
  -- main_v16
  rw [after_cons]
  generalize hk : HloOp.result _ W13 = W14
  have f13_main_v16 : W14 (Proc.devRef .tc main_v16) = val_main_v16 (F := F) x0 x1 x2 := by
    rw [← hk, binary_result, f12_main_v15, g12_main_v13]
    rfl
  clear hk f12_main_v15 g12_main_v13
  exact f13_main_v16

end Cert.ReferenceIdeal.RunH

end
-- ==== Proof.RefRunH.lean ====
/-
  The reference program's run, with its result named: every weakly fair execution of its sixty-two host operations
  terminates with the result buffer at the last stage's value — the stages being the operations read one at a time as
  functions of the three arguments — and the arguments unchanged.
-/
import proofs.«403814_j70300024701269_3_alg».proof.Proof.RefRunC1
import proofs.«403814_j70300024701269_3_alg».proof.Proof.RefRunC234

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The four stretches in a row -/

/-- After all the operations, from the launch contents, the result buffer holds the last stage's value. -/
theorem result_eq (m : (ℓ : Loc nD τ sig) → Buf (Elt F) ℓ) (c : Dev nD) :
    after (ops (F := F)) (launchContents m c) (Proc.devRef .tc main_v16)
      = val_main_v16 (F := F) (m ((c.tc : Thread nD τ).loc main_arg0)) (m ((c.tc : Thread nD τ).loc main_arg1)) (m ((c.tc : Thread nD τ).loc main_arg2)) := by
  rw [ops_split, after_append, after_append, after_append]
  obtain ⟨e3, e1⟩ := s1 (F := F) (launchContents m c)
  obtain ⟨e5, e7, e3'⟩ := s2 (after ops1 (launchContents m c)) _ _ _ e1 e3
  obtain ⟨e8, e5'⟩ := s3 (after ops2 (after ops1 (launchContents m c))) _ _ _ e7 e3' e5
  exact s4 _ _ _ _ e8 e5'

/-- The reference program's run: the result buffer ends at the last stage's value, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = val_main_v16 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans (result_eq m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunH

end
-- ==== Proof.RefLogp.lean ====
/-
  The reference's log-softmax of the logits, read at a token and a class: with finite inputs the logit is a real number,
  the row maximum it is shifted by is a real number, and `(logit - M) - log (sum of exp (logit - M))` is
  `logit - log Z` whatever `M` is.
-/
import proofs.«403814_j70300024701269_3_alg».proof.Proof.RefRead
import proofs.«403814_j70300024701269_3_alg».proof.Proof.Spec
import proofs.«403814_j70300024701269_3_alg».proof.Proof.LseMath
import Idealize.ShloMosaic.Lib.ValueIdx
import Idealize.ShloMosaic.Lib.ValueLayout
import Idealize.ShloMosaic.Lib.Pipeline.Value
import Idealize.ShloMosaic.PureOps.Ideal.Laws

noncomputable section

namespace Cert.RefLogp

open Idealize.ShloMosaic Idealize.ShloMosaic.ValueIdx

open Cert.ReferenceIdeal Cert.ReferenceIdeal.ReadP Cert.Spec

/-- Row `n` of the activations read as an [8192, 2048] matrix is entry `(n / 4096, n % 4096)` of the batch. -/
private theorem x_row (n : Fin 8192) (v : Fin 32000) (k : Fin 2048) :
    idx_main_v0 (lidx_main_v2 (ix2 n v) k) = ix3 (hi n) (lo n) k :=
  funext fun a => Fin.ext (by
    have hk := k.isLt
    match a with
    | ⟨0, _⟩ => show (n.val * 2048 + k.val) / 8388608 = n.val / 4096; omega
    | ⟨1, _⟩ => show (n.val * 2048 + k.val) / 2048 % 4096 = n.val % 4096; omega
    | ⟨2, _⟩ => show (n.val * 2048 + k.val) % 2048 = k.val; omega)

/-- The weight's row for class `v`. -/
private theorem w_row (n : Fin 8192) (v : Fin 32000) (k : Fin 2048) :
    ridx_main_v2 (ix2 n v) k = ix2 v k :=
  funext fun a => Fin.ext (by match a with | ⟨0, _⟩ => rfl | ⟨1, _⟩ => rfl)

/-- The reference's logit of token `n` for class `v` is the inner product of row `n` and the class's weight row. -/
theorem logits_eq_logit (x : FVec Ideal SX .f32) (w : FVec Ideal SW .f32) (n : Fin 8192) (v : Fin 32000) :
    val_main_v2 (F := Ideal) x w (ix2 n v) = logit x w n v := by
  rw [val_main_v2_apply]
  unfold logit
  refine Finset.sum_congr rfl fun k _ => ?_
  rw [val_main_v0_apply, x_row, w_row]

/-- With finite inputs it is a real number. -/
theorem logits_eq_coe (x : FVec Ideal SX .f32) (w : FVec Ideal SW .f32)
    (hx : ∀ i, (x i : EReal) ≠ ⊤ ∧ (x i : EReal) ≠ ⊥) (hw : ∀ i, (w i : EReal) ≠ ⊤ ∧ (w i : EReal) ≠ ⊥)
    (n : Fin 8192) (v : Fin 32000) :
    val_main_v2 (F := Ideal) x w (ix2 n v) = ((logitR x w n v : ℝ) : EReal) :=
  (logits_eq_logit x w n v).trans (logit_eq_coe x w hx hw n v)

/-- The class axis is the one a row reduction removes. -/
private theorem hred : S8192x32000.Reduces [1] S8192 := by decide

/-- Token `n` with class `k` put back on the reduced axis is `(n, k)`. -/
private theorem lift_row (n : Fin 8192) (k : Fin (S8192x32000.size 1)) :
    hred.lift (ix1 n) k = ix2 n (⟨k.val, k.isLt⟩ : Fin 32000) := by
  funext c; apply Fin.ext
  fin_cases c <;> rfl

/-- The word `0xFF800000` is `-∞`. -/
private theorem ofBits_neg_inf : Ideal.ofBits .f32 0xFF800000#32 = (⊥ : EReal) := by simp [Ideal.ofBits, Ideal.ieee]

/-- The row of a broadcast row statistic. -/
private theorem row_idx_max (n : Fin 8192) (v : Fin 32000) : idx_main_call0_v3 (idx_main_call0_v4 (ix2 n v)) = ix1 n :=
  funext fun a => Fin.ext (by match a with | ⟨0, _⟩ => rfl)

private theorem row_idx_sum (n : Fin 8192) (v : Fin 32000) : idx_main_call0_v8 (idx_main_call0_v10 (ix2 n v)) = ix1 n :=
  funext fun a => Fin.ext (by match a with | ⟨0, _⟩ => rfl)

/-- The entry of row `n` the row sum reads at step `k`. -/
private theorem col_idx (n : Fin 8192) (k : Fin 32000) : idx_main_call0_v7 (ix1 n) k = ix2 n k :=
  funext fun a => Fin.ext (by match a with | ⟨0, _⟩ => rfl | ⟨1, _⟩ => rfl)

/-- The reference's row maximum of token `n` (the maximum from `-∞` of its logits, once more against `-∞`) is a
    real number. -/
theorem rowmax_real (x : FVec Ideal SX .f32) (w : FVec Ideal SW .f32)
    (hx : ∀ i, (x i : EReal) ≠ ⊤ ∧ (x i : EReal) ≠ ⊥) (hw : ∀ i, (w i : EReal) ≠ ⊤ ∧ (w i : EReal) ≠ ⊥)
    (n : Fin 8192) : ∃ M : ℝ, val_main_call0_v2 (F := Ideal) x w (ix1 n) = (M : EReal) := by
  obtain ⟨M, hM⟩ := Cert.Lse.bot_max_fold_real (by norm_num : 0 < 32000) (fun v => logitR x w n v)
  refine ⟨M, ?_⟩
  rw [val_main_call0_v2_apply, val_main_call0_v1_apply, val_main_call0_cst_0_apply]
  unfold val_main_call0_v0
  rw [Host.reduce_eq_fold_single (FloatOps.maximumf (F := Ideal) (φ := .f32)) _ _ _ hred _, val_main_call0_cst_apply]
  have hf : (val_main_v2 (F := Ideal) x w ∘ hred.lift (ix1 n)) = fun v : Fin 32000 => ((logitR x w n v : ℝ) : EReal) :=
    funext fun k => by
      show val_main_v2 (F := Ideal) x w (hred.lift (ix1 n) k) = _
      rw [lift_row]; exact logits_eq_coe x w hx hw n _
  rw [hf, Ideal.ofBits_def, ofBits_neg_inf]
  exact hM

/-- The shifted logit: the logit less the row maximum. -/
theorem shifted_apply (x : FVec Ideal SX .f32) (w : FVec Ideal SW .f32)
    (hx : ∀ i, (x i : EReal) ≠ ⊤ ∧ (x i : EReal) ≠ ⊥) (hw : ∀ i, (w i : EReal) ≠ ⊤ ∧ (w i : EReal) ≠ ⊥)
    (n : Fin 8192) (M : ℝ) (hM : val_main_call0_v2 (F := Ideal) x w (ix1 n) = (M : EReal)) (v : Fin 32000) :
    val_main_call0_v5 (F := Ideal) x w (ix2 n v) = ((logitR x w n v : ℝ) : EReal) - (M : EReal) := by
  rw [val_main_call0_v5_apply, val_main_call0_v4_apply, val_main_call0_v3_apply, row_idx_max, hM,
    logits_eq_coe x w hx hw, Ideal.subf_def]

/-- The row sum of the shifted exponentials is the normaliser rescaled by the exponential of minus the row maximum. -/
theorem sumexp_apply (x : FVec Ideal SX .f32) (w : FVec Ideal SW .f32)
    (hx : ∀ i, (x i : EReal) ≠ ⊤ ∧ (x i : EReal) ≠ ⊥) (hw : ∀ i, (w i : EReal) ≠ ⊤ ∧ (w i : EReal) ≠ ⊥)
    (n : Fin 8192) (M : ℝ) (hM : val_main_call0_v2 (F := Ideal) x w (ix1 n) = (M : EReal)) :
    val_main_call0_v7 (F := Ideal) x w (ix1 n) = ((Real.exp (-M) * Z x w n : ℝ) : EReal) := by
  have hterm : ∀ k : Fin 32000, val_main_call0_v6 (F := Ideal) x w (idx_main_call0_v7 (ix1 n) k)
      = Ideal.exp (((logitR x w n k : ℝ) : EReal) - (M : EReal)) := fun k => by
    rw [col_idx, val_main_call0_v6_apply, Ideal.hostUnary_exp_def, shifted_apply x w hx hw n M hM k]
  rw [val_main_call0_v7_apply, val_main_call0_cst_1_apply, Ideal.ofBits_def, Ideal.ofBits_zero_f32, zero_add,
    Finset.sum_congr rfl fun k _ => hterm k]
  exact Cert.Lse.shifted_sum M (fun v => logitR x w n v)

/-- The reference's log-probability of class `v` for token `n`. -/
theorem logp_apply (x : FVec Ideal Cert.Spec.SX .f32) (w : FVec Ideal Cert.Spec.SW .f32)
    (hx : ∀ i, (x i : EReal) ≠ ⊤ ∧ (x i : EReal) ≠ ⊥) (hw : ∀ i, (w i : EReal) ≠ ⊤ ∧ (w i : EReal) ≠ ⊥)
    (n : Fin 8192) (v : Fin 32000) :
    (Cert.ReferenceIdeal.ReadP.val_main_v3 (F := Ideal) x w (ix2 n v) : EReal)
      = ((Cert.Spec.logitR x w n v - Real.log (Cert.Spec.Z x w n) : ℝ) : EReal) := by
  obtain ⟨M, hM⟩ := rowmax_real x w hx hw n
  rw [val_main_v3_apply, Ideal.subf_def, shifted_apply x w hx hw n M hM v, val_main_call0_v10_apply,
    val_main_call0_v9_apply, Ideal.hostUnary_log_def, val_main_call0_v8_apply, row_idx_sum,
    sumexp_apply x w hx hw n M hM]
  exact Cert.Lse.shift_cancels _ M _ (Z_pos x w n)

end Cert.RefLogp

end
-- ==== Proof.RefValue.lean ====
/-
  The reference's result is the loss: its log-softmax of the logits, the gather of each token's target column, the masked
  sum and the division, read at the extended reals with finite inputs and targets in range.
-/
import proofs.«403814_j70300024701269_3_alg».proof.Proof.RefRead
import proofs.«403814_j70300024701269_3_alg».proof.Proof.RefLogp
import proofs.«403814_j70300024701269_3_alg».proof.Proof.Spec
import proofs.«403814_j70300024701269_3_alg».proof.Proof.LseMath
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.RefValue

open Idealize.ShloMosaic

open Idealize.ShloMosaic.ValueIdx Cert.ReferenceIdeal Cert.ReferenceIdeal.Gen Cert.ReferenceIdeal.ReadP

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A fold over the one coordinate of a unit axis is one application of the operation. -/
theorem fold_fin_one {α : Type} (op : α → α → α) [Std.Commutative op] [Std.Associative op] (init : α) (g : Fin 1 → α) :
    (Finset.univ : Finset (Fin 1)).fold op init g = op (g 0) init := by
  rw [show (Finset.univ : Finset (Fin 1)) = {0} from rfl]
  exact Finset.fold_singleton

/-- A word below 32000 is not the ignore word, is not negative, is at least 0 and at most 31999 as a signed word, and reads
    the same signed as unsigned. -/
theorem word_facts (a : BitVec 32) (ha : a.toNat < 32000) :
    IntOp.cmpi .ne a 4294967196#32 = 1#1 ∧ IntOp.cmpi .slt a 0#32 = 0#1 ∧ IntOp.cmpi .sge a 0#32 = 1#1
      ∧ IntOp.cmpi .sle a 31999#32 = 1#1 ∧ a.toInt.toNat = a.toNat := by
  have h31 : a.toNat < 2 ^ 31 := by omega
  have z31 : (0#32 : BitVec 32).toNat < 2 ^ 31 := by decide
  have m31 : (31999#32 : BitVec 32).toNat < 2 ^ 31 := by decide
  refine ⟨?_, ?_, ?_, ?_, ?_⟩
  · rw [IntOp.cmpi_ne]
    rintro rfl
    revert ha
    decide
  · refine eq_zero_of_ne_one fun h => ?_
    have := (StableHlo.Predicate.slt_iff_toNat h31 z31).1 h
    simp at this
  · exact (StableHlo.Predicate.sge_iff_toNat h31 z31).2 (by simp)
  · refine (StableHlo.Predicate.sle_iff_toNat h31 m31).2 ?_
    show a.toNat ≤ 31999
    omega
  · rw [StableHlo.Predicate.toInt_eq_toNat_of_lt h31]
    rfl

/-- The gather of the reference's take-along-axis at row n: the operand's row n at the start index read signed
    and clamped into the row. -/
theorem gather_at {α : Type} (lp : S8192x32000.Idx → α) (idx : IVec S8192x1x1 32) (n : Fin 8192) :
    Host.gather gather_S8192x32000_S8192x1x1_S8192x1_n_1_0_0_1_2_11 lp idx (ix2 n (0 : Fin 1))
      = lp (ix2 n ⟨min (idx (ix3 n (0 : Fin 1) (0 : Fin 1))).toInt.toNat 31999, by omega⟩) := by
  unfold Host.gather
  congr 1
  funext a
  refine Fin.ext ?_
  match a with
  | ⟨0, _⟩ =>
    show gather_S8192x32000_S8192x1x1_S8192x1_n_1_0_0_1_2_11.start (ix2 n (0 : Fin 1)) idx 0
        + gather_S8192x32000_S8192x1x1_S8192x1_n_1_0_0_1_2_11.batchCoord (ix2 n (0 : Fin 1)) 0
        + gather_S8192x32000_S8192x1x1_S8192x1_n_1_0_0_1_2_11.offCoord (ix2 n (0 : Fin 1)) 0 = n.val
    rw [GatherDims.start_batching _ _ _ _ (by decide), GatherDims.offCoord_eq_zero _ _ _ (by decide)]
    simp only [Nat.zero_add, Nat.add_zero]
    rfl
  | ⟨1, _⟩ =>
    show gather_S8192x32000_S8192x1x1_S8192x1_n_1_0_0_1_2_11.start (ix2 n (0 : Fin 1)) idx 1
        + gather_S8192x32000_S8192x1x1_S8192x1_n_1_0_0_1_2_11.batchCoord (ix2 n (0 : Fin 1)) 1
        + gather_S8192x32000_S8192x1x1_S8192x1_n_1_0_0_1_2_11.offCoord (ix2 n (0 : Fin 1)) 1
        = min (idx (ix3 n (0 : Fin 1) (0 : Fin 1))).toInt.toNat 31999
    rw [GatherDims.batchCoord_eq_zero _ _ _ (by decide), GatherDims.offCoord_eq_zero _ _ _ (by decide)]
    simp only [Nat.add_zero]
    unfold GatherDims.start
    rw [dif_pos (show (1 : Fin 2) ∈ gather_S8192x32000_S8192x1x1_S8192x1_n_1_0_0_1_2_11.startIndexMap by decide)]
    have hsi : gather_S8192x32000_S8192x1x1_S8192x1_n_1_0_0_1_2_11.siIdx (ix2 n (0 : Fin 1))
        ⟨List.idxOf (1 : Fin 2) gather_S8192x32000_S8192x1x1_S8192x1_n_1_0_0_1_2_11.startIndexMap,
          List.idxOf_lt_length_iff.2 (by decide)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-! ## The target column, read token by token -/

section Rows
variable (x : FVec Ideal Cert.Spec.SX .f32) (w : FVec Ideal Cert.Spec.SW .f32) (t : IVec Cert.Spec.ST 32) (n : Fin 8192)

/-- Token n of the flattened targets is the target word of token n. -/
theorem v1_at : val_main_v1 (F := Ideal) t (ix1 n) = Cert.Spec.tgt t n := by
  rw [val_main_v1_apply]
  have e : idx_main_v1 (ix1 n) = ix2 (Cert.Spec.hi n) (Cert.Spec.lo n) := by
    funext a; match a with | ⟨0, _⟩ => rfl | ⟨1, _⟩ => rfl
  rw [e]
  rfl

/-- The validity mask at token n: the target word is not the ignore word. -/
theorem v5_at : val_main_v5 (F := Ideal) t (ix1 n) = IntOp.cmpi .ne (Cert.Spec.tgt t n) 4294967196#32 := by
  rw [val_main_v5_apply, v1_at, val_main_v4_apply, val_main_c_apply]

/-- The safe target at token n: the target word where valid, else 0. -/
theorem v6_at : val_main_v6 (F := Ideal) t (ix1 n)
    = Scalar.select (IntOp.cmpi .ne (Cert.Spec.tgt t n) 4294967196#32) (Cert.Spec.tgt t n) 0#32 := by
  rw [val_main_v6_apply, v5_at, v1_at, val_main_call1_v1_apply, val_main_call1_v0_apply, val_main_c_0_apply]

/-- The safe targets as a column. -/
theorem v7_at : val_main_v7 (F := Ideal) t (ix2 n (0 : Fin 1)) = val_main_v6 (F := Ideal) t (ix1 n) := by
  rw [val_main_v7_apply]
  congr 1
  funext a; match a with | ⟨0, _⟩ => rfl

/-- The wrapped index at row n: 32000 added to a negative safe target. -/
theorem c2v4_at : val_main_call2_v4 (F := Ideal) t (ix2 n (0 : Fin 1))
    = Scalar.select (IntOp.cmpi .slt (val_main_v6 (F := Ideal) t (ix1 n)) 0#32)
        (IntOp.addi (val_main_v6 (F := Ideal) t (ix1 n)) 32000#32) (val_main_v6 (F := Ideal) t (ix1 n)) := by
  rw [val_main_call2_v4_apply, val_main_call2_v1_apply, val_main_call2_v3_apply, v7_at, val_main_call2_v0_apply,
    val_main_call2_c_apply, val_main_call2_v2_apply, val_main_call2_c_0_apply]

/-- The start indices at (n, 0, 0) are the wrapped index of row n. -/
theorem c2v5_at : val_main_call2_v5 (F := Ideal) t (ix3 n (0 : Fin 1) (0 : Fin 1))
    = val_main_call2_v4 (F := Ideal) t (ix2 n (0 : Fin 1)) := by
  rw [val_main_call2_v5_apply]
  congr 1
  funext a
  match a with
  | ⟨0, _⟩ => exact Fin.ext (by show ((n.val * 1 + 0) * 1 + 0) / 1 = n.val; omega)
  | ⟨1, _⟩ => rfl

/-- The in-range mask at (n, 0, 0): the start index is at least 0 and at most 31999. -/
theorem c2v11_at : val_main_call2_v11 (F := Ideal) t (ix3 n (0 : Fin 1) (0 : Fin 1))
    = IntOp.andi (IntOp.cmpi .sge (val_main_call2_v4 (F := Ideal) t (ix2 n (0 : Fin 1))) 0#32)
        (IntOp.cmpi .sle (val_main_call2_v4 (F := Ideal) t (ix2 n (0 : Fin 1))) 31999#32) := by
  rw [val_main_call2_v11_apply, val_main_call2_v7_apply, val_main_call2_v10_apply, c2v5_at, val_main_call2_v6_apply,
    val_main_call2_c_2_apply, val_main_call2_v9_apply, val_main_call2_v8_apply, val_main_call2_c_1_apply]

/-- The in-range mask reduced over its unit axis is the mask. -/
theorem c2v12_at : val_main_call2_v12 (F := Ideal) t (ix2 n (0 : Fin 1))
    = IntOp.andi (val_main_call2_v11 (F := Ideal) t (ix3 n (0 : Fin 1) (0 : Fin 1))) 1#1 := by
  unfold val_main_call2_v12
  have hr : S8192x1x1.Reduces [2] S8192x1 := by decide
  rw [Host.reduce_eq_fold_single IntOp.andi _ _ reducesTo_S8192x1x1_S8192x1_d2 hr h_S_]
  refine (fold_fin_one IntOp.andi _ _).trans ?_
  have hl : hr.lift (ix2 n (0 : Fin 1)) (0 : Fin 1) = ix3 n (0 : Fin 1) (0 : Fin 1) := by
    funext a; refine Fin.ext ?_
    match a with
    | ⟨0, _⟩ => rfl
    | ⟨1, _⟩ => rfl
    | ⟨2, _⟩ => rfl
  show IntOp.andi (val_main_call2_v11 (F := Ideal) t (hr.lift (ix2 n (0 : Fin 1)) (0 : Fin 1))) _ = _
  rw [hl]
  rfl

/-- The gathered column at row n: the log-softmax's row n at the clamped start index. -/
theorem c2v13_at : val_main_call2_v13 (F := Ideal) x w t (ix2 n (0 : Fin 1))
    = val_main_v3 (F := Ideal) x w (ix2 n ⟨min (val_main_call2_v4 (F := Ideal) t (ix2 n (0 : Fin 1))).toInt.toNat 31999, by omega⟩) := by
  have e : (⟨min (val_main_call2_v5 (F := Ideal) t (ix3 n (0 : Fin 1) (0 : Fin 1))).toInt.toNat 31999, by omega⟩ : Fin 32000)
      = ⟨min (val_main_call2_v4 (F := Ideal) t (ix2 n (0 : Fin 1))).toInt.toNat 31999, by omega⟩ :=
    Fin.ext (by
      show min (val_main_call2_v5 (F := Ideal) t (ix3 n (0 : Fin 1) (0 : Fin 1))).toInt.toNat 31999
        = min (val_main_call2_v4 (F := Ideal) t (ix2 n (0 : Fin 1))).toInt.toNat 31999
      rw [c2v5_at])
  unfold val_main_call2_v13
  rw [gather_at, e]

end Rows

/-! ## A token's count and contribution -/

section Final
variable (x : FVec Ideal Cert.Spec.SX .f32) (w : FVec Ideal Cert.Spec.SW .f32) (t : IVec Cert.Spec.ST 32)

/-- An ignored token counts 0 and contributes 0. -/
theorem row_ignored (n : Fin 8192) (h : Cert.Spec.tgt t n = Cert.Spec.ignoreWord) :
    val_main_v11 (F := Ideal) t (ix1 n) = Cert.Spec.validRow t n
      ∧ val_main_v14 (F := Ideal) x w t (ix1 n) = Cert.Spec.nllRow x w t n := by
  have h5 : val_main_v5 (F := Ideal) t (ix1 n) = 0#1 := by
    rw [v5_at, h]
    decide
  constructor
  · rw [val_main_v11_apply, h5]
    unfold Cert.Spec.validRow
    rw [if_pos h]
    show ((((0#1 : BitVec 1).toNat : ℕ) : ℝ) : EReal) = 0
    simp
  · rw [val_main_v14_apply, h5, select_zero, val_main_call3_v1_apply, val_main_call3_v0_apply, val_main_cst_2_apply]
    unfold Cert.Spec.nllRow
    rw [if_pos h]
    exact Ideal.ofBits_zero_f32

/-- A token whose target is a class counts 1 and contributes its negative log-probability. -/
theorem row_valid (hx : ∀ i, (x i : EReal) ≠ ⊤ ∧ (x i : EReal) ≠ ⊥) (hw : ∀ i, (w i : EReal) ≠ ⊤ ∧ (w i : EReal) ≠ ⊥)
    (n : Fin 8192) (h : (Cert.Spec.tgt t n).toNat < 32000) :
    val_main_v11 (F := Ideal) t (ix1 n) = Cert.Spec.validRow t n
      ∧ val_main_v14 (F := Ideal) x w t (ix1 n) = Cert.Spec.nllRow x w t n := by
  obtain ⟨hne, hslt, hsge, hsle, hnat⟩ := word_facts _ h
  have hni : ¬ Cert.Spec.tgt t n = Cert.Spec.ignoreWord := IntOp.cmpi_ne.1 hne
  have h5 : val_main_v5 (F := Ideal) t (ix1 n) = 1#1 := by rw [v5_at]; exact hne
  have h6 : val_main_v6 (F := Ideal) t (ix1 n) = Cert.Spec.tgt t n := by rw [v6_at, hne, select_one]
  have h4 : val_main_call2_v4 (F := Ideal) t (ix2 n (0 : Fin 1)) = Cert.Spec.tgt t n := by
    rw [c2v4_at, h6, hslt, select_zero]
  have h12 : val_main_call2_v12 (F := Ideal) t (ix2 n (0 : Fin 1)) = 1#1 := by
    rw [c2v12_at, c2v11_at, h4, hsge, hsle]
    decide
  have hcol : (⟨min (val_main_call2_v4 (F := Ideal) t (ix2 n (0 : Fin 1))).toInt.toNat 31999, by omega⟩ : Fin 32000)
      = Cert.Spec.tcol t n := by
    apply Fin.ext
    show min (val_main_call2_v4 (F := Ideal) t (ix2 n (0 : Fin 1))).toInt.toNat 31999 = (Cert.Spec.tgt t n).toNat % 32000
    rw [h4, hnat]
    omega
  have h13 : val_main_call2_v13 (F := Ideal) x w t (ix2 n (0 : Fin 1))
      = ((Cert.Spec.logitR x w n (Cert.Spec.tcol t n) - Real.log (Cert.Spec.Z x w n) : ℝ) : EReal) := by
    rw [c2v13_at, hcol]
    exact Cert.RefLogp.logp_apply x w hx hw n (Cert.Spec.tcol t n)
  constructor
  · rw [val_main_v11_apply, h5]
    unfold Cert.Spec.validRow
    rw [if_neg hni]
    show ((((1#1 : BitVec 1).toNat : ℕ) : ℝ) : EReal) = 1
    simp
  · have e9 : idx_main_v9 (ix1 n) = ix2 n (0 : Fin 1) := by
      funext a
      match a with
      | ⟨0, _⟩ => exact Fin.ext (Nat.div_one _)
      | ⟨1, _⟩ => rfl
    rw [val_main_v14_apply, h5, select_one, val_main_v10_apply, val_main_v9_apply, e9, val_main_v8_apply, h12, select_one, h13]
    unfold Cert.Spec.nllRow
    rw [if_neg hni]
    show -(((Cert.Spec.logitR x w n (Cert.Spec.tcol t n) - Real.log (Cert.Spec.Z x w n) : ℝ)) : EReal) = _
    rw [← EReal.coe_neg, neg_sub]

end Final

theorem result_eq (x : FVec Ideal Cert.Spec.SX .f32) (w : FVec Ideal Cert.Spec.SW .f32) (t : IVec Cert.Spec.ST 32)
    (hx : ∀ i, (x i : EReal) ≠ ⊤ ∧ (x i : EReal) ≠ ⊥) (hw : ∀ i, (w i : EReal) ≠ ⊤ ∧ (w i : EReal) ≠ ⊥)
    (ht : ∀ i, t i = Cert.Spec.ignoreWord ∨ (t i).toNat < 32000) :
    Cert.ReferenceIdeal.ReadP.val_main_v16 (F := Ideal) x w t = fun _ => Cert.Spec.loss x w t := by
  have hrow : ∀ n : Fin 8192, val_main_v11 (F := Ideal) t (ix1 n) = Cert.Spec.validRow t n
      ∧ val_main_v14 (F := Ideal) x w t (ix1 n) = Cert.Spec.nllRow x w t n := fun n => by
    rcases ht (ix2 (Cert.Spec.hi n) (Cert.Spec.lo n)) with h | h
    · exact row_ignored x w t n h
    · exact row_valid x w t hx hw n h
  have h11 : ∀ n : Fin 8192, val_main_v11 (F := Ideal) t (ix1 n) = Cert.Spec.validRow t n := fun n => (hrow n).1
  have h14 : ∀ n : Fin 8192, val_main_v14 (F := Ideal) x w t (ix1 n) = Cert.Spec.nllRow x w t n := fun n => (hrow n).2
  funext i
  show val_main_v16 (F := Ideal) x w t i = Cert.Spec.loss x w t
  rw [val_main_v16_apply, val_main_v15_apply, val_main_v13_apply, val_main_v12_apply, val_main_cst_3_apply,
    val_main_cst_apply, val_main_cst_1_apply, sum_idx1, sum_idx1]
  simp only [h11, h14]
  unfold Cert.Spec.loss
  show Ideal.div (Ideal.ofBits .f32 0x00000000#32 + _) (max (Ideal.ofBits .f32 0x00000000#32 + _) _) = _
  rw [Ideal.ofBits_zero_f32]
  rfl

end Cert.RefValue

end
-- ==== Proof.lean ====
/-
  The certificate: a fused linear layer and cross-entropy loss (logits = activations × weightsᵀ over 8192 tokens and 32000
  classes, mean over the counted tokens of log Z - logit (target), tokens whose target is -100 not counted) computed by a
  kernel that streams the classes in 50 blocks of 640 with a running bound, against the reference's log-softmax and gather.

  Both programs run and leave their arguments unchanged (the kernel's two readings by their frames, the reference's by its
  run).  At the extended reals, under the precondition — finite activations and weights, every target either -100 or a
  class number below 32000 — both results are the one function `Cert.Spec.loss` of the arguments: the kernel's because the
  running bound cancels against the logarithm at the last block (a law of the real exponential and logarithm, which is
  where finiteness is used), the reference's because the row maximum it shifts by cancels the same way.  The range of
  the targets is used for the picked logit: a class number selects exactly one column on the kernel's side and is an
  in-range, non-negative index on the reference's side.
-/
import proofs.«403814_j70300024701269_3_alg».proof.Defs
import proofs.«403814_j70300024701269_3_alg».proof.Proof.Gen.Kernel
import proofs.«403814_j70300024701269_3_alg».proof.Proof.Gen.Kernel.Frame
import proofs.«403814_j70300024701269_3_alg».proof.Proof.Gen.KernelIdeal
import proofs.«403814_j70300024701269_3_alg».proof.Proof.Gen.KernelIdeal.Frame
import proofs.«403814_j70300024701269_3_alg».proof.Proof.Gen.ReferenceIdeal
import proofs.«403814_j70300024701269_3_alg».proof.Proof.Gen.Pre_finite_inputs
import proofs.«403814_j70300024701269_3_alg».proof.Proof.PreFacts
import proofs.«403814_j70300024701269_3_alg».proof.Proof.KFinal
import proofs.«403814_j70300024701269_3_alg».proof.Proof.RefRunH
import proofs.«403814_j70300024701269_3_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The kernel read at the extended reals runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- Both results are the loss of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c => Cert.PreFacts.decode _ _ _ (hpre c)
  refine ⟨fun c => (fun _ => Cert.Spec.loss (Cert.KernelIdeal.KInv.X m c) (Cert.KernelIdeal.KInv.W m c) (Cert.KernelIdeal.KInv.T m c)),
    Cert.KernelIdeal.KFinal.kernel_run m ρ (fun c => (hdec c).1) (fun c => (hdec c).2.1) (fun c => (hdec c).2.2), ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2]
  exact Cert.RefValue.result_eq _ _ _ (hdec c).1 (hdec c).2.1 (hdec c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
